-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x129 : Shape := ⟨2, ![16384, 129]⟩
abbrev S128x8 : Shape := ⟨2, ![128, 8]⟩
abbrev S128 : Shape := ⟨1, ![128]⟩
abbrev S128x128 : Shape := ⟨2, ![128, 128]⟩
abbrev S1x128 : Shape := ⟨2, ![1, 128]⟩
abbrev S1 : Shape := ⟨1, ![1]⟩
abbrev S8x2 : Shape := ⟨2, ![8, 2]⟩
abbrev S_ : Shape := ⟨0, ![]⟩
abbrev S16384x1 : Shape := ⟨2, ![16384, 1]⟩
abbrev S16384 : Shape := ⟨1, ![16384]⟩

class Facts : Prop where
  bcast_S_S16384x129 : S_.BroadcastsInDim S16384x129 (![] : Fin 0 → Fin S16384x129.rank)
  reducesTo_S16384x129_S_d0_1 : S16384x129.ReducesTo [0, 1] S_
  h_S_ : 0 < S_.numel
  bcast_S_S128x8 : S_.BroadcastsInDim S128x8 (![] : Fin 0 → Fin S128x8.rank)
  reducesTo_S128x8_S_d0_1 : S128x8.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S8x2 : S_.BroadcastsInDim S8x2 (![] : Fin 0 → Fin S8x2.rank)
  reducesTo_S8x2_S_d0_1 : S8x2.ReducesTo [0, 1] S_
  slices_S16384x129_S16384x1_0_0 : S16384x129.Slices ![0, 0] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_

variable [Facts]

def fn_part5 {F : FTy → Type} [FloatOps F] (main_arg0 : FVec F S16384x129 .f32) (main_v80 : IVec S_ 1) (main_v85 : IVec S16384 1) : IVec S_ 1 :=
  let main_v86 : FVec F S16384x1 .f32 := (extractStridedSlice S16384x1 ![0, 0] · slices_S16384x129_S16384x1_0_0) main_arg0
  let main_v87 : FVec F S16384 .f32 := shapeCast S16384 main_v86 shapeCasts_S16384x1_S16384
  let main_v88 : IVec S16384 32 := fptosi 32 main_v87
  let main_c_32 : IVec S_ 32 := constantI S_ 32 8#32
  let main_v89 : IVec S16384 32 := broadcastInDim S16384 ![] bcast_S_S16384 main_c_32
  let main_v90 : IVec S16384 1 := cmpi .slt main_v88 main_v89
  let main_v91 : IVec S16384 1 := andi main_v85 main_v90
  let main_c_33 : IVec S_ 1 := constantI S_ 1 1#1
  let main_v92 : IVec S_ 1 := (fun x v => Host.reduce IntOp.andi x v reducesTo_S16384_S_d0 h_S_) main_v91 main_c_33
  let main_v93 : IVec S_ 1 := andi main_v80 main_v92
  main_v93

def fn_part4 {F : FTy → Type} [FloatOps F] (main_arg0 : FVec F S16384x129 .f32) (main_arg14 : FVec F S1 .f32) (main_arg15 : IVec S8x2 32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_c_28 : IVec S_ 32 := constantI S_ 32 0#32
  let main_v74 : IVec S8x2 32 := broadcastInDim S8x2 ![] bcast_S_S8x2 main_c_28
  let main_v75 : IVec S8x2 1 := cmpi .sge main_arg15 main_v74
  let main_c_29 : IVec S_ 32 := constantI S_ 32 16#32
  let main_v76 : IVec S8x2 32 := broadcastInDim S8x2 ![] bcast_S_S8x2 main_c_29
  let main_v77 : IVec S8x2 1 := cmpi .slt main_arg15 main_v76
  let main_v78 : IVec S8x2 1 := andi main_v75 main_v77
  let main_c_30 : IVec S_ 1 := constantI S_ 1 1#1
  let main_v79 : IVec S_ 1 := (fun x v => Host.reduce IntOp.andi x v reducesTo_S8x2_S_d0_1 h_S_) main_v78 main_c_30
  let main_v80 : IVec S_ 1 := andi main_v73 main_v79
  let main_v81 : FVec F S16384x1 .f32 := (extractStridedSlice S16384x1 ![0, 0] · slices_S16384x129_S16384x1_0_0) main_arg0
  let main_v82 : FVec F S16384 .f32 := shapeCast S16384 main_v81 shapeCasts_S16384x1_S16384
  let main_v83 : IVec S16384 32 := fptosi 32 main_v82
  let main_c_31 : IVec S_ 32 := constantI S_ 32 0#32
  let main_v84 : IVec S16384 32 := broadcastInDim S16384 ![] bcast_S_S16384 main_c_31
  let main_v85 : IVec S16384 1 := cmpi .sge main_v83 main_v84
  fn_part5 (F := F) main_arg0 main_v80 main_v85

def fn_part3 {F : FTy → Type} [FloatOps F] (main_arg0 : FVec F S16384x129 .f32) (main_arg11 : FVec F S128x128 .f32) (main_arg12 : FVec F S128 .f32) (main_arg13 : FVec F S1x128 .f32) (main_arg14 : FVec F S1 .f32) (main_arg15 : IVec S8x2 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1x128 .f32 := Host.absf main_arg13
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg0 main_arg14 main_arg15 main_v63 main_v67

def fn_part2 {F : FTy → Type} [FloatOps F] (main_arg0 : FVec F S16384x129 .f32) (main_arg7 : FVec F S1x128 .f32) (main_arg8 : FVec F S1 .f32) (main_arg9 : FVec F S128x128 .f32) (main_arg10 : FVec F S128 .f32) (main_arg11 : FVec F S128x128 .f32) (main_arg12 : FVec F S128 .f32) (main_arg13 : FVec F S1x128 .f32) (main_arg14 : FVec F S1 .f32) (main_arg15 : IVec S8x2 32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg0 main_arg11 main_arg12 main_arg13 main_arg14 main_arg15 main_v48 main_v49 main_v50

def fn_part1 {F : FTy → Type} [FloatOps F] (main_arg0 : FVec F S16384x129 .f32) (main_arg4 : FVec F S128 .f32) (main_arg5 : FVec F S128x128 .f32) (main_arg6 : FVec F S128 .f32) (main_arg7 : FVec F S1x128 .f32) (main_arg8 : FVec F S1 .f32) (main_arg9 : FVec F S128x128 .f32) (main_arg10 : FVec F S128 .f32) (main_arg11 : FVec F S128x128 .f32) (main_arg12 : FVec F S128 .f32) (main_arg13 : FVec F S1x128 .f32) (main_arg14 : FVec F S1 .f32) (main_arg15 : IVec S8x2 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg7 main_arg8 main_arg9 main_arg10 main_arg11 main_arg12 main_arg13 main_arg14 main_arg15 main_v33

def fn {F : FTy → Type} [FloatOps F] (main_arg0 : FVec F S16384x129 .f32) (main_arg1 : FVec F S128x8 .f32) (main_arg2 : FVec F S128 .f32) (main_arg3 : FVec F S128x128 .f32) (main_arg4 : FVec F S128 .f32) (main_arg5 : FVec F S128x128 .f32) (main_arg6 : FVec F S128 .f32) (main_arg7 : FVec F S1x128 .f32) (main_arg8 : FVec F S1 .f32) (main_arg9 : FVec F S128x128 .f32) (main_arg10 : FVec F S128 .f32) (main_arg11 : FVec F S128x128 .f32) (main_arg12 : FVec F S128 .f32) (main_arg13 : FVec F S1x128 .f32) (main_arg14 : FVec F S1 .f32) (main_arg15 : IVec S8x2 32) : IVec S_ 1 :=
  let main_v0 : FVec F S16384x129 .f32 := Host.absf main_arg0
  let main_cst : FVec F S_ .f32 := constant S_ .f32 0x7F800000#32
  let main_v1 : FVec F S16384x129 .f32 := broadcastInDim S16384x129 ![] bcast_S_S16384x129 main_cst
  let main_v2 : IVec S16384x129 1 := cmpf .olt main_v0 main_v1
  let main_c : IVec S_ 1 := constantI S_ 1 1#1
  let main_v3 : IVec S_ 1 := (fun x v => Host.reduce IntOp.andi x v reducesTo_S16384x129_S_d0_1 h_S_) main_v2 main_c
  let main_v4 : FVec F S128x8 .f32 := Host.absf main_arg1
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_c_1 : IVec S_ 1 := constantI S_ 1 1#1
  let main_v7 : IVec S_ 1 := (fun x v => Host.reduce IntOp.andi x v reducesTo_S128x8_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg4 main_arg5 main_arg6 main_arg7 main_arg8 main_arg9 main_arg10 main_arg11 main_arg12 main_arg13 main_arg14 main_arg15 main_v13 main_v16
-- ==== Kernel.lean ====
abbrev S16384x129 : Shape := ⟨2, ![16384, 129]⟩
abbrev S128x8 : Shape := ⟨2, ![128, 8]⟩
abbrev S128 : Shape := ⟨1, ![128]⟩
abbrev S128x128 : Shape := ⟨2, ![128, 128]⟩
abbrev S1x128 : Shape := ⟨2, ![1, 128]⟩
abbrev S1 : Shape := ⟨1, ![1]⟩
abbrev S8x2 : Shape := ⟨2, ![8, 2]⟩
abbrev S16384x128 : Shape := ⟨2, ![16384, 128]⟩
abbrev S16384x1 : Shape := ⟨2, ![16384, 1]⟩
abbrev S16 : Shape := ⟨1, ![16]⟩
abbrev S1x16 : Shape := ⟨2, ![1, 16]⟩
abbrev S8x1 : Shape := ⟨2, ![8, 1]⟩
abbrev S8 : Shape := ⟨1, ![8]⟩
abbrev S8x16 : Shape := ⟨2, ![8, 16]⟩
abbrev S16x16 : Shape := ⟨2, ![16, 16]⟩
abbrev S_ : Shape := ⟨0, ![]⟩
abbrev S8x128 : Shape := ⟨2, ![8, 128]⟩
abbrev S16x1x16x1 : Shape := ⟨4, ![16, 1, 16, 1]⟩
abbrev S1x8x1x128 : Shape := ⟨4, ![1, 8, 1, 128]⟩
abbrev S16x8x16x128 : Shape := ⟨4, ![16, 8, 16, 128]⟩
abbrev S128x2048 : Shape := ⟨2, ![128, 2048]⟩
abbrev S16x128 : Shape := ⟨2, ![16, 128]⟩
abbrev S2048 : Shape := ⟨1, ![2048]⟩
abbrev S16384x16 : Shape := ⟨2, ![16384, 16]⟩
abbrev S1024x128 : Shape := ⟨2, ![1024, 128]⟩
abbrev S1024x16 : Shape := ⟨2, ![1024, 16]⟩
abbrev S1024x2048 : Shape := ⟨2, ![1024, 2048]⟩
abbrev S1x2048 : Shape := ⟨2, ![1, 2048]⟩
abbrev S1024x16x128 : Shape := ⟨3, ![1024, 16, 128]⟩
abbrev S1024x1x128 : Shape := ⟨3, ![1024, 1, 128]⟩
abbrev S1x1x128 : Shape := ⟨3, ![1, 1, 128]⟩
abbrev S8x16384 : Shape := ⟨2, ![8, 16384]⟩
abbrev S1024x1 : Shape := ⟨2, ![1024, 1]⟩
abbrev S8x1024 : Shape := ⟨2, ![8, 1024]⟩
abbrev S1024x16x1 : Shape := ⟨3, ![1024, 16, 1]⟩
abbrev S1x16x1 : Shape := ⟨3, ![1, 16, 1]⟩
abbrev S1024x8x128 : Shape := ⟨3, ![1024, 8, 128]⟩
abbrev S1024x8 : Shape := ⟨2, ![1024, 8]⟩
abbrev S1024x8x1 : Shape := ⟨3, ![1024, 8, 1]⟩
abbrev S8192x128 : Shape := ⟨2, ![8192, 128]⟩
abbrev S16384x8 : Shape := ⟨2, ![16384, 8]⟩

abbrev nBuf : Space → Nat
  | .hbm => 74
  | .vmem => 31
  | .smem => 0
  | _ => 0

abbrev bufTy : (tb : Table) → Fin (tcTables nBuf tb) → BufTy
  | .hbm, ⟨0, _⟩ => ⟨S16384x129, .f32⟩
  | .hbm, ⟨1, _⟩ => ⟨S128x8, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1, .f32⟩
  | .hbm, ⟨15, _⟩ => ⟨S8x2, .i32⟩
  | .hbm, ⟨16, _⟩ => ⟨S16384x128, .f32⟩
  | .hbm, ⟨17, _⟩ => ⟨S16384x1, .f32⟩
  | .hbm, ⟨18, _⟩ => ⟨S16384x1, .i32⟩
  | .hbm, ⟨19, _⟩ => ⟨S16, .i32⟩
  | .hbm, ⟨20, _⟩ => ⟨S1x16, .i32⟩
  | .hbm, ⟨21, _⟩ => ⟨S8x1, .i32⟩
  | .hbm, ⟨22, _⟩ => ⟨S8, .i32⟩
  | .hbm, ⟨23, _⟩ => ⟨S8x1, .i32⟩
  | .hbm, ⟨24, _⟩ => ⟨S8x1, .i32⟩
  | .hbm, ⟨25, _⟩ => ⟨S8, .i32⟩
  | .hbm, ⟨26, _⟩ => ⟨S8x1, .i32⟩
  | .hbm, ⟨27, _⟩ => ⟨S8x16, .i32⟩
  | .hbm, ⟨28, _⟩ => ⟨S8x16, .i32⟩
  | .hbm, ⟨29, _⟩ => ⟨S8x16, .i1⟩
  | .hbm, ⟨30, _⟩ => ⟨S8x16, .f32⟩
  | .hbm, ⟨31, _⟩ => ⟨S8x16, .i32⟩
  | .hbm, ⟨32, _⟩ => ⟨S8x16, .i32⟩
  | .hbm, ⟨33, _⟩ => ⟨S8x16, .i1⟩
  | .hbm, ⟨34, _⟩ => ⟨S8x16, .f32⟩
  | .hbm, ⟨35, _⟩ => ⟨S8x16, .f32⟩
  | .hbm, ⟨36, _⟩ => ⟨S16x16, .i32⟩
  | .hbm, ⟨37, _⟩ => ⟨S16x16, .i32⟩
  | .hbm, ⟨38, _⟩ => ⟨S_, .i32⟩
  | .hbm, ⟨39, _⟩ => ⟨S16x16, .i32⟩
  | .hbm, ⟨40, _⟩ => ⟨S16x16, .i32⟩
  | .hbm, ⟨41, _⟩ => ⟨S16x16, .i1⟩
  | .hbm, ⟨42, _⟩ => ⟨S16x16, .f32⟩
  | .hbm, ⟨43, _⟩ => ⟨S8x128, .f32⟩
  | .hbm, ⟨44, _⟩ => ⟨S16x1x16x1, .f32⟩
  | .hbm, ⟨45, _⟩ => ⟨S1x8x1x128, .f32⟩
  | .hbm, ⟨46, _⟩ => ⟨S16x8x16x128, .f32⟩
  | .hbm, ⟨47, _⟩ => ⟨S16x8x16x128, .f32⟩
  | .hbm, ⟨48, _⟩ => ⟨S16x8x16x128, .f32⟩
  | .hbm, ⟨49, _⟩ => ⟨S128x2048, .f32⟩
  | .hbm, ⟨50, _⟩ => ⟨S128x2048, .bf16⟩
  | .hbm, ⟨51, _⟩ => ⟨S1x128, .f32⟩
  | .hbm, ⟨52, _⟩ => ⟨S16x128, .f32⟩
  | .hbm, ⟨53, _⟩ => ⟨S2048, .f32⟩
  | .hbm, ⟨54, _⟩ => ⟨S128x128, .bf16⟩
  | .hbm, ⟨55, _⟩ => ⟨S128x128, .bf16⟩
  | .hbm, ⟨56, _⟩ => ⟨S128x128, .bf16⟩
  | .hbm, ⟨57, _⟩ => ⟨S128x128, .bf16⟩
  | .hbm, ⟨58, _⟩ => ⟨S16384x16, .f32⟩
  | .hbm, ⟨59, _⟩ => ⟨S_, .f32⟩
  | .hbm, ⟨60, _⟩ => ⟨S16, .f32⟩
  | .hbm, ⟨61, _⟩ => ⟨S1x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S_, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S1x16, .f32⟩
  | .hbm, ⟨71, _⟩ => ⟨S1x16, .f32⟩
  | .hbm, ⟨72, _⟩ => ⟨S8x16384, .f32⟩
  | .hbm, ⟨73, _⟩ => ⟨S16384x8, .f32⟩
  | .local _ .vmem, ⟨0, _⟩ => ⟨S1024x128, .f32⟩
  | .local _ .vmem, ⟨1, _⟩ => ⟨S1024x128, .f32⟩
  | .local _ .vmem, ⟨2, _⟩ => ⟨S128x2048, .bf16⟩
  | .local _ .vmem, ⟨3, _⟩ => ⟨S2048, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S1x128, .f32⟩
  | .local _ .vmem, ⟨9, _⟩ => ⟨S1, .f32⟩
  | .local _ .vmem, ⟨10, _⟩ => ⟨S1024x16, .f32⟩
  | .local _ .vmem, ⟨11, _⟩ => ⟨S1024x16, .f32⟩
  | .local _ .vmem, ⟨12, _⟩ => ⟨S1024x128, .f32⟩
  | .local _ .vmem, ⟨13, _⟩ => ⟨S1024x128, .f32⟩
  | .local _ .vmem, ⟨14, _⟩ => ⟨S1024x16, .f32⟩
  | .local _ .vmem, ⟨15, _⟩ => ⟨S1024x16, .f32⟩
  | .local _ .vmem, ⟨16, _⟩ => ⟨S1x16, .f32⟩
  | .local _ .vmem, ⟨17, _⟩ => ⟨S1x16, .f32⟩
  | .local _ .vmem, ⟨18, _⟩ => ⟨S1024x1, .i32⟩
  | .local _ .vmem, ⟨19, _⟩ => ⟨S1024x1, .i32⟩
  | .local _ .vmem, ⟨20, _⟩ => ⟨S8x16, .f32⟩
  | .local _ .vmem, ⟨21, _⟩ => ⟨S128x2048, .bf16⟩
  | .local _ .vmem, ⟨22, _⟩ => ⟨S2048, .f32⟩
  | .local _ .vmem, ⟨23, _⟩ => ⟨S128x128, .bf16⟩
  | .local _ .vmem, ⟨24, _⟩ => ⟨S128, .f32⟩
  | .local _ .vmem, ⟨25, _⟩ => ⟨S128x128, .bf16⟩
  | .local _ .vmem, ⟨26, _⟩ => ⟨S128, .f32⟩
  | .local _ .vmem, ⟨27, _⟩ => ⟨S1x128, .f32⟩
  | .local _ .vmem, ⟨28, _⟩ => ⟨S1, .f32⟩
  | .local _ .vmem, ⟨29, _⟩ => ⟨S8x1024, .f32⟩
  | .local _ .vmem, ⟨30, _⟩ => ⟨S8x1024, .f32⟩
  | _, _ => ⟨S16384x129, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_0 : Ref sig .tc := ⟨.hbm, 65, rfl⟩
abbrev main_v42 : Ref sig .tc := ⟨.hbm, 66, rfl⟩
abbrev main_cst_1 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg14_0 : Ref sig .tc := ⟨.vmem, 29, rfl⟩
abbrev cc1_stg14_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem12_0 : DmaSem sig := 27
abbrev cc1_sem13_0 : DmaSem sig := 28
abbrev cc1_sem14_0 : DmaSem sig := 29
abbrev cc1_sem14_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S8x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  slices_S16384x129_S16384x128_0_1 : S16384x129.Slices ![0, 1] S16384x128
  slices_S16384x129_S16384x1_0_0 : S16384x129.Slices ![0, 0] S16384x1
  bcast_S16_S1x16_1 : S16.BroadcastsInDim S1x16 (![1] : Fin 1 → Fin S1x16.rank)
  slices_S8x2_S8x1_0_0 : S8x2.Slices ![0, 0] S8x1
  shapeCasts_S8x1_S8 : S8x1.ShapeCasts S8
  bcast_S8_S8x1_0 : S8.BroadcastsInDim S8x1 (![0] : Fin 1 → Fin S8x1.rank)
  slices_S8x2_S8x1_0_1 : S8x2.Slices ![0, 1] S8x1
  bcast_S1x16_S8x16_0_1 : S1x16.BroadcastsInDim S8x16 (![0, 1] : Fin 2 → Fin S8x16.rank)
  bcast_S8x1_S8x16_0_1 : S8x1.BroadcastsInDim S8x16 (![0, 1] : Fin 2 → Fin S8x16.rank)
  bcast_S_S16x16 : S_.BroadcastsInDim S16x16 (![] : Fin 0 → Fin S16x16.rank)
  transposes_S128x8_S8x128_1_0 : S128x8.Transposes [1, 0] S8x128
  bcast_S16x16_S16x1x16x1_0_2 : S16x16.BroadcastsInDim S16x1x16x1 (![0, 2] : Fin 2 → Fin S16x1x16x1.rank)
  bcast_S8x128_S1x8x1x128_1_3 : S8x128.BroadcastsInDim S1x8x1x128 (![1, 3] : Fin 2 → Fin S1x8x1x128.rank)
  bcast_S16x1x16x1_S16x8x16x128_0_1_2_3 : S16x1x16x1.BroadcastsInDim S16x8x16x128 (![0, 1, 2, 3] : Fin 4 → Fin S16x8x16x128.rank)
  bcast_S1x8x1x128_S16x8x16x128_0_1_2_3 : S1x8x1x128.BroadcastsInDim S16x8x16x128 (![0, 1, 2, 3] : Fin 4 → Fin S16x8x16x128.rank)
  shapeCasts_S16x8x16x128_S128x2048 : S16x8x16x128.ShapeCasts S128x2048
  bitsLt_bf16_f32 : FTy.bits .bf16 < FTy.bits .f32
  shapeCasts_S128_S1x128 : S128.ShapeCasts S1x128
  bcast_S1x128_S16x128_0_1 : S1x128.BroadcastsInDim S16x128 (![0, 1] : Fin 2 → Fin S16x128.rank)
  shapeCasts_S16x128_S2048 : S16x128.ShapeCasts S2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S1024x2048_S1024x16x128 : S1024x2048.ShapeCasts S1024x16x128
  reduces_S1024x16x128_S1024x128 : S1024x16x128.Reduces [1] S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  broadcasts_S1x128_S1024x128 : S1x128.Broadcasts S1024x128
  shapeCasts_S1024x16x128_S16384x128 : S1024x16x128.ShapeCasts S16384x128
  broadcasts_S1x128_S16384x128 : S1x128.Broadcasts S16384x128
  shapeCasts_S16384x128_S1024x16x128 : S16384x128.ShapeCasts S1024x16x128
  shapeCasts_S1024x128_S1024x1x128 : S1024x128.ShapeCasts S1024x1x128
  broadcasts_S1024x1x128_S1024x16x128 : S1024x1x128.Broadcasts S1024x16x128
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  shapeCasts_S1x128_S128 : S1x128.ShapeCasts S128
  shapeCasts_S128_S1x1x128 : S128.ShapeCasts S1x1x128
  broadcasts_S1x1x128_S1024x16x128 : S1x1x128.Broadcasts S1024x16x128
  reduces_S1024x16x128_S1024x16 : S1024x16x128.Reduces [2] S1024x16
  inpos_S1_p0 : ∀ a, (![0] : Fin 1 → Nat) a < S1.size a
  inb_S1024x16_S1024x16_0_0 : ∀ a, (![0, 0] : Fin 2 → Nat) a + S1024x16.size a ≤ S1024x16.size a
  h_S1024x16 : 0 < S1024x16.numel
  reducesTo_S16384x16_S16_d0 : S16384x16.ReducesTo [0] S16
  h_S_ : 0 < S_.numel
  bcast_S1x16_S16384x16_0_1 : S1x16.BroadcastsInDim S16384x16 (![0, 1] : Fin 2 → Fin S16384x16.rank)
  bcast_S_S16 : S_.BroadcastsInDim S16 (![] : Fin 0 → Fin S16.rank)
  shapeCasts_S16_S1x16 : S16.ShapeCasts S1x16
  shapeCasts_S1024x16_S1024x16 : S1024x16.ShapeCasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  shapeCasts_S1024x16_S1024x16x1 : S1024x16.ShapeCasts S1024x16x1
  broadcasts_S1024x16x1_S1024x16x128 : S1024x16x1.Broadcasts S1024x16x128
  inb_S8x16_S1x16_0_0 : ∀ a, (![0, 0] : Fin 2 → Nat) a + S1x16.size a ≤ S8x16.size a
  shapeCasts_S1x16_S16 : S1x16.ShapeCasts S16
  shapeCasts_S16_S1x16x1 : S16.ShapeCasts S1x16x1
  broadcasts_S1x16x1_S1024x16x128 : S1x16x1.Broadcasts S1024x16x128
  inb_S8x16_S1x16_1_0 : ∀ a, (![1, 0] : Fin 2 → Nat) a + S1x16.size a ≤ S8x16.size a
  inb_S8x16_S1x16_2_0 : ∀ a, (![2, 0] : Fin 2 → Nat) a + S1x16.size a ≤ S8x16.size a
  inb_S8x16_S1x16_3_0 : ∀ a, (![3, 0] : Fin 2 → Nat) a + S1x16.size a ≤ S8x16.size a
  inb_S8x16_S1x16_4_0 : ∀ a, (![4, 0] : Fin 2 → Nat) a + S1x16.size a ≤ S8x16.size a
  inb_S8x16_S1x16_5_0 : ∀ a, (![5, 0] : Fin 2 → Nat) a + S1x16.size a ≤ S8x16.size a
  inb_S8x16_S1x16_6_0 : ∀ a, (![6, 0] : Fin 2 → Nat) a + S1x16.size a ≤ S8x16.size a
  inb_S8x16_S1x16_7_0 : ∀ a, (![7, 0] : Fin 2 → Nat) a + S1x16.size a ≤ S8x16.size a
  concatenates_S1024x1x128_S1024x1x128_S1024x1x128_S1024x1x128_S1024x1x128_S1024x1x128_S1024x1x128_S1024x1x128_S1024x8x128_d1 : Shape.Concatenates [S1024x1x128, S1024x1x128, S1024x1x128, S1024x1x128, S1024x1x128, S1024x1x128, S1024x1x128, S1024x1x128] S1024x8x128 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x8_d1_w32 : S1024x8.Iotas .tc 32 [1]
  broadcasts_S1024x1_S1024x8 : S1024x1.Broadcasts S1024x8
  natLt_1_32 : 1 < 32
  shapeCasts_S1024x8_S1024x8x1 : S1024x8.ShapeCasts S1024x8x1
  broadcasts_S1024x8x1_S1024x8x128 : S1024x8x1.Broadcasts S1024x8x128
  reduces_S1024x8x128_S1024x128 : S1024x8x128.Reduces [1] S1024x128
  shapeCasts_S1024x8x128_S8192x128 : S1024x8x128.ShapeCasts S8192x128
  broadcasts_S1x128_S8192x128 : S1x128.Broadcasts S8192x128
  shapeCasts_S8192x128_S1024x8x128 : S8192x128.ShapeCasts S1024x8x128
  broadcasts_S1024x1x128_S1024x8x128 : S1024x1x128.Broadcasts S1024x8x128
  broadcasts_S1x1x128_S1024x8x128 : S1x1x128.Broadcasts S1024x8x128
  reduces_S1024x8x128_S1024x8 : S1024x8x128.Reduces [2] S1024x8
  transposes_S1024x8_p1_0_S8x1024 : S1024x8.Transposes [1, 0] S8x1024
  inb_S8x1024_S8x1024_0_0 : ∀ a, (![0, 0] : Fin 2 → Nat) a + S8x1024.size a ≤ S8x1024.size a
  h_S8x1024 : 0 < S8x1024.numel
  transposes_S8x16384_S16384x8_1_0 : S8x16384.Transposes [1, 0] S16384x8
  dot_S1024x128_S128x2048_S1024x2048_1_0_0_1_n_n_wf : DotDims.WF S1024x128 S128x2048 S1024x2048 [1] [0] [0] [1] [] []
  dot_S1024x128_S128x128_S1024x128_1_1_0_0_n_n_wf : DotDims.WF S1024x128 S128x128 S1024x128 [1] [1] [0] [0] [] []
  dot_S16384x128_S128x128_S16384x128_1_1_0_0_n_n_wf : DotDims.WF S16384x128 S128x128 S16384x128 [1] [1] [0] [0] [] []
  dot_S8192x128_S128x128_S8192x128_1_1_0_0_n_n_wf : DotDims.WF S8192x128 S128x128 S8192x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .bf16 = 32 ∨ (Rect.block (s := S128x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x16.size a ≤ S16384x16.size a
  hwx0_9 : ∀ i : grid0.Coords, EltTy.bits .f32 = 32 ∨ (Rect.block (s := S16384x16) S1024x16.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S16384x128.size a
  hwx1_0 : ∀ i : grid1.Coords, EltTy.bits .f32 = 32 ∨ (Rect.block (s := S16384x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x16.size a ≤ S16384x16.size a
  hwx1_1 : ∀ i : grid1.Coords, EltTy.bits .f32 = 32 ∨ (Rect.block (s := S16384x16) S1024x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S16384x1.size a
  hwx1_4 : ∀ i : grid1.Coords, EltTy.bits .i32 = 32 ∨ (Rect.block (s := S16384x1) S1024x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x16.size a ≤ S8x16.size a
  hwx1_5 : ∀ i : grid1.Coords, EltTy.bits .f32 = 32 ∨ (Rect.block (s := S8x16) S8x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2048.size a ≤ S128x2048.size a
  hwx1_6 : ∀ i : grid1.Coords, EltTy.bits .bf16 = 32 ∨ (Rect.block (s := S128x2048) S128x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048.size a ≤ S2048.size a
  hwx1_7 : ∀ i : grid1.Coords, EltTy.bits .f32 = 32 ∨ (Rect.block (s := S2048) S2048.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .bf16 = 32 ∨ (Rect.block (s := S128x128) S128x128.size (cc1_transform_10 i) (hinb1_10 i)).WholeWords (EltTy.packing .bf16)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1.size a ≤ S1.size a
  hwx1_13 : ∀ i : grid1.Coords, EltTy.bits .f32 = 32 ∨ (Rect.block (s := S1) S1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S8x1024.size a ≤ S8x16384.size a
  hwx1_14 : ∀ i : grid1.Coords, EltTy.bits .f32 = 32 ∨ (Rect.block (s := S8x16384) S8x1024.size (cc1_transform_14 i) (hinb1_14 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S16384x128_S128x128_S16384x128_1_1_0_0_n_n : DotDims S16384x128 S128x128 S16384x128 where
  lhsContracting := [1]
  rhsContracting := [1]
  lhsNonContracting := [0]
  rhsNonContracting := [0]
  lhsBatch := []
  rhsBatch := []
  wf := dot_S16384x128_S128x128_S16384x128_1_1_0_0_n_n_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S1024x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S1024x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19) S8x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S128x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v31) S2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v34) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg10) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg13) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg14) S1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v47) S8x1024.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S16384x129 : Shape := ⟨2, ![16384, 129]⟩
abbrev S128x8 : Shape := ⟨2, ![128, 8]⟩
abbrev S128 : Shape := ⟨1, ![128]⟩
abbrev S128x128 : Shape := ⟨2, ![128, 128]⟩
abbrev S1x128 : Shape := ⟨2, ![1, 128]⟩
abbrev S1 : Shape := ⟨1, ![1]⟩
abbrev S8x2 : Shape := ⟨2, ![8, 2]⟩
abbrev S16384x1 : Shape := ⟨2, ![16384, 1]⟩
abbrev S16384 : Shape := ⟨1, ![16384]⟩
abbrev S16384x128 : Shape := ⟨2, ![16384, 128]⟩
abbrev S16384x16x8 : Shape := ⟨3, ![16384, 16, 8]⟩
abbrev S16384x16x128 : Shape := ⟨3, ![16384, 16, 128]⟩
abbrev S1x1x128 : Shape := ⟨3, ![1, 1, 128]⟩
abbrev S_ : Shape := ⟨0, ![]⟩
abbrev S16384x1x128 : Shape := ⟨3, ![16384, 1, 128]⟩
abbrev S16384x16x1 : Shape := ⟨3, ![16384, 16, 1]⟩
abbrev S1x1x1 : Shape := ⟨3, ![1, 1, 1]⟩
abbrev S16x1 : Shape := ⟨2, ![16, 1]⟩
abbrev S1x16x1 : Shape := ⟨3, ![1, 16, 1]⟩
abbrev S8x1 : Shape := ⟨2, ![8, 1]⟩
abbrev S8 : Shape := ⟨1, ![8]⟩
abbrev S16384x8x128 : Shape := ⟨3, ![16384, 8, 128]⟩
abbrev S16384x1x1 : Shape := ⟨3, ![16384, 1, 1]⟩
abbrev S16384x8x1 : Shape := ⟨3, ![16384, 8, 1]⟩
abbrev S16384x8 : Shape := ⟨2, ![16384, 8]⟩

abbrev nBuf : Space → Nat
  | .hbm => 126
  | .vmem => 0
  | .smem => 0
  | _ => 0

abbrev bufTy : (tb : Table) → Fin (tcTables nBuf tb) → BufTy
  | .hbm, ⟨0, _⟩ => ⟨S16384x129, .f32⟩
  | .hbm, ⟨1, _⟩ => ⟨S128x8, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x128, .f32⟩
  | .hbm, ⟨8, _⟩ => ⟨S1, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x128, .f32⟩
  | .hbm, ⟨14, _⟩ => ⟨S1, .f32⟩
  | .hbm, ⟨15, _⟩ => ⟨S8x2, .i32⟩
  | .hbm, ⟨16, _⟩ => ⟨S16384x1, .f32⟩
  | .hbm, ⟨17, _⟩ => ⟨S16384, .f32⟩
  | .hbm, ⟨18, _⟩ => ⟨S16384, .i32⟩
  | .hbm, ⟨19, _⟩ => ⟨S16384x128, .f32⟩
  | .hbm, ⟨20, _⟩ => ⟨S16384x16x8, .f32⟩
  | .hbm, ⟨21, _⟩ => ⟨S16384x16x128, .f32⟩
  | .hbm, ⟨22, _⟩ => ⟨S1x1x128, .f32⟩
  | .hbm, ⟨23, _⟩ => ⟨S16384x16x128, .f32⟩
  | .hbm, ⟨24, _⟩ => ⟨S16384x16x128, .f32⟩
  | .hbm, ⟨25, _⟩ => ⟨S_, .f32⟩
  | .hbm, ⟨26, _⟩ => ⟨S16384x128, .f32⟩
  | .hbm, ⟨27, _⟩ => ⟨S_, .f32⟩
  | .hbm, ⟨28, _⟩ => ⟨S16384x128, .f32⟩
  | .hbm, ⟨29, _⟩ => ⟨S16384x128, .f32⟩
  | .hbm, ⟨30, _⟩ => ⟨S16384x128, .f32⟩
  | .hbm, ⟨31, _⟩ => ⟨S1x128, .f32⟩
  | .hbm, ⟨32, _⟩ => ⟨S16384x128, .f32⟩
  | .hbm, ⟨33, _⟩ => ⟨S16384x128, .f32⟩
  | .hbm, ⟨34, _⟩ => ⟨S16384x16x128, .f32⟩
  | .hbm, ⟨35, _⟩ => ⟨S1x1x128, .f32⟩
  | .hbm, ⟨36, _⟩ => ⟨S16384x16x128, .f32⟩
  | .hbm, ⟨37, _⟩ => ⟨S16384x16x128, .f32⟩
  | .hbm, ⟨38, _⟩ => ⟨S16384x1x128, .f32⟩
  | .hbm, ⟨39, _⟩ => ⟨S16384x16x128, .f32⟩
  | .hbm, ⟨40, _⟩ => ⟨S16384x16x128, .f32⟩
  | .hbm, ⟨41, _⟩ => ⟨S16384x16x128, .f32⟩
  | .hbm, ⟨42, _⟩ => ⟨S16384x16x1, .f32⟩
  | .hbm, ⟨43, _⟩ => ⟨S1x1x1, .f32⟩
  | .hbm, ⟨44, _⟩ => ⟨S16384x16x1, .f32⟩
  | .hbm, ⟨45, _⟩ => ⟨S16384x16x1, .f32⟩
  | .hbm, ⟨46, _⟩ => ⟨S_, .f32⟩
  | .hbm, ⟨47, _⟩ => ⟨S16x1, .f32⟩
  | .hbm, ⟨48, _⟩ => ⟨S_, .f32⟩
  | .hbm, ⟨49, _⟩ => ⟨S16x1, .f32⟩
  | .hbm, ⟨50, _⟩ => ⟨S16x1, .f32⟩
  | .hbm, ⟨51, _⟩ => ⟨S1x16x1, .f32⟩
  | .hbm, ⟨52, _⟩ => ⟨S16384x16x1, .f32⟩
  | .hbm, ⟨53, _⟩ => ⟨S16384x16x1, .f32⟩
  | .hbm, ⟨54, _⟩ => ⟨S16384x16x1, .f32⟩
  | .hbm, ⟨55, _⟩ => ⟨S_, .f32⟩
  | .hbm, ⟨56, _⟩ => ⟨S16x1, .f32⟩
  | .hbm, ⟨57, _⟩ => ⟨S1x16x1, .f32⟩
  | .hbm, ⟨58, _⟩ => ⟨S16384x16x1, .f32⟩
  | .hbm, ⟨59, _⟩ => ⟨S16384x16x1, .f32⟩
  | .hbm, ⟨60, _⟩ => ⟨S16384x16x128, .f32⟩
  | .hbm, ⟨61, _⟩ => ⟨S16384x16x128, .f32⟩
  | .hbm, ⟨62, _⟩ => ⟨S8x1, .i32⟩
  | .hbm, ⟨63, _⟩ => ⟨S8, .i32⟩
  | .hbm, ⟨64, _⟩ => ⟨S_, .i32⟩
  | .hbm, ⟨65, _⟩ => ⟨S8, .i32⟩
  | .hbm, ⟨66, _⟩ => ⟨S8, .i1⟩
  | .hbm, ⟨67, _⟩ => ⟨S_, .i32⟩
  | .hbm, ⟨68, _⟩ => ⟨S8, .i32⟩
  | .hbm, ⟨69, _⟩ => ⟨S8, .i32⟩
  | .hbm, ⟨70, _⟩ => ⟨S8, .i32⟩
  | .hbm, ⟨71, _⟩ => ⟨S8x1, .i32⟩
  | .hbm, ⟨72, _⟩ => ⟨S16384x8x128, .f32⟩
  | .hbm, ⟨73, _⟩ => ⟨S8x1, .i32⟩
  | .hbm, ⟨74, _⟩ => ⟨S8, .i32⟩
  | .hbm, ⟨75, _⟩ => ⟨S_, .i32⟩
  | .hbm, ⟨76, _⟩ => ⟨S8, .i32⟩
  | .hbm, ⟨77, _⟩ => ⟨S8, .i1⟩
  | .hbm, ⟨78, _⟩ => ⟨S_, .i32⟩
  | .hbm, ⟨79, _⟩ => ⟨S8, .i32⟩
  | .hbm, ⟨80, _⟩ => ⟨S8, .i32⟩
  | .hbm, ⟨81, _⟩ => ⟨S8, .i32⟩
  | .hbm, ⟨82, _⟩ => ⟨S8x1, .i32⟩
  | .hbm, ⟨83, _⟩ => ⟨S16384x8x128, .f32⟩
  | .hbm, ⟨84, _⟩ => ⟨S16384x8x128, .f32⟩
  | .hbm, ⟨85, _⟩ => ⟨S16384x1x1, .i32⟩
  | .hbm, ⟨86, _⟩ => ⟨S_, .i32⟩
  | .hbm, ⟨87, _⟩ => ⟨S16384x1x1, .i32⟩
  | .hbm, ⟨88, _⟩ => ⟨S16384x1x1, .i1⟩
  | .hbm, ⟨89, _⟩ => ⟨S_, .i32⟩
  | .hbm, ⟨90, _⟩ => ⟨S16384x1x1, .i32⟩
  | .hbm, ⟨91, _⟩ => ⟨S16384x1x1, .i32⟩
  | .hbm, ⟨92, _⟩ => ⟨S16384x1x1, .i32⟩
  | .hbm, ⟨93, _⟩ => ⟨S1, .i32⟩
  | .hbm, ⟨94, _⟩ => ⟨S_, .i32⟩
  | .hbm, ⟨95, _⟩ => ⟨S16384x1x1, .i32⟩
  | .hbm, ⟨96, _⟩ => ⟨S16384x1x1, .i1⟩
  | .hbm, ⟨97, _⟩ => ⟨S1x1x1, .i32⟩
  | .hbm, ⟨98, _⟩ => ⟨S16384x1x1, .i32⟩
  | .hbm, ⟨99, _⟩ => ⟨S16384x1x1, .i1⟩
  | .hbm, ⟨100, _⟩ => ⟨S16384x1x1, .i1⟩
  | .hbm, ⟨101, _⟩ => ⟨S_, .i1⟩
  | .hbm, ⟨102, _⟩ => ⟨S16384x1, .i1⟩
  | .hbm, ⟨103, _⟩ => ⟨S16384x1x128, .f32⟩
  | .hbm, ⟨104, _⟩ => ⟨S16384x1x128, .i1⟩
  | .hbm, ⟨105, _⟩ => ⟨S_, .f32⟩
  | .hbm, ⟨106, _⟩ => ⟨S16384x1x128, .f32⟩
  | .hbm, ⟨107, _⟩ => ⟨S16384x1x128, .f32⟩
  | .hbm, ⟨108, _⟩ => ⟨S16384x128, .f32⟩
  | .hbm, ⟨109, _⟩ => ⟨S16384x128, .f32⟩
  | .hbm, ⟨110, _⟩ => ⟨S1x128, .f32⟩
  | .hbm, ⟨111, _⟩ => ⟨S16384x128, .f32⟩
  | .hbm, ⟨112, _⟩ => ⟨S16384x128, .f32⟩
  | .hbm, ⟨113, _⟩ => ⟨S16384x8x128, .f32⟩
  | .hbm, ⟨114, _⟩ => ⟨S1x1x128, .f32⟩
  | .hbm, ⟨115, _⟩ => ⟨S16384x8x128, .f32⟩
  | .hbm, ⟨116, _⟩ => ⟨S16384x8x128, .f32⟩
  | .hbm, ⟨117, _⟩ => ⟨S16384x1x128, .f32⟩
  | .hbm, ⟨118, _⟩ => ⟨S16384x8x128, .f32⟩
  | .hbm, ⟨119, _⟩ => ⟨S16384x8x128, .f32⟩
  | .hbm, ⟨120, _⟩ => ⟨S16384x8x128, .f32⟩
  | .hbm, ⟨121, _⟩ => ⟨S16384x8x1, .f32⟩
  | .hbm, ⟨122, _⟩ => ⟨S1x1x1, .f32⟩
  | .hbm, ⟨123, _⟩ => ⟨S16384x8x1, .f32⟩
  | .hbm, ⟨124, _⟩ => ⟨S16384x8x1, .f32⟩
  | .hbm, ⟨125, _⟩ => ⟨S16384x8, .f32⟩
  | _, _ => ⟨S16384x129, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_1 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c : Ref sig .tc := ⟨.hbm, 64, rfl⟩
abbrev main_v43 : Ref sig .tc := ⟨.hbm, 65, rfl⟩
abbrev main_v44 : Ref sig .tc := ⟨.hbm, 66, rfl⟩
abbrev main_c_4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call0_c : Ref sig .tc := ⟨.hbm, 86, rfl⟩
abbrev main_call0_v0 : Ref sig .tc := ⟨.hbm, 87, rfl⟩
abbrev main_call0_v1 : Ref sig .tc := ⟨.hbm, 88, rfl⟩
abbrev main_call0_c_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_c_1 : Ref sig .tc := ⟨.hbm, 93, rfl⟩
abbrev main_call0_c_2 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_c_3 : Ref sig .tc := ⟨.hbm, 101, rfl⟩
abbrev main_call0_v11 : Ref sig .tc := ⟨.hbm, 102, rfl⟩
abbrev main_call0_v12 : Ref sig .tc := ⟨.hbm, 103, rfl⟩
abbrev main_call0_v13 : Ref sig .tc := ⟨.hbm, 104, rfl⟩
abbrev main_call0_cst : Ref sig .tc := ⟨.hbm, 105, rfl⟩
abbrev main_call0_v14 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩

abbrev nD : Nat := 1
abbrev τ : Topo := Topo.v7x

variable {F : FTy → Type} [FloatOps F]

class Facts₀ : Prop where
  slices_S16384x129_S16384x1_0_0 : S16384x129.Slices ![0, 0] S16384x1
  shapeCasts_S16384x1_S16384 : S16384x1.ShapeCasts S16384
  slices_S16384x129_S16384x128_0_1 : S16384x129.Slices ![0, 1] S16384x128
  shapeCasts_S16384x128_S16384x16x8 : S16384x128.ShapeCasts S16384x16x8
  bcast_S128_S1x1x128_2 : S128.BroadcastsInDim S1x1x128 (![2] : Fin 1 → Fin S1x1x128.rank)
  bcast_S1x1x128_S16384x16x128_0_1_2 : S1x1x128.BroadcastsInDim S16384x16x128 (![0, 1, 2] : Fin 3 → Fin S16384x16x128.rank)
  reducesTo_S16384x16x128_S16384x128_d1 : S16384x16x128.ReducesTo [1] S16384x128
  h_S_ : 0 < S_.numel
  bcast_S_S16384x128 : S_.BroadcastsInDim S16384x128 (![] : Fin 0 → Fin S16384x128.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384x128_S16384x1x128_0_2 : S16384x128.BroadcastsInDim S16384x1x128 (![0, 2] : Fin 2 → Fin S16384x1x128.rank)
  bcast_S16384x1x128_S16384x16x128_0_1_2 : S16384x1x128.BroadcastsInDim S16384x16x128 (![0, 1, 2] : Fin 3 → Fin S16384x16x128.rank)
  bcast_S1_S1x1x1_2 : S1.BroadcastsInDim S1x1x1 (![2] : Fin 1 → Fin S1x1x1.rank)
  bcast_S1x1x1_S16384x16x1_0_1_2 : S1x1x1.BroadcastsInDim S16384x16x1 (![0, 1, 2] : Fin 3 → Fin S16384x16x1.rank)
  reducesTo_S16384x16x1_S16x1_d0 : S16384x16x1.ReducesTo [0] S16x1
  bcast_S_S16x1 : S_.BroadcastsInDim S16x1 (![] : Fin 0 → Fin S16x1.rank)
  bcast_S16x1_S1x16x1_1_2 : S16x1.BroadcastsInDim S1x16x1 (![1, 2] : Fin 2 → Fin S1x16x1.rank)
  bcast_S1x16x1_S16384x16x1_0_1_2 : S1x16x1.BroadcastsInDim S16384x16x1 (![0, 1, 2] : Fin 3 → Fin S16384x16x1.rank)
  bcast_S16384x16x1_S16384x16x128_0_1_2 : S16384x16x1.BroadcastsInDim S16384x16x128 (![0, 1, 2] : Fin 3 → Fin S16384x16x128.rank)
  slices_S8x2_S8x1_0_0 : S8x2.Slices ![0, 0] S8x1
  shapeCasts_S8x1_S8 : S8x1.ShapeCasts S8
  bcast_S_S8 : S_.BroadcastsInDim S8 (![] : Fin 0 → Fin S8.rank)
  bcast_S8_S8x1_0 : S8.BroadcastsInDim S8x1 (![0] : Fin 1 → Fin S8x1.rank)
  slices_S8x2_S8x1_0_1 : S8x2.Slices ![0, 1] S8x1
  bcast_S16384_S16384x1x1_0 : S16384.BroadcastsInDim S16384x1x1 (![0] : Fin 1 → Fin S16384x1x1.rank)
  bcast_S_S16384x1x1 : S_.BroadcastsInDim S16384x1x1 (![] : Fin 0 → Fin S16384x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  bcast_S16384x1_S16384x1x128_0_1 : S16384x1.BroadcastsInDim S16384x1x128 (![0, 1] : Fin 2 → Fin S16384x1x128.rank)
  bcast_S_S16384x1x128 : S_.BroadcastsInDim S16384x1x128 (![] : Fin 0 → Fin S16384x1x128.rank)
  shapeCasts_S16384x1x128_S16384x128 : S16384x1x128.ShapeCasts S16384x128
  bcast_S1x1x128_S16384x8x128_0_1_2 : S1x1x128.BroadcastsInDim S16384x8x128 (![0, 1, 2] : Fin 3 → Fin S16384x8x128.rank)
  bcast_S16384x1x128_S16384x8x128_0_1_2 : S16384x1x128.BroadcastsInDim S16384x8x128 (![0, 1, 2] : Fin 3 → Fin S16384x8x128.rank)
  bcast_S1x1x1_S16384x8x1_0_1_2 : S1x1x1.BroadcastsInDim S16384x8x1 (![0, 1, 2] : Fin 3 → Fin S16384x8x1.rank)
  shapeCasts_S16384x8x1_S16384x8 : S16384x8x1.ShapeCasts S16384x8
  dot_S16384x16x8_S128x8_S16384x16x128_2_1_01_0_n_n_wf : DotDims.WF S16384x16x8 S128x8 S16384x16x128 [2] [1] [0, 1] [0] [] []
  dot_S16384x128_S128x128_S16384x128_1_1_0_0_n_n_wf : DotDims.WF S16384x128 S128x128 S16384x128 [1] [1] [0] [0] [] []
  dot_S16384x16x128_S128x128_S16384x16x128_2_1_01_0_n_n_wf : DotDims.WF S16384x16x128 S128x128 S16384x16x128 [2] [1] [0, 1] [0] [] []
  dot_S16384x16x128_S1x128_S16384x16x1_2_1_01_0_n_n_wf : DotDims.WF S16384x16x128 S1x128 S16384x16x1 [2] [1] [0, 1] [0] [] []
  gather_S16384x16x128_S8x1_S16384x8x128_02_1_n_n_1_1_163841128_wf : GatherDims.WF S16384x16x128 S8x1 S16384x8x128 [0, 2] [1] [] [1] [] 1 ![16384, 1, 128]
  gather_S16384x8x128_S16384x1x1_S16384x1x128_2_1_0_0_1_2_11128_wf : GatherDims.WF S16384x8x128 S16384x1x1 S16384x1x128 [2] [1] [0] [1] [0] 2 ![1, 1, 128]
  dot_S16384x8x128_S128x128_S16384x8x128_2_1_01_0_n_n_wf : DotDims.WF S16384x8x128 S128x128 S16384x8x128 [2] [1] [0, 1] [0] [] []
  dot_S16384x8x128_S1x128_S16384x8x1_2_1_01_0_n_n_wf : DotDims.WF S16384x8x128 S1x128 S16384x8x1 [2] [1] [0, 1] [0] [] []

variable [Facts₀]

def dot_S16384x16x8_S128x8_S16384x16x128_2_1_01_0_n_n : DotDims S16384x16x8 S128x8 S16384x16x128 where
  lhsContracting := [2]
  rhsContracting := [1]
  lhsNonContracting := [0, 1]
  rhsNonContracting := [0]
  lhsBatch := []
  rhsBatch := []
  wf := dot_S16384x16x8_S128x8_S16384x16x128_2_1_01_0_n_n_wf
def dot_S16384x128_S128x128_S16384x128_1_1_0_0_n_n : DotDims S16384x128 S128x128 S16384x128 where
  lhsContracting := [1]
  rhsContracting := [1]
  lhsNonContracting := [0]
  rhsNonContracting := [0]
  lhsBatch := []
  rhsBatch := []
  wf := dot_S16384x128_S128x128_S16384x128_1_1_0_0_n_n_wf
def dot_S16384x16x128_S128x128_S16384x16x128_2_1_01_0_n_n : DotDims S16384x16x128 S128x128 S16384x16x128 where
  lhsContracting := [2]
  rhsContracting := [1]
  lhsNonContracting := [0, 1]
  rhsNonContracting := [0]
  lhsBatch := []
  rhsBatch := []
  wf := dot_S16384x16x128_S128x128_S16384x16x128_2_1_01_0_n_n_wf
def dot_S16384x16x128_S1x128_S16384x16x1_2_1_01_0_n_n : DotDims S16384x16x128 S1x128 S16384x16x1 where
  lhsContracting := [2]
  rhsContracting := [1]
  lhsNonContracting := [0, 1]
  rhsNonContracting := [0]
  lhsBatch := []
  rhsBatch := []
  wf := dot_S16384x16x128_S1x128_S16384x16x1_2_1_01_0_n_n_wf
def gather_S16384x16x128_S8x1_S16384x8x128_02_1_n_n_1_1_163841128 : GatherDims S16384x16x128 S8x1 S16384x8x128 where
  offsetDims := [0, 2]
  collapsedSliceDims := [1]
  operandBatchingDims := []
  startIndicesBatchingDims := []
  startIndexMap := [1]
  indexVectorDim := 1
  sliceSizes := ![16384, 1, 128]
  wf := gather_S16384x16x128_S8x1_S16384x8x128_02_1_n_n_1_1_163841128_wf
def gather_S16384x8x128_S16384x1x1_S16384x1x128_2_1_0_0_1_2_11128 : GatherDims S16384x8x128 S16384x1x1 S16384x1x128 where
  offsetDims := [2]
  collapsedSliceDims := [1]
  operandBatchingDims := [0]
  startIndicesBatchingDims := [0]
  startIndexMap := [1]
  indexVectorDim := 2
  sliceSizes := ![1, 1, 128]
  wf := gather_S16384x8x128_S16384x1x1_S16384x1x128_2_1_0_0_1_2_11128_wf
def dot_S16384x8x128_S128x128_S16384x8x128_2_1_01_0_n_n : DotDims S16384x8x128 S128x128 S16384x8x128 where
  lhsContracting := [2]
  rhsContracting := [1]
  lhsNonContracting := [0, 1]
  rhsNonContracting := [0]
  lhsBatch := []
  rhsBatch := []
  wf := dot_S16384x8x128_S128x128_S16384x8x128_2_1_01_0_n_n_wf
def dot_S16384x8x128_S1x128_S16384x8x1_2_1_01_0_n_n : DotDims S16384x8x128 S1x128 S16384x8x1 where
  lhsContracting := [2]
  rhsContracting := [1]
  lhsNonContracting := [0, 1]
  rhsNonContracting := [0]
  lhsBatch := []
  rhsBatch := []
  wf := dot_S16384x8x128_S1x128_S16384x8x1_2_1_01_0_n_n_wf

class Facts : Prop extends Facts₀ where

variable [Facts]
-- ==== Proof.Spec.lean ====
/-
  The function both programs compute, written once over the argument arrays, index by index, on the
  extended reals.

  A state row holds a phase label (column 0) and 16 lanes of 8 features (columns 1 … 128). Each lane is
  embedded by one affine map into 128 units (`embRow`). A lane's attention logit is a scalar read-out
  of `tanh` of two affine images: of the lane's embedding and of the row's mean embedding (`logitRow`).
  The logits are normalised by a softmax ALONG THE BATCH, one lane at a time (`colMax`, `expShift`,
  `colSum`, `attn`), and weight the embeddings. Eight lane PAIRS are then formed by selector rows
  (`sel`: entry (p, l) counts how often lane l is named by pair p), one pair is picked per row by the
  row's phase (`hotOf`), and a second read-out of `tanh` of two affine images gives the result (`qRow`).

  Everything that happens inside one row is stated for ONE row (the `…Row` functions, over the row's
  128 features or its 16 × 128 embedding), so that it can be read off a block of rows as well as off
  the whole batch; only the softmax statistics see the batch.

  The softmax weight is written as the product with the reciprocal of the column sum, the pair sums
  as sums over all 16 lanes against the selector, and the picked pair as a sum over all 8 pairs
  against the indicator of the clamped phase: the forms under which nothing has to be assumed of the
  arguments to read them off a program that computes them so. The embedding is also given in the
  form of ONE product of the 128 features with a block-diagonal 128 × 2048 matrix (`embBig`,
  `blockDiag`, `tiled`).
-/
import Idealize.ShloMosaic.PureOps.Ideal
import Idealize.ShloMosaic.Lib.ValueIdx

noncomputable section

namespace Cert.LaneAttn

open Idealize.ShloMosaic Idealize.ShloMosaic.ValueIdx

/-- A matrix of extended reals over a literal shape. -/
abbrev Mat (a b : Nat) : Type := (⟨2, ![a, b]⟩ : Shape).Idx → EReal
/-- A vector of extended reals over a literal shape. -/
abbrev Vc (a : Nat) : Type := (⟨1, ![a]⟩ : Shape).Idx → EReal
/-- The eight pairs of lane words. -/
abbrev PairWords : Type := (⟨2, ![8, 2]⟩ : Shape).Idx → BitVec 32

/-! ## One row -/

/-- An affine map of 128 units into 128 units: row `o` of `w` against `v`, plus the bias. -/
def lin (w : Mat 128 128) (bias : Vc 128) (v : Fin 128 → EReal) (o : Fin 128) : EReal :=
  (∑ k : Fin 128, v k * w (ix2 o k)) + bias (ix1 o)

/-- A scalar read-out of 128 units: the one row of `w` against `v`, plus the one bias. -/
def score (w : Mat 1 128) (bias : Vc 1) (v : Fin 128 → EReal) : EReal :=
  (∑ o : Fin 128, v o * w (ix2 0 o)) + bias (ix1 0)

/-- Lane `l` of a feature row embedded: its 8 features against row `o` of the embedding matrix, plus the bias. -/
def embRow (x : Fin 128 → EReal) (lew : Mat 128 8) (leb : Vc 128) (l : Fin 16) (o : Fin 128) : EReal :=
  (∑ d : Fin 8, x ⟨8 * l.val + d.val, by omega⟩ * lew (ix2 o d)) + leb (ix1 o)

/-- The same embedding as ONE product of all 128 features with a 128 × 2048 matrix, column `128 l + o`,
    plus a 2048-vector's entry there. -/
def embBig (x : Fin 128 → EReal) (W : Mat 128 2048) (B : Vc 2048) (l : Fin 16) (o : Fin 128) : EReal :=
  (∑ j : Fin 128, x j * W (ix2 j ⟨128 * l.val + o.val, by omega⟩)) + B (ix1 ⟨128 * l.val + o.val, by omega⟩)

/-- The block-diagonal matrix: entry (8 i + d, 128 k + o) is `lew (o, d)` on the diagonal blocks `i = k`, and the
    product of zero with it elsewhere. -/
def blockDiag (lew : Mat 128 8) : Mat 128 2048 := fun i =>
  (if (i 0).val / 8 = (i 1).val / 128 then (1 : EReal) else 0)
    * lew (ix2 ⟨(i 1).val % 128, Nat.mod_lt _ (by decide)⟩ ⟨(i 0).val % 8, Nat.mod_lt _ (by decide)⟩)

/-- The bias repeated sixteen times. -/
def tiled (leb : Vc 128) : Vc 2048 := fun i => leb (ix1 ⟨(i 0).val % 128, Nat.mod_lt _ (by decide)⟩)

/-- The mean of a row's 16 lane embeddings, as the sum times the sixteenth (the word of 0.0625). -/
def meanRow (e : Fin 16 → Fin 128 → EReal) (k : Fin 128) : EReal :=
  (∑ l : Fin 16, e l k) * Ideal.ofBits .f32 0x3D800000#32

/-- The attention logit of lane `l` of a row with embedding `e`. -/
def logitRow (e : Fin 16 → Fin 128 → EReal) (sqw : Mat 128 128) (sqb : Vc 128) (srw : Mat 128 128) (srb : Vc 128)
    (saw : Mat 1 128) (sab : Vc 1) (l : Fin 16) : EReal :=
  score saw sab fun o => Ideal.tanh (lin srw srb (meanRow e) o + lin sqw sqb (e l) o)

/-- Pair `p` of a row: its embeddings weighted by `a`, summed over the lanes against the selector `s`. -/
def pairsRow (e : Fin 16 → Fin 128 → EReal) (a : Fin 16 → EReal) (s : Fin 8 → Fin 16 → EReal)
    (p : Fin 8) (o : Fin 128) : EReal :=
  ∑ l : Fin 16, (a l * e l o) * s p l

/-- The pair a row's indicator `h` picks, as a sum over the pairs. -/
def greenRow (e : Fin 16 → Fin 128 → EReal) (a : Fin 16 → EReal) (s : Fin 8 → Fin 16 → EReal) (h : Fin 8 → EReal)
    (o : Fin 128) : EReal :=
  ∑ p : Fin 8, pairsRow e a s p o * h p

/-- The result of a row at pair `p`: the read-out of `tanh` of the pair's affine image plus the picked pair's. -/
def qRow (e : Fin 16 → Fin 128 → EReal) (a : Fin 16 → EReal) (s : Fin 8 → Fin 16 → EReal) (h : Fin 8 → EReal)
    (aqw : Mat 128 128) (aqb : Vc 128) (arw : Mat 128 128) (arb : Vc 128) (aaw : Mat 1 128) (aab : Vc 1)
    (p : Fin 8) : EReal :=
  score aaw aab fun o => Ideal.tanh (lin aqw aqb (pairsRow e a s p) o + lin arw arb (greenRow e a s h) o)

/-- The indicator that pair `p` is the one a phase word, clamped into 0 … 7, names. -/
def hotOf (w : BitVec 32) (p : Fin 8) : EReal :=
  if (p.val : Int) = min 7 (max 0 w.toInt) then 1 else 0

/-! ## The batch -/

/-- The maximum of a column over the batch, from minus infinity. -/
def colMax (L : Fin 16384 → Fin 16 → EReal) (l : Fin 16) : EReal :=
  (Finset.univ : Finset (Fin 16384)).fold max ⊥ fun b => L b l

/-- A logit shifted by its column's maximum, exponentiated. -/
def expShift (L : Fin 16384 → Fin 16 → EReal) (b : Fin 16384) (l : Fin 16) : EReal :=
  Ideal.exp (L b l - colMax L l)

/-- The column sum of the shifted exponentials over the batch. -/
def colSum (L : Fin 16384 → Fin 16 → EReal) (l : Fin 16) : EReal :=
  ∑ b : Fin 16384, expShift L b l

/-- The reciprocal of the column sum: the word of 1.0 over the sum. -/
def invSum (L : Fin 16384 → Fin 16 → EReal) (l : Fin 16) : EReal :=
  Ideal.div (Ideal.ofBits .f32 0x3F800000#32) (colSum L l)

/-- The softmax weight along the batch, as the product with the reciprocal of the column sum. -/
def attn (L : Fin 16384 → Fin 16 → EReal) (b : Fin 16384) (l : Fin 16) : EReal :=
  expShift L b l * invSum L l

/-! ## The arguments -/

/-- Feature `j` of row `b`: the state row without its leading phase entry. -/
def feat (st : Mat 16384 129) (b : Fin 16384) (j : Fin 128) : EReal := st (ix2 b ⟨j.val + 1, by omega⟩)

/-- Row `b`'s phase word: its leading state entry converted to a 32-bit integer. -/
def phase (st : Mat 16384 129) (b : Fin 16384) : BitVec 32 := Ideal.fptosi 32 (st (ix2 b 0))

/-- Entry (p, l) of the pair selector: how many of pair `p`'s two lane words equal `l`. -/
def sel (pp : PairWords) (p : Fin 8) (l : Fin 16) : EReal :=
  (if BitVec.ofNat 32 l.val = pp (ix2 p 0) then (1 : EReal) else 0)
    + (if BitVec.ofNat 32 l.val = pp (ix2 p 1) then (1 : EReal) else 0)

/-- The embedding of every row. -/
def emb (st : Mat 16384 129) (lew : Mat 128 8) (leb : Vc 128) (b : Fin 16384) : Fin 16 → Fin 128 → EReal :=
  embRow (feat st b) lew leb

/-- The attention logits of every row. -/
def logit (st : Mat 16384 129) (lew : Mat 128 8) (leb : Vc 128) (sqw : Mat 128 128) (sqb : Vc 128)
    (srw : Mat 128 128) (srb : Vc 128) (saw : Mat 1 128) (sab : Vc 1) (b : Fin 16384) (l : Fin 16) : EReal :=
  logitRow (emb st lew leb b) sqw sqb srw srb saw sab l

/-- The whole function of the sixteen argument arrays: the result at row `b`, pair `p`. -/
def result (st : Mat 16384 129) (lew : Mat 128 8) (leb : Vc 128)
    (sqw : Mat 128 128) (sqb : Vc 128) (srw : Mat 128 128) (srb : Vc 128) (saw : Mat 1 128) (sab : Vc 1)
    (aqw : Mat 128 128) (aqb : Vc 128) (arw : Mat 128 128) (arb : Vc 128) (aaw : Mat 1 128) (aab : Vc 1)
    (pp : PairWords) (b : Fin 16384) (p : Fin 8) : EReal :=
  qRow (emb st lew leb b) (attn (logit st lew leb sqw sqb srw srb saw sab) b) (sel pp) (hotOf (phase st b))
    aqw aqb arw arb aaw aab p

end Cert.LaneAttn

end
-- ==== Proof.KArgs.lean ====
/-
  The sixteen argument arrays of a launch memory, read as the matrices and vectors the specification is
  written over, and the specification's logits and result at them.
-/
import proofs.«411023_j80564996538677_3_alg».proof.Proof.Gen.KernelIdeal.Frame
import proofs.«411023_j80564996538677_3_alg».proof.Proof.Spec

noncomputable section

namespace Cert.KernelIdeal.LaneValue

open Idealize.ShloMosaic Idealize.ShloMosaic.TcCoe Idealize.SL.Sem Cert.KernelIdeal Cert.LaneAttn

variable (m : (ℓ : Loc nD τ sig) → Buf (Elt Ideal) ℓ)

/-- The state rows. -/
abbrev aSt (c : Dev nD) : Mat 16384 129 := m ((c.tc : Thread nD τ).loc main_arg0)
/-- The embedding matrix and bias. -/
abbrev aLew (c : Dev nD) : Mat 128 8 := m ((c.tc : Thread nD τ).loc main_arg1)
abbrev aLeb (c : Dev nD) : Vc 128 := m ((c.tc : Thread nD τ).loc main_arg2)
/-- The first head's query, reference and read-out maps. -/
abbrev aSqw (c : Dev nD) : Mat 128 128 := m ((c.tc : Thread nD τ).loc main_arg3)
abbrev aSqb (c : Dev nD) : Vc 128 := m ((c.tc : Thread nD τ).loc main_arg4)
abbrev aSrw (c : Dev nD) : Mat 128 128 := m ((c.tc : Thread nD τ).loc main_arg5)
abbrev aSrb (c : Dev nD) : Vc 128 := m ((c.tc : Thread nD τ).loc main_arg6)
abbrev aSaw (c : Dev nD) : Mat 1 128 := m ((c.tc : Thread nD τ).loc main_arg7)
abbrev aSab (c : Dev nD) : Vc 1 := m ((c.tc : Thread nD τ).loc main_arg8)
/-- The second head's query, reference and read-out maps. -/
abbrev aAqw (c : Dev nD) : Mat 128 128 := m ((c.tc : Thread nD τ).loc main_arg9)
abbrev aAqb (c : Dev nD) : Vc 128 := m ((c.tc : Thread nD τ).loc main_arg10)
abbrev aArw (c : Dev nD) : Mat 128 128 := m ((c.tc : Thread nD τ).loc main_arg11)
abbrev aArb (c : Dev nD) : Vc 128 := m ((c.tc : Thread nD τ).loc main_arg12)
abbrev aAaw (c : Dev nD) : Mat 1 128 := m ((c.tc : Thread nD τ).loc main_arg13)
abbrev aAab (c : Dev nD) : Vc 1 := m ((c.tc : Thread nD τ).loc main_arg14)
/-- The eight pairs of lane words. -/
abbrev aPp (c : Dev nD) : PairWords := m ((c.tc : Thread nD τ).loc main_arg15)

/-- The specification's embedding at the memory's arguments. -/
def embOf (c : Dev nD) : Fin 16384 → Fin 16 → Fin 128 → EReal := emb (aSt m c) (aLew m c) (aLeb m c)

/-- The specification's attention logits at the memory's arguments. -/
def logitOf (c : Dev nD) : Fin 16384 → Fin 16 → EReal :=
  logit (aSt m c) (aLew m c) (aLeb m c) (aSqw m c) (aSqb m c) (aSrw m c) (aSrb m c) (aSaw m c) (aSab m c)

/-- The specification's result at the memory's arguments. -/
def resultOf (c : Dev nD) : Fin 16384 → Fin 8 → EReal :=
  result (aSt m c) (aLew m c) (aLeb m c) (aSqw m c) (aSqb m c) (aSrw m c) (aSrb m c) (aSaw m c) (aSab m c)
    (aAqw m c) (aAqb m c) (aArw m c) (aArb m c) (aAaw m c) (aAab m c) (aPp m c)

end Cert.KernelIdeal.LaneValue

end
-- ==== Proof.Algebra.lean ====
/-
  The laws that join the two ways the specification's pieces are computed.

  * The product of a feature row with the block-diagonal matrix is the lane's own 8-term sum: off the
    diagonal blocks every term is a product with zero.
  * A quotient by sixteen is the product with the sixteenth.
  * With real read-out weights every logit is real; then each column's maximum is attained, one term of
    the column sum is `exp 0 = 1`, the sum is not zero, and a quotient by it is the product with its
    reciprocal.
  * Against a selector row whose two lane words are in range, the sum over all lanes is the sum of the
    two named lanes; against the indicator of an in-range phase, the sum over all pairs is the named pair.
-/
import proofs.«411023_j80564996538677_3_alg».proof.Proof.Spec

noncomputable section

namespace Cert.LaneAttn

open Idealize.ShloMosaic Idealize.ShloMosaic.ValueIdx

/-- A sum over the 128 features is the sum over the 16 lanes of the sums over a lane's 8 features:
    feature 8 i + d is feature d of lane i. -/
private theorem sum_lanes (f : Fin 128 → EReal) :
    ∑ j : Fin 128, f j = ∑ i : Fin 16, ∑ d : Fin 8, f ⟨8 * i.val + d.val, by omega⟩ := by
  rw [← Fintype.sum_prod_type']
  refine (Fintype.sum_equiv (finProdFinEquiv : Fin 16 × Fin 8 ≃ Fin 128) _ _ fun p => ?_).symm
  exact congrArg f (Fin.ext (by show 8 * p.1.val + p.2.val = p.2.val + 8 * p.1.val; omega))

/-- The embedding through the block-diagonal matrix and the tiled bias is the lane's own embedding. -/
theorem embBig_blockDiag (x : Fin 128 → EReal) (lew : Mat 128 8) (leb : Vc 128) (l : Fin 16) (o : Fin 128) :
    embBig x (blockDiag lew) (tiled leb) l o = embRow x lew leb l o := by
  have hr : (⟨(128 * l.val + o.val) % 128, Nat.mod_lt _ (by decide)⟩ : Fin 128) = o :=
    Fin.ext (by show (128 * l.val + o.val) % 128 = o.val; omega)
  unfold embBig embRow
  congr 1
  · -- the product: only the lane's own block survives, and there the factor is one
    rw [sum_lanes, Finset.sum_eq_single l]
    · refine Finset.sum_congr rfl fun d _ => ?_
      show _ * ((if (8 * l.val + d.val) / 8 = (128 * l.val + o.val) / 128 then (1 : EReal) else 0)
        * lew (ix2 ⟨(128 * l.val + o.val) % 128, _⟩ ⟨(8 * l.val + d.val) % 8, _⟩)) = _
      have hd : (⟨(8 * l.val + d.val) % 8, Nat.mod_lt _ (by decide)⟩ : Fin 8) = d :=
        Fin.ext (by show (8 * l.val + d.val) % 8 = d.val; omega)
      rw [if_pos (by omega), one_mul, hr, hd]
    · -- another lane's block: zero times anything is zero, and anything times zero is zero
      intro i _ hi
      refine Finset.sum_eq_zero fun d _ => ?_
      show _ * ((if (8 * i.val + d.val) / 8 = (128 * l.val + o.val) / 128 then (1 : EReal) else 0) * _) = _
      have hne : i.val ≠ l.val := fun h => hi (Fin.ext h)
      rw [if_neg (by omega), zero_mul, mul_zero]
    · intro h; exact absurd (Finset.mem_univ l) h
  · -- the bias: column 128 l + o of the tiled vector is entry o
    show leb (ix1 ⟨(128 * l.val + o.val) % 128, _⟩) = _
    rw [hr]

/-- The word of 16.0 is the real sixteen: sign 0, exponent 131, fraction 0, that is 2 ^ 23 * 2 ^ (131 - 127 - 23). -/
private theorem ofBits_sixteen : Ideal.ofBits .f32 0x41800000#32 = ((16 : ℝ) : EReal) := by
  simp [Ideal.ofBits, Ideal.ieee]
  exact_mod_cast (by norm_num : (8388608 : ℝ) * (2 ^ 19)⁻¹ = 16)

/-- The word of 0.0625 is the real sixteenth: sign 0, exponent 123, fraction 0, that is 2 ^ 23 * 2 ^ (123 - 127 - 23). -/
private theorem ofBits_sixteenth : Ideal.ofBits .f32 0x3D800000#32 = ((1 / 16 : ℝ) : EReal) := by
  simp [Ideal.ofBits, Ideal.ieee]
  exact_mod_cast (by norm_num : (8388608 : ℝ) * (2 ^ 27)⁻¹ = 16⁻¹)

/-- Dividing by the word of 16.0 is multiplying by the word of 0.0625, on every extended real. -/
theorem div_sixteen (x : EReal) :
    Ideal.div x (Ideal.ofBits .f32 0x41800000#32) = x * Ideal.ofBits .f32 0x3D800000#32 := by
  rw [ofBits_sixteen, ofBits_sixteenth]
  exact Ideal.div_coe (by norm_num) x

/-- The word of minus infinity is the bottom element. -/
theorem ofBits_neg_inf : Ideal.ofBits .f32 0xFF800000#32 = (⊥ : EReal) := by
  -- sign 1, exponent all ones, fraction 0
  simp [Ideal.ofBits, Ideal.ieee]

/-- The word of 1.0 is one. -/
theorem ofBits_one : Ideal.ofBits .f32 0x3F800000#32 = (1 : EReal) := by
  -- sign 0, exponent 127, fraction 0, that is 2 ^ 23 * 2 ^ (127 - 127 - 23)
  simp [Ideal.ofBits, Ideal.ieee]
  exact_mod_cast (by norm_num : (8388608 : ℝ) * (2 ^ 23)⁻¹ = 1)

/-- What the claim's precondition gives and the reference's side uses: the first read-out's weights are
    real numbers, the pair words name lanes, the phase words name pairs. -/
structure Admissible (st : Mat 16384 129) (saw : Mat 1 128) (sab : Vc 1) (pp : PairWords) : Prop where
  saw_real : ∀ i, ∃ r : ℝ, saw i = (r : EReal)
  sab_real : ∀ i, ∃ r : ℝ, sab i = (r : EReal)
  pair_lo : ∀ i, 0 ≤ (pp i).toInt
  pair_hi : ∀ i, (pp i).toInt < 16
  phase_lo : ∀ b, 0 ≤ (phase st b).toInt
  phase_hi : ∀ b, (phase st b).toInt < 8

/-- The hyperbolic tangent of any extended real is a real: minus one and one at the infinities. -/
private theorem tanh_real (x : EReal) : ∃ r : ℝ, Ideal.tanh x = (r : EReal) := by
  induction x using EReal.rec with
  | bot => exact ⟨-1, by rw [Ideal.tanh_bot]; rfl⟩
  | coe r => exact ⟨Real.tanh r, Ideal.tanh_coe r⟩
  | top => exact ⟨1, by rw [Ideal.tanh_top]; rfl⟩

/-- A finite sum of reals is a real. -/
private theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨t, ht⟩ := ih fun i hi => h i (Finset.mem_insert_of_mem hi)
    exact ⟨r + t, by rw [Finset.sum_insert ha, hr, ht, EReal.coe_add]⟩

/-- A read-out with real weights of `tanh` values is real. -/
theorem logitRow_real (e : Fin 16 → Fin 128 → EReal) (sqw : Mat 128 128) (sqb : Vc 128) (srw : Mat 128 128) (srb : Vc 128)
    (saw : Mat 1 128) (sab : Vc 1) (hw : ∀ i, ∃ r : ℝ, saw i = (r : EReal)) (hb : ∀ i, ∃ r : ℝ, sab i = (r : EReal)) (l : Fin 16) :
    ∃ r : ℝ, logitRow e sqw sqb srw srb saw sab l = (r : EReal) := by
  unfold logitRow score
  obtain ⟨s, hs⟩ := sum_real Finset.univ
    (fun o : Fin 128 => Ideal.tanh (lin srw srb (meanRow e) o + lin sqw sqb (e l) o) * saw (ix2 0 o)) fun o _ => by
      obtain ⟨t, ht⟩ := tanh_real (lin srw srb (meanRow e) o + lin sqw sqb (e l) o)
      obtain ⟨w, hw'⟩ := hw (ix2 0 o)
      exact ⟨t * w, by rw [ht, hw', EReal.coe_mul]⟩
  obtain ⟨c, hc⟩ := hb (ix1 0)
  exact ⟨s + c, by rw [hs, hc, EReal.coe_add]⟩

/-- The exponential of any extended real is not negative. -/
private theorem exp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- The fold of the maximum from the bottom element over a nonempty finite set is attained on the set. -/
private theorem fold_max_attained {ι : Type} (s : Finset ι) (hs : s.Nonempty) (f : ι → EReal) :
    ∃ i ∈ s, s.fold max ⊥ f = f i := by
  induction hs using Finset.Nonempty.cons_induction with
  | singleton a => exact ⟨a, Finset.mem_singleton_self a, by rw [Finset.fold_singleton]; exact max_eq_left bot_le⟩
  | cons a s ha hs ih =>
    obtain ⟨i, hi, he⟩ := ih
    rw [Finset.fold_cons, he]
    rcases le_total (f a) (f i) with h | h
    · exact ⟨i, Finset.mem_cons.2 (Or.inr hi), max_eq_right h⟩
    · exact ⟨a, Finset.mem_cons_self a s, max_eq_left h⟩

/-- For real logits the column's maximum is one of them, so one term of the column sum is `exp 0 = 1`; every term
    is not negative; the sum is at least one. -/
private theorem one_le_colSum (L : Fin 16384 → Fin 16 → EReal) (hL : ∀ b l, ∃ r : ℝ, L b l = (r : EReal)) (l : Fin 16) :
    1 ≤ colSum L l := by
  obtain ⟨b₀, _, hmax⟩ := fold_max_attained Finset.univ ⟨(0 : Fin 16384), Finset.mem_univ _⟩ fun b => L b l
  have hone : expShift L b₀ l = 1 := by
    obtain ⟨r, hr⟩ := hL b₀ l
    unfold expShift colMax
    rw [hmax, hr, ← EReal.coe_sub, sub_self, Ideal.exp_coe, Real.exp_zero, EReal.coe_one]
  unfold colSum
  rw [← hone]
  exact Finset.single_le_sum (f := fun b => expShift L b l) (fun b _ => exp_nonneg _) (Finset.mem_univ b₀)

/-- The column sum of real logits is not zero. -/
theorem colSum_ne_zero (L : Fin 16384 → Fin 16 → EReal) (hL : ∀ b l, ∃ r : ℝ, L b l = (r : EReal)) (l : Fin 16) :
    colSum L l ≠ 0 := by
  exact (lt_of_lt_of_le zero_lt_one (one_le_colSum L hL l)).ne'

/-- The softmax quotient is the product with the reciprocal of the column sum, for real logits. -/
theorem div_colSum (L : Fin 16384 → Fin 16 → EReal) (hL : ∀ b l, ∃ r : ℝ, L b l = (r : EReal)) (b : Fin 16384) (l : Fin 16) :
    Ideal.div (expShift L b l) (colSum L l) = attn L b l := by
  -- off zero a quotient is the product with the inverse, and the word of 1.0 over the sum is the inverse
  have h0 := colSum_ne_zero L hL l
  unfold attn invSum
  rw [ofBits_one, Ideal.div, Ideal.div, if_neg h0, if_neg h0, one_mul]

/-- The lane an in-range word names. -/
def laneOf (w : BitVec 32) : Fin 16 := ⟨w.toNat % 16, Nat.mod_lt _ (by decide)⟩

/-- The pair an in-range word names. -/
def pairOf (w : BitVec 32) : Fin 8 := ⟨w.toNat % 8, Nat.mod_lt _ (by decide)⟩

/-- A word whose signed value is not negative has that value as its unsigned one. -/
private theorem toNat_of_toInt_nonneg (w : BitVec 32) (h : 0 ≤ w.toInt) : (w.toNat : Int) = w.toInt := by
  rw [BitVec.toInt_eq_toNat_cond] at h ⊢
  split at h <;> simp_all <;> omega

/-- A lane's word is a given in-range word exactly when the lane is the one the word names. -/
private theorem ofNat_eq_iff_laneOf (w : BitVec 32) (hlo : 0 ≤ w.toInt) (hhi : w.toInt < 16) (l : Fin 16) :
    BitVec.ofNat 32 l.val = w ↔ l = laneOf w := by
  have hn := toNat_of_toInt_nonneg w hlo
  have hl := l.isLt
  constructor
  · intro h
    apply Fin.ext
    show l.val = w.toNat % 16
    have : (BitVec.ofNat 32 l.val).toNat = w.toNat := congrArg BitVec.toNat h
    rw [BitVec.toNat_ofNat] at this
    omega
  · intro h
    apply BitVec.eq_of_toNat_eq
    rw [BitVec.toNat_ofNat, h]
    show w.toNat % 16 % 2 ^ 32 = w.toNat
    omega

/-- The sum over the lanes against the indicator of one in-range lane word is the named lane's term:
    every other term is a product with zero. -/
private theorem sum_lane_indicator (X : Fin 16 → EReal) (w : BitVec 32) (hlo : 0 ≤ w.toInt) (hhi : w.toInt < 16) :
    ∑ l : Fin 16, X l * (if BitVec.ofNat 32 l.val = w then (1 : EReal) else 0) = X (laneOf w) := by
  rw [Finset.sum_eq_single (laneOf w)]
  · rw [if_pos ((ofNat_eq_iff_laneOf w hlo hhi _).2 rfl), mul_one]
  · intro l _ hl
    rw [if_neg (fun h => hl ((ofNat_eq_iff_laneOf w hlo hhi l).1 h)), mul_zero]
  · intro h; exact absurd (Finset.mem_univ _) h

/-- Against the selector of two in-range lane words the lane sum is the two named lanes' sum. -/
theorem pairsRow_sel (e : Fin 16 → Fin 128 → EReal) (a : Fin 16 → EReal) (pp : PairWords)
    (hlo : ∀ i, 0 ≤ (pp i).toInt) (hhi : ∀ i, (pp i).toInt < 16) (p : Fin 8) (o : Fin 128) :
    pairsRow e a (sel pp) p o
      = a (laneOf (pp (ix2 p 0))) * e (laneOf (pp (ix2 p 0))) o + a (laneOf (pp (ix2 p 1))) * e (laneOf (pp (ix2 p 1))) o := by
  have h01 : ∀ (c : Prop) [Decidable c], (0 : EReal) ≤ if c then (1 : EReal) else 0 := fun c _ => by
    split
    · exact zero_le_one
    · exact le_rfl
  unfold pairsRow sel
  -- a product distributes over a sum of two nonnegative terms, at the infinities too
  simp only [EReal.left_distrib_of_nonneg (h01 _) (h01 _), Finset.sum_add_distrib]
  rw [sum_lane_indicator (fun l => a l * e l o) _ (hlo _) (hhi _),
    sum_lane_indicator (fun l => a l * e l o) _ (hlo _) (hhi _)]

/-- Against the indicator of an in-range phase word the pair sum is the named pair. -/
theorem greenRow_hotOf (e : Fin 16 → Fin 128 → EReal) (a : Fin 16 → EReal) (s : Fin 8 → Fin 16 → EReal) (w : BitVec 32)
    (hlo : 0 ≤ w.toInt) (hhi : w.toInt < 8) (o : Fin 128) :
    greenRow e a s (hotOf w) o = pairsRow e a s (pairOf w) o := by
  have hn := toNat_of_toInt_nonneg w hlo
  -- in range the clamp is the identity, so the indicator is that of the named pair
  have hiff : ∀ p : Fin 8, (p.val : Int) = min 7 (max 0 w.toInt) ↔ p = pairOf w := fun p => by
    have hp := p.isLt
    rw [min_eq_right (by rw [max_eq_right hlo]; omega), max_eq_right hlo]
    constructor
    · intro h
      apply Fin.ext
      show p.val = w.toNat % 8
      omega
    · intro h
      rw [h]
      show ((w.toNat % 8 : Nat) : Int) = w.toInt
      omega
  unfold greenRow hotOf
  rw [Finset.sum_eq_single (pairOf w)]
  · rw [if_pos ((hiff _).2 rfl), mul_one]
  · intro p _ hp
    rw [if_neg (fun h => hp ((hiff p).1 h)), mul_zero]
  · intro h; exact absurd (Finset.mem_univ _) h

end Cert.LaneAttn

end
-- ==== Proof.KHostA.lean ====
/-
  What the first pallas_call finds in its arrays: the host operations before it, read at an index.

  The feature matrix is the state matrix without its first column; the phase column is that first column
  converted to integers; the selector counts, per pair and lane, how many of the pair's two words equal the
  lane number; the big weight is the Kronecker product of the 16 × 16 identity with the transposed
  embedding matrix, reshaped to 128 × 2048 — entry (8 i + d, 128 k + o) is (i = k) · lew (o, d) — and the big
  bias is the embedding bias repeated 16 times; the narrowed copies of the square weights are the weights
  themselves (a change of float format is the identity on the extended reals).
-/
import proofs.«411023_j80564996538677_3_alg».proof.Proof.Gen.KernelIdeal.Frame
import proofs.«411023_j80564996538677_3_alg».proof.Proof.Spec
import proofs.«411023_j80564996538677_3_alg».proof.Proof.KArgs
import Idealize.ShloMosaic.Lib.Pipeline.Value
import Idealize.ShloMosaic.Lib.ValueLayout
import Idealize.ShloMosaic.Lib.StableHlo.Predicate

set_option maxRecDepth 16384

noncomputable section

namespace Cert.KernelIdeal.LaneValue

open Idealize.ShloMosaic Idealize.ShloMosaic.TcCoe Idealize.ShloMosaic.ValueIdx Idealize.SL.Sem
open Cert.KernelIdeal Cert.KernelIdeal.Gen Cert.LaneAttn

variable (m : (ℓ : Loc nD τ sig) → Buf (Elt Ideal) ℓ) (ρ : Dev nD → PrngReg)

/-- A stretch of operations leaves a buffer none of them writes. -/
local macro "unwritten" : tactic =>
  `(tactic| (refine StableHlo.after_of_forall_not_mem _ _ (List.forall_iff_forall_mem.mp ?_)
             simp only [hostOps0, hostOps0_1, hostOps0_2, List.Forall, StableHlo.nullary_writes, StableHlo.unary_writes,
               StableHlo.binary_writes, StableHlo.reshape_writes, Finset.mem_singleton]
             repeat' apply And.intro
             all_goals exact StableHlo.devRef_ne_of_ne (by decide)))

/-- The first operation's slice of the state matrix, as the first stretch leaves it. -/
private theorem W1_v0 (c : Dev nD) : (W1 m ρ c (Proc.devRef .tc main_v0) : S16384x128.Idx → EReal)
    = extractStridedSlice S16384x128 ![0, 1] (aSt m c) slices_S16384x129_S16384x128_0_1 := by
  show StableHlo.after hostOps0 _ (Proc.devRef .tc main_v0) = _
  after_results

/-- The features the first region reads. -/
theorem V3_feat (c : Dev nD) : (V3 m ρ c main_v0 : S16384x128.Idx → EReal) = fun i => feat (aSt m c) (i 0) (i 1) := by
  have e : (V3 m ρ c main_v0 : S16384x128.Idx → EReal)
      = extractStridedSlice S16384x128 ![0, 1] (aSt m c) slices_S16384x129_S16384x128_0_1 :=
    calc V3 m ρ c main_v0
      _ = W2 m ρ c (Proc.devRef .tc main_v0) := by unwritten
      _ = W1 m ρ c (Proc.devRef .tc main_v0) := by unwritten
      _ = _ := W1_v0 m ρ c
  rw [e]; funext i
  exact extractStridedSlice_apply _ _ _ i (ix2 (i 0) ⟨(i 1).val + 1, by have := idx2_lt1 i; omega⟩) (fun a =>
    match a with
    | ⟨0, _⟩ => by show (i 0).val = 0 + (i 0).val; omega
    | ⟨1, _⟩ => by show (i 1).val + 1 = 1 + (i 1).val; omega)

/-- The phase column converted, as the first stretch leaves it. -/
private theorem W1_v2 (c : Dev nD) : (W1 m ρ c (Proc.devRef .tc main_v2) : S16384x1.Idx → BitVec 32)
    = (fptosi 32 (extractStridedSlice S16384x1 ![0, 0] (aSt m c) slices_S16384x129_S16384x1_0_0 : FVec Ideal S16384x1 .f32)
        : IVec S16384x1 32) := by
  show StableHlo.after hostOps0 _ (Proc.devRef .tc main_v2) = _
  after_results

/-- The phase words. -/
theorem V3_phase (c : Dev nD) : (V3 m ρ c main_v2 : S16384x1.Idx → BitVec 32) = fun i => phase (aSt m c) (i 0) := by
  have e : (V3 m ρ c main_v2 : S16384x1.Idx → BitVec 32)
      = (fptosi 32 (extractStridedSlice S16384x1 ![0, 0] (aSt m c) slices_S16384x129_S16384x1_0_0 : FVec Ideal S16384x1 .f32)
          : IVec S16384x1 32) :=
    calc V3 m ρ c main_v2
      _ = W2 m ρ c (Proc.devRef .tc main_v2) := by unwritten
      _ = W1 m ρ c (Proc.devRef .tc main_v2) := by unwritten
      _ = _ := W1_v2 m ρ c
  rw [e]; funext i
  exact congrArg (Ideal.fptosi 32) (extractStridedSlice_apply ![0, 0] (aSt m c) slices_S16384x129_S16384x1_0_0 i (ix2 (i 0) 0) (fun a =>
    match a with
    | ⟨0, _⟩ => by show (i 0).val = 0 + (i 0).val; omega
    | ⟨1, _⟩ => by have := idx2_lt1 i; show 0 = 0 + (i 1).val; omega))

/-- The lane numbers 0 … 15, one row of them under each of the eight pairs. -/
private def laneNos : IVec S8x16 32 :=
  broadcastInDim S8x16 ![0, 1] bcast_S1x16_S8x16_0_1 (broadcastInDim S1x16 ![1] bcast_S16_S1x16_1 (iotaInDim S16 32 0))

/-- The pairs' first words, each repeated along its row of sixteen. -/
private def pairCol0 (pp : PairWords) : IVec S8x16 32 :=
  broadcastInDim S8x16 ![0, 1] bcast_S8x1_S8x16_0_1 (broadcastInDim S8x1 ![0] bcast_S8_S8x1_0
    (shapeCast S8 (extractStridedSlice S8x1 ![0, 0] pp slices_S8x2_S8x1_0_0) shapeCasts_S8x1_S8))

/-- The pairs' second words, each repeated along its row of sixteen. -/
private def pairCol1 (pp : PairWords) : IVec S8x16 32 :=
  broadcastInDim S8x16 ![0, 1] bcast_S8x1_S8x16_0_1 (broadcastInDim S8x1 ![0] bcast_S8_S8x1_0
    (shapeCast S8 (extractStridedSlice S8x1 ![0, 1] pp slices_S8x2_S8x1_0_1) shapeCasts_S8x1_S8))

/-- Entry (p, l) of the lane numbers is the word of l. -/
private theorem laneNos_apply (i : S8x16.Idx) : laneNos i = BitVec.ofNat 32 (i 1).val :=
  (broadcastInDim_apply ![0, 1] bcast_S1x16_S8x16_0_1 _ i (ix2 0 (i 1))
    (fun a => match a with | ⟨0, _⟩ => rfl | ⟨1, _⟩ => rfl)).trans
  ((broadcastInDim_apply ![1] bcast_S16_S1x16_1 _ (ix2 0 (i 1)) (ix1 (i 1))
    (fun a => match a with | ⟨0, _⟩ => rfl)).trans rfl)

/-- Entry (p, l) of the repeated first words is pair p's first word. -/
private theorem pairCol0_apply (pp : PairWords) (i : S8x16.Idx) : pairCol0 pp i = pp (ix2 (i 0) 0) :=
  (broadcastInDim_apply ![0, 1] bcast_S8x1_S8x16_0_1 _ i (ix2 (i 0) 0)
    (fun a => match a with | ⟨0, _⟩ => rfl | ⟨1, _⟩ => rfl)).trans
  ((broadcastInDim_apply ![0] bcast_S8_S8x1_0 _ (ix2 (i 0) 0) (ix1 (i 0))
    (fun a => match a with | ⟨0, _⟩ => rfl)).trans
  ((shapeCast_apply _ shapeCasts_S8x1_S8 (ix1 (i 0)) (ix2 (i 0) 0)
    (by rw [Shape.rowMajor_val_two, Shape.rowMajor_val_one]; show (i 0).val * 1 + 0 = (i 0).val; omega)).trans
  (extractStridedSlice_apply ![0, 0] pp slices_S8x2_S8x1_0_0 (ix2 (i 0) 0) (ix2 (i 0) 0)
    (fun a => match a with
      | ⟨0, _⟩ => by show (i 0).val = 0 + (i 0).val; omega
      | ⟨1, _⟩ => by show 0 = 0 + 0; omega))))

/-- Entry (p, l) of the repeated second words is pair p's second word. -/
private theorem pairCol1_apply (pp : PairWords) (i : S8x16.Idx) : pairCol1 pp i = pp (ix2 (i 0) 1) :=
  (broadcastInDim_apply ![0, 1] bcast_S8x1_S8x16_0_1 _ i (ix2 (i 0) 0)
    (fun a => match a with | ⟨0, _⟩ => rfl | ⟨1, _⟩ => rfl)).trans
  ((broadcastInDim_apply ![0] bcast_S8_S8x1_0 _ (ix2 (i 0) 0) (ix1 (i 0))
    (fun a => match a with | ⟨0, _⟩ => rfl)).trans
  ((shapeCast_apply _ shapeCasts_S8x1_S8 (ix1 (i 0)) (ix2 (i 0) 0)
    (by rw [Shape.rowMajor_val_two, Shape.rowMajor_val_one]; show (i 0).val * 1 + 0 = (i 0).val; omega)).trans
  (extractStridedSlice_apply ![0, 1] pp slices_S8x2_S8x1_0_1 (ix2 (i 0) 0) (ix2 (i 0) 1)
    (fun a => match a with
      | ⟨0, _⟩ => by show (i 0).val = 0 + (i 0).val; omega
      | ⟨1, _⟩ => by show 1 = 1 + 0; omega))))

/-- The float of the one-bit answer to "are two words equal" is 1 when they are and 0 when they are not. -/
private theorem uitofp_cmpi_eq (a b : BitVec 32) :
    (FloatOps.uitofp (F := Ideal) .f32 (IntOp.cmpi .eq a b) : EReal) = if a = b then 1 else 0 := by
  show (((IntOp.cmpi .eq a b).toNat : ℝ) : EReal) = _
  by_cases h : a = b
  · rw [if_pos h, StableHlo.Predicate.cmpi_eq_iff.mpr h]; simp
  · rw [if_neg h, eq_zero_of_ne_one (fun h1 => h (StableHlo.Predicate.cmpi_eq_iff.mp h1))]; simp

/-- The selector the operations build, as the first stretch leaves it. -/
private theorem W1_v19 (c : Dev nD) : (W1 m ρ c (Proc.devRef .tc main_v19) : S8x16.Idx → EReal)
    = (addf (uitofp .f32 (cmpi .eq laneNos (pairCol0 (aPp m c))) : FVec Ideal S8x16 .f32)
        (uitofp .f32 (cmpi .eq laneNos (pairCol1 (aPp m c)))) : FVec Ideal S8x16 .f32) := by
  show StableHlo.after hostOps0 _ (Proc.devRef .tc main_v19) = _
  after_results
  rfl

/-- The pair selector. -/
theorem V3_sel (c : Dev nD) : (V3 m ρ c main_v19 : S8x16.Idx → EReal) = fun i => sel (aPp m c) (i 0) (i 1) := by
  have e : (V3 m ρ c main_v19 : S8x16.Idx → EReal)
      = (addf (uitofp .f32 (cmpi .eq laneNos (pairCol0 (aPp m c))) : FVec Ideal S8x16 .f32)
          (uitofp .f32 (cmpi .eq laneNos (pairCol1 (aPp m c)))) : FVec Ideal S8x16 .f32) :=
    calc V3 m ρ c main_v19
      _ = W2 m ρ c (Proc.devRef .tc main_v19) := by unwritten
      _ = W1 m ρ c (Proc.devRef .tc main_v19) := by unwritten
      _ = _ := W1_v19 m ρ c
  rw [e]; funext i
  show (FloatOps.uitofp (F := Ideal) .f32 (IntOp.cmpi .eq (laneNos i) (pairCol0 (aPp m c) i)) : EReal)
      + (FloatOps.uitofp (F := Ideal) .f32 (IntOp.cmpi .eq (laneNos i) (pairCol1 (aPp m c) i)) : EReal) = _
  rw [uitofp_cmpi_eq, uitofp_cmpi_eq, laneNos_apply, pairCol0_apply, pairCol1_apply]
  rfl

/-- Two 32-bit words of numbers below 16 are equal exactly when the numbers are. -/
private theorem ofNat_eq_ofNat_iff {a k : ℕ} (ha : a < 16) (hk : k < 16) : BitVec.ofNat 32 a = BitVec.ofNat 32 k ↔ a = k := by
  constructor
  · intro h
    have h' := congrArg BitVec.toNat h
    simp only [BitVec.toNat_ofNat] at h'
    omega
  · intro h; rw [h]

/-- The 16 × 16 identity as the operations build it: row number equals column number, as a float. -/
private def eye : FVec Ideal S16x16 .f32 :=
  uitofp .f32 (cmpi .eq (addi (iotaInDim S16x16 32 0) (broadcastInDim S16x16 ![] bcast_S_S16x16 (constantI S_ 32 0#32)))
    (iotaInDim S16x16 32 1))

/-- Entry (a, k) of it is 1 on the diagonal and 0 off it. -/
private theorem eye_apply (i : S16x16.Idx) : (eye i : EReal) = if (i 0).val = (i 1).val then 1 else 0 := by
  show (FloatOps.uitofp (F := Ideal) .f32
    (IntOp.cmpi .eq (BitVec.ofNat 32 (i 0).val + 0#32) (BitVec.ofNat 32 (i 1).val)) : EReal) = _
  rw [uitofp_cmpi_eq, BitVec.add_zero]
  have h0 := idx2_lt0 i
  have h1 := idx2_lt1 i
  by_cases h : (i 0).val = (i 1).val
  · rw [if_pos h, if_pos ((ofNat_eq_ofNat_iff h0 h1).mpr h)]
  · rw [if_neg h, if_neg (fun e => h ((ofNat_eq_ofNat_iff h0 h1).mp e))]

/-- The Kronecker product of two matrices as the outlined operations build it: both spread over the
    16 × 8 × 16 × 128 box, multiplied, and the box read row-major as 128 × 2048. -/
private def kron (E : FVec Ideal S16x16 .f32) (T : FVec Ideal S8x128 .f32) : FVec Ideal S128x2048 .f32 :=
  shapeCast S128x2048
    (mulf
      (broadcastInDim S16x8x16x128 ![0, 1, 2, 3] bcast_S16x1x16x1_S16x8x16x128_0_1_2_3
        (broadcastInDim S16x1x16x1 ![0, 2] bcast_S16x16_S16x1x16x1_0_2 E))
      (broadcastInDim S16x8x16x128 ![0, 1, 2, 3] bcast_S1x8x1x128_S16x8x16x128_0_1_2_3
        (broadcastInDim S1x8x1x128 ![1, 3] bcast_S8x128_S1x8x1x128_1_3 T))
      : FVec Ideal S16x8x16x128 .f32)
    shapeCasts_S16x8x16x128_S128x2048

/-- Entry (8 a + d, 128 k + o) of the product is E (a, k) · T (d, o). -/
private theorem kron_apply (E : FVec Ideal S16x16 .f32) (T : FVec Ideal S8x128 .f32) (i : S128x2048.Idx) :
    (kron E T i : EReal)
      = E (ix2 (⟨(i 0).val / 8, by have := idx2_lt0 i; omega⟩ : Fin 16) (⟨(i 1).val / 128, by have := idx2_lt1 i; omega⟩ : Fin 16))
        * T (ix2 (⟨(i 0).val % 8, Nat.mod_lt _ (by decide)⟩ : Fin 8) (⟨(i 1).val % 128, Nat.mod_lt _ (by decide)⟩ : Fin 128)) := by
  have h0 := idx2_lt0 i
  have h1 := idx2_lt1 i
  let a : Fin 16 := ⟨(i 0).val / 8, by omega⟩
  let d : Fin 8 := ⟨(i 0).val % 8, Nat.mod_lt _ (by decide)⟩
  let k : Fin 16 := ⟨(i 1).val / 128, by omega⟩
  let o : Fin 128 := ⟨(i 1).val % 128, Nat.mod_lt _ (by decide)⟩
  refine (shapeCast_apply _ shapeCasts_S16x8x16x128_S128x2048 i (ix4 a d k o) (by
    rw [Shape.rowMajor_val_four, Shape.rowMajor_val_two]
    show ((((i 0).val / 8) * 8 + (i 0).val % 8) * 16 + (i 1).val / 128) * 128 + (i 1).val % 128 = (i 0).val * 2048 + (i 1).val
    omega)).trans ?_
  rw [mulf_apply]
  congr 1
  · exact (broadcastInDim_apply ![0, 1, 2, 3] bcast_S16x1x16x1_S16x8x16x128_0_1_2_3 _ (ix4 a d k o) (ix4 a 0 k 0)
      (fun b => match b with | ⟨0, _⟩ => rfl | ⟨1, _⟩ => rfl | ⟨2, _⟩ => rfl | ⟨3, _⟩ => rfl)).trans
      (broadcastInDim_apply ![0, 2] bcast_S16x16_S16x1x16x1_0_2 E (ix4 a 0 k 0) (ix2 a k)
        (fun b => match b with | ⟨0, _⟩ => rfl | ⟨1, _⟩ => rfl))
  · exact (broadcastInDim_apply ![0, 1, 2, 3] bcast_S1x8x1x128_S16x8x16x128_0_1_2_3 _ (ix4 a d k o) (ix4 0 d 0 o)
      (fun b => match b with | ⟨0, _⟩ => rfl | ⟨1, _⟩ => rfl | ⟨2, _⟩ => rfl | ⟨3, _⟩ => rfl)).trans
      (broadcastInDim_apply ![1, 3] bcast_S8x128_S1x8x1x128_1_3 T (ix4 0 d 0 o) (ix2 d o)
        (fun b => match b with | ⟨0, _⟩ => rfl | ⟨1, _⟩ => rfl))

/-- The outlined stretch leaves, in the product's buffer, the product of what it found in its two operands' buffers. -/
private theorem after_kron (V : Valuation τ sig (Elt Ideal)) :
    (StableHlo.after hostOps0_1 V (Proc.devRef .tc main_v27) : S128x2048.Idx → EReal)
      = kron (V (Proc.devRef .tc main_v25)) (V (Proc.devRef .tc main_v26)) := by
  after_results
  first
    | rfl
    | (simp only [StableHlo.TRef.ofBuf, StableHlo.TRef.toBuf, cast_eq]; rfl)

/-- The first stretch leaves the identity in its buffer … -/
private theorem W1_v25 (c : Dev nD) : (W1 m ρ c (Proc.devRef .tc main_v25) : S16x16.Idx → EReal) = eye := by
  show StableHlo.after hostOps0 _ (Proc.devRef .tc main_v25) = _
  after_results
  rfl

/-- … and the embedding matrix transposed in its. -/
private theorem W1_v26 (c : Dev nD) : (W1 m ρ c (Proc.devRef .tc main_v26) : S8x128.Idx → EReal)
    = transpose S8x128 [1, 0] (aLew m c) transposes_S128x8_S8x128_1_0 := by
  show StableHlo.after hostOps0 _ (Proc.devRef .tc main_v26) = _
  after_results

/-- The last stretch narrows the product's float format: the identity on the extended reals. -/
private theorem after_v28 (V : Valuation τ sig (Elt Ideal)) :
    (StableHlo.after hostOps0_2 V (Proc.devRef .tc main_v28) : S128x2048.Idx → EReal)
      = (truncf .bf16 (V (Proc.devRef .tc main_v27) : FVec Ideal S128x2048 .f32) bitsLt_bf16_f32 : FVec Ideal S128x2048 .bf16) := by
  after_results

/-- The block-diagonal weight. -/
theorem V3_blockDiag (c : Dev nD) : (V3 m ρ c main_v28 : S128x2048.Idx → EReal) = blockDiag (aLew m c) := by
  have e : (V3 m ρ c main_v28 : S128x2048.Idx → EReal)
      = kron eye (transpose S8x128 [1, 0] (aLew m c) transposes_S128x8_S8x128_1_0) := by
    refine (after_v28 (W2 m ρ c)).trans ?_
    funext i
    rw [truncf_apply]
    refine congrFun ((after_kron (W1 m ρ c)).trans ?_) i
    rw [W1_v25, W1_v26]
  rw [e]; funext i
  rw [kron_apply, eye_apply]
  show (if (i 0).val / 8 = (i 1).val / 128 then (1 : EReal) else 0) * _ = _ * _
  congr 1
  exact transpose_ix2_apply (aLew m c) transposes_S128x8_S8x128_1_0 _ _

/-- The arguments the last stretch reads reach it as launched: no earlier operation writes an argument. -/
private theorem W2_arg2 (c : Dev nD) : W2 m ρ c (Proc.devRef .tc main_arg2) = m ((c.tc : Thread nD τ).loc main_arg2) :=
  calc W2 m ρ c (Proc.devRef .tc main_arg2)
    _ = W1 m ρ c (Proc.devRef .tc main_arg2) := by unwritten
    _ = W0 m ρ c (Proc.devRef .tc main_arg2) := by unwritten
    _ = m ((c.tc : Thread nD τ).loc main_arg2) := rfl

private theorem W2_arg3 (c : Dev nD) : W2 m ρ c (Proc.devRef .tc main_arg3) = m ((c.tc : Thread nD τ).loc main_arg3) :=
  calc W2 m ρ c (Proc.devRef .tc main_arg3)
    _ = W1 m ρ c (Proc.devRef .tc main_arg3) := by unwritten
    _ = W0 m ρ c (Proc.devRef .tc main_arg3) := by unwritten
    _ = m ((c.tc : Thread nD τ).loc main_arg3) := rfl

private theorem W2_arg5 (c : Dev nD) : W2 m ρ c (Proc.devRef .tc main_arg5) = m ((c.tc : Thread nD τ).loc main_arg5) :=
  calc W2 m ρ c (Proc.devRef .tc main_arg5)
    _ = W1 m ρ c (Proc.devRef .tc main_arg5) := by unwritten
    _ = W0 m ρ c (Proc.devRef .tc main_arg5) := by unwritten
    _ = m ((c.tc : Thread nD τ).loc main_arg5) := rfl

private theorem W2_arg9 (c : Dev nD) : W2 m ρ c (Proc.devRef .tc main_arg9) = m ((c.tc : Thread nD τ).loc main_arg9) :=
  calc W2 m ρ c (Proc.devRef .tc main_arg9)
    _ = W1 m ρ c (Proc.devRef .tc main_arg9) := by unwritten
    _ = W0 m ρ c (Proc.devRef .tc main_arg9) := by unwritten
    _ = m ((c.tc : Thread nD τ).loc main_arg9) := rfl

private theorem W2_arg11 (c : Dev nD) : W2 m ρ c (Proc.devRef .tc main_arg11) = m ((c.tc : Thread nD τ).loc main_arg11) :=
  calc W2 m ρ c (Proc.devRef .tc main_arg11)
    _ = W1 m ρ c (Proc.devRef .tc main_arg11) := by unwritten
    _ = W0 m ρ c (Proc.devRef .tc main_arg11) := by unwritten
    _ = m ((c.tc : Thread nD τ).loc main_arg11) := rfl

/-- The last stretch leaves, in the big bias's buffer, the bias as one row, repeated over sixteen rows, read row-major. -/
private theorem after_v31 (V : Valuation τ sig (Elt Ideal)) :
    (StableHlo.after hostOps0_2 V (Proc.devRef .tc main_v31) : S2048.Idx → EReal)
      = shapeCast S2048
          (broadcastInDim S16x128 ![0, 1] bcast_S1x128_S16x128_0_1
            (shapeCast S1x128 (V (Proc.devRef .tc main_arg2) : FVec Ideal S128 .f32) shapeCasts_S128_S1x128))
          shapeCasts_S16x128_S2048 := by
  after_results
  rfl

/-- The tiled bias. -/
theorem V3_tiled (c : Dev nD) : (V3 m ρ c main_v31 : S2048.Idx → EReal) = tiled (aLeb m c) := by
  have e : (V3 m ρ c main_v31 : S2048.Idx → EReal)
      = shapeCast S2048
          (broadcastInDim S16x128 ![0, 1] bcast_S1x128_S16x128_0_1
            (shapeCast S1x128 (aLeb m c) shapeCasts_S128_S1x128))
          shapeCasts_S16x128_S2048 := by
    refine (after_v31 (W2 m ρ c)).trans ?_
    rw [W2_arg2]
  rw [e]; funext i
  have h0 : (i 0).val < 2048 := (i 0).isLt
  let r : Fin 16 := ⟨(i 0).val / 128, by omega⟩
  let o : Fin 128 := ⟨(i 0).val % 128, Nat.mod_lt _ (by decide)⟩
  refine (shapeCast_apply _ shapeCasts_S16x128_S2048 i (ix2 r o) (by
    rw [Shape.rowMajor_val_two, Shape.rowMajor_val_one]
    show ((i 0).val / 128) * 128 + (i 0).val % 128 = (i 0).val
    omega)).trans ?_
  refine (broadcastInDim_apply ![0, 1] bcast_S1x128_S16x128_0_1 _ (ix2 r o) (ix2 0 o)
    (fun b => match b with | ⟨0, _⟩ => rfl | ⟨1, _⟩ => rfl)).trans ?_
  exact shapeCast_a_1a_apply (aLeb m c) shapeCasts_S128_S1x128 0 o

/-- The narrowed square weights are the weights. -/
theorem V3_sqw (c : Dev nD) : (V3 m ρ c main_v32 : S128x128.Idx → EReal) = aSqw m c := by
  have e : (V3 m ρ c main_v32 : S128x128.Idx → EReal)
      = (truncf .bf16 (W2 m ρ c (Proc.devRef .tc main_arg3) : FVec Ideal S128x128 .f32) bitsLt_bf16_f32 : FVec Ideal S128x128 .bf16) := by
    show StableHlo.after hostOps0_2 _ (Proc.devRef .tc main_v32) = _
    after_results
  rw [e]; funext i
  rw [truncf_apply]
  exact congrFun (W2_arg3 m ρ c) i
theorem V3_srw (c : Dev nD) : (V3 m ρ c main_v33 : S128x128.Idx → EReal) = aSrw m c := by
  have e : (V3 m ρ c main_v33 : S128x128.Idx → EReal)
      = (truncf .bf16 (W2 m ρ c (Proc.devRef .tc main_arg5) : FVec Ideal S128x128 .f32) bitsLt_bf16_f32 : FVec Ideal S128x128 .bf16) := by
    show StableHlo.after hostOps0_2 _ (Proc.devRef .tc main_v33) = _
    after_results
  rw [e]; funext i
  rw [truncf_apply]
  exact congrFun (W2_arg5 m ρ c) i
theorem V3_aqw (c : Dev nD) : (V3 m ρ c main_v34 : S128x128.Idx → EReal) = aAqw m c := by
  have e : (V3 m ρ c main_v34 : S128x128.Idx → EReal)
      = (truncf .bf16 (W2 m ρ c (Proc.devRef .tc main_arg9) : FVec Ideal S128x128 .f32) bitsLt_bf16_f32 : FVec Ideal S128x128 .bf16) := by
    show StableHlo.after hostOps0_2 _ (Proc.devRef .tc main_v34) = _
    after_results
  rw [e]; funext i
  rw [truncf_apply]
  exact congrFun (W2_arg9 m ρ c) i
theorem V3_arw (c : Dev nD) : (V3 m ρ c main_v35 : S128x128.Idx → EReal) = aArw m c := by
  have e : (V3 m ρ c main_v35 : S128x128.Idx → EReal)
      = (truncf .bf16 (W2 m ρ c (Proc.devRef .tc main_arg11) : FVec Ideal S128x128 .f32) bitsLt_bf16_f32 : FVec Ideal S128x128 .bf16) := by
    show StableHlo.after hostOps0_2 _ (Proc.devRef .tc main_v35) = _
    after_results
  rw [e]; funext i
  rw [truncf_apply]
  exact congrFun (W2_arg11 m ρ c) i

/-- The arguments the regions read directly are as launched. -/
theorem V3_arg4 (c : Dev nD) : V3 m ρ c main_arg4 = m ((c.tc : Thread nD τ).loc main_arg4) :=
  calc V3 m ρ c main_arg4
    _ = W2 m ρ c (Proc.devRef .tc main_arg4) := by unwritten
    _ = W1 m ρ c (Proc.devRef .tc main_arg4) := by unwritten
    _ = W0 m ρ c (Proc.devRef .tc main_arg4) := by unwritten
    _ = m ((c.tc : Thread nD τ).loc main_arg4) := rfl
theorem V3_arg6 (c : Dev nD) : V3 m ρ c main_arg6 = m ((c.tc : Thread nD τ).loc main_arg6) :=
  calc V3 m ρ c main_arg6
    _ = W2 m ρ c (Proc.devRef .tc main_arg6) := by unwritten
    _ = W1 m ρ c (Proc.devRef .tc main_arg6) := by unwritten
    _ = W0 m ρ c (Proc.devRef .tc main_arg6) := by unwritten
    _ = m ((c.tc : Thread nD τ).loc main_arg6) := rfl
theorem V3_arg7 (c : Dev nD) : V3 m ρ c main_arg7 = m ((c.tc : Thread nD τ).loc main_arg7) :=
  calc V3 m ρ c main_arg7
    _ = W2 m ρ c (Proc.devRef .tc main_arg7) := by unwritten
    _ = W1 m ρ c (Proc.devRef .tc main_arg7) := by unwritten
    _ = W0 m ρ c (Proc.devRef .tc main_arg7) := by unwritten
    _ = m ((c.tc : Thread nD τ).loc main_arg7) := rfl
theorem V3_arg8 (c : Dev nD) : V3 m ρ c main_arg8 = m ((c.tc : Thread nD τ).loc main_arg8) :=
  calc V3 m ρ c main_arg8
    _ = W2 m ρ c (Proc.devRef .tc main_arg8) := by unwritten
    _ = W1 m ρ c (Proc.devRef .tc main_arg8) := by unwritten
    _ = W0 m ρ c (Proc.devRef .tc main_arg8) := by unwritten
    _ = m ((c.tc : Thread nD τ).loc main_arg8) := rfl
theorem V3_arg10 (c : Dev nD) : V3 m ρ c main_arg10 = m ((c.tc : Thread nD τ).loc main_arg10) :=
  calc V3 m ρ c main_arg10
    _ = W2 m ρ c (Proc.devRef .tc main_arg10) := by unwritten
    _ = W1 m ρ c (Proc.devRef .tc main_arg10) := by unwritten
    _ = W0 m ρ c (Proc.devRef .tc main_arg10) := by unwritten
    _ = m ((c.tc : Thread nD τ).loc main_arg10) := rfl
theorem V3_arg12 (c : Dev nD) : V3 m ρ c main_arg12 = m ((c.tc : Thread nD τ).loc main_arg12) :=
  calc V3 m ρ c main_arg12
    _ = W2 m ρ c (Proc.devRef .tc main_arg12) := by unwritten
    _ = W1 m ρ c (Proc.devRef .tc main_arg12) := by unwritten
    _ = W0 m ρ c (Proc.devRef .tc main_arg12) := by unwritten
    _ = m ((c.tc : Thread nD τ).loc main_arg12) := rfl
theorem V3_arg13 (c : Dev nD) : V3 m ρ c main_arg13 = m ((c.tc : Thread nD τ).loc main_arg13) :=
  calc V3 m ρ c main_arg13
    _ = W2 m ρ c (Proc.devRef .tc main_arg13) := by unwritten
    _ = W1 m ρ c (Proc.devRef .tc main_arg13) := by unwritten
    _ = W0 m ρ c (Proc.devRef .tc main_arg13) := by unwritten
    _ = m ((c.tc : Thread nD τ).loc main_arg13) := rfl
theorem V3_arg14 (c : Dev nD) : V3 m ρ c main_arg14 = m ((c.tc : Thread nD τ).loc main_arg14) :=
  calc V3 m ρ c main_arg14
    _ = W2 m ρ c (Proc.devRef .tc main_arg14) := by unwritten
    _ = W1 m ρ c (Proc.devRef .tc main_arg14) := by unwritten
    _ = W0 m ρ c (Proc.devRef .tc main_arg14) := by unwritten
    _ = m ((c.tc : Thread nD τ).loc main_arg14) := rfl

end Cert.KernelIdeal.LaneValue

end
-- ==== Proof.KBody0.lean ====
/-
  What the first kernel's body leaves in its output block, at an entry: row r, lane l of a block of 1024
  rows holds the row's attention logit of that lane — the embedding taken as ONE product of the row's 128
  features with the 128 × 2048 weight block plus the bias block, the mean over the lanes as the sum times
  0.0625, the two affine maps as products into a zero accumulator plus their biases, and the read-out
  as a lane sum of `tanh` times the read-out row, plus the read-out bias.
-/
import proofs.«411023_j80564996538677_3_alg».proof.Proof.Gen.KernelIdeal.Frame
import proofs.«411023_j80564996538677_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.LaneValue

open Idealize.ShloMosaic Idealize.ShloMosaic.TcCoe Idealize.ShloMosaic.ValueIdx Idealize.SL.Sem
open Cert.KernelIdeal Cert.KernelIdeal.Gen Cert.LaneAttn

/-! ## The read-out: the third and the first payload at an entry -/

/-- The read-out row, viewed as a 1 × 1 × 128 block, at its unit o. -/
private theorem pay3_apply (x7 : Vec Ideal S1x128 .f32) (o : Fin 128) :
    k0_pay3 (F := Ideal) x7 (ix3 (0 : Fin 1) (0 : Fin 1) o) = x7 (ix2 (0 : Fin 1) o) := by
  unfold k0_pay3
  refine (shapeCast_apply _ shapeCasts_S128_S1x1x128 (ix3 (0 : Fin 1) (0 : Fin 1) o) (ix1 o) ?_).trans ?_
  · rw [Shape.rowMajor_val_one, Shape.rowMajor_val_three]
    show o.val = (0 * 1 + 0) * 128 + o.val
    omega
  · refine (shapeCast_apply _ shapeCasts_S1x128_S128 (ix1 o) (ix2 (0 : Fin 1) o) ?_)
    rw [Shape.rowMajor_val_one, Shape.rowMajor_val_two]
    show 0 * 128 + o.val = o.val
    omega

/-- The first payload at (r, l): the lane sum of the tangent block against the read-out row, plus the read-out bias. -/
private theorem pay1_apply (v35 : FVec Ideal S1024x16x128 .f32) (v37 : Vec Ideal S1 .f32) (v39 : FVec Ideal S1x1x128 .f32)
    (r : Fin 1024) (l : Fin 16) :
    k0_pay1 (F := Ideal) v35 v37 v39 (ix2 r l)
      = (∑ o : Fin 128, v35 (ix3 r l o) * v39 (ix3 (0 : Fin 1) (0 : Fin 1) o)) + v37 (ix1 (0 : Fin 1)) := by
  unfold k0_pay1
  refine (addf_apply _ _ _).trans ?_
  refine congrArg₂ (· + ·) ?_ ?_
  · refine (Ideal.multiReduction_add_single _ _ reduces_S1024x16x128_S1024x16 _ _ (ix2 r l)).trans ?_
    refine Finset.sum_congr rfl fun o _ => ?_
    refine (mulf_apply _ _ _).trans ?_
    refine congrArg₂ (· * ·) ?_ ?_
    · exact congrArg v35 (funext fun a => Fin.ext (by match a with | ⟨0, _⟩ => rfl | ⟨1, _⟩ => rfl | ⟨2, _⟩ => rfl))
    · refine broadcastTo_apply v39 broadcasts_S1x1x128_S1024x16x128 _ (ix3 (0 : Fin 1) (0 : Fin 1) o) (fun a => ?_)
      match a with
      | ⟨0, _⟩ => rfl
      | ⟨1, _⟩ => rfl
      | ⟨2, _⟩ => rfl
  · show v37 _ = v37 _
    exact congrArg v37 (funext fun a => Fin.ext (by match a with | ⟨0, _⟩ => rfl))

/-! ## The three products read at an entry -/

private theorem lhs_emb_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
private theorem lhs_emb_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
private theorem rhs_emb_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q
private theorem rhs_emb_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- The 1024 × 128 by 128 × 2048 product into the zero block: entry (r, c) is the sum over the shared axis. -/
private theorem matmul_emb_apply (a : FVec Ideal S1024x128 .bf16) (b : FVec Ideal S128x2048 .bf16) (r : Fin 1024) (c : Fin 2048) :
    matmul dot_S1024x128_S128x2048_S1024x2048_1_0_0_1_n_n none a b (constant (F := Ideal) S1024x2048 .f32 0x00000000#32) (ix2 r c)
      = ∑ k : Fin 128, a (ix2 r k) * b (ix2 k c) := by
  simp only [matmul]
  rw [Ideal.matmul_constant_zero_apply, ← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 r c) ((ValueIdx.contrEquiv1 dot_S1024x128_S128x2048_S1024x2048_1_0_0_1_n_n 128 rfl rfl).symm k) = ix2 r k := funext fun a => Fin.ext (by
    match a with
    | ⟨0, _⟩ => exact lhs_emb_0 _ _
    | ⟨1, _⟩ => exact (lhs_emb_1 _ _).trans hk)
  have er : dot_S1024x128_S128x2048_S1024x2048_1_0_0_1_n_n.rhsIdx (ix2 r c) ((ValueIdx.contrEquiv1 dot_S1024x128_S128x2048_S1024x2048_1_0_0_1_n_n 128 rfl rfl).symm k) = ix2 k c := funext fun a => Fin.ext (by
    match a with
    | ⟨0, _⟩ => exact (rhs_emb_0 _ _).trans hk
    | ⟨1, _⟩ => exact rhs_emb_1 _ _)
  rw [el, er]

private theorem lhs_ref_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
private theorem lhs_ref_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
private theorem rhs_ref_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
private theorem rhs_ref_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- The 1024 × 128 product with the TRANSPOSE of a 128 × 128 block into the zero block: entry (r, o) is row r against row o. -/
private theorem matmul_ref_apply (a : FVec Ideal S1024x128 .bf16) (b : FVec Ideal S128x128 .bf16) (r : Fin 1024) (o : Fin 128) :
    matmul dot_S1024x128_S128x128_S1024x128_1_1_0_0_n_n none a b (constant (F := Ideal) S1024x128 .f32 0x00000000#32) (ix2 r o)
      = ∑ k : Fin 128, a (ix2 r k) * b (ix2 o k) := by
  simp only [matmul]
  rw [Ideal.matmul_constant_zero_apply, ← Equiv.sum_comp (ValueIdx.contrEquiv1 dot_S1024x128_S128x128_S1024x128_1_1_0_0_n_n 128 rfl rfl).symm]
  refine Finset.sum_congr rfl fun k _ => ?_
  have hk := ValueIdx.contrEquiv1_symm_val dot_S1024x128_S128x128_S1024x128_1_1_0_0_n_n 128 rfl rfl k
  have el : dot_S1024x128_S128x128_S1024x128_1_1_0_0_n_n.lhsIdx (ix2 r o) ((ValueIdx.contrEquiv1 dot_S1024x128_S128x128_S1024x128_1_1_0_0_n_n 128 rfl rfl).symm k) = ix2 r k := funext fun a => Fin.ext (by
    match a with
    | ⟨0, _⟩ => exact lhs_ref_0 _ _
    | ⟨1, _⟩ => exact (lhs_ref_1 _ _).trans hk)
  have er : dot_S1024x128_S128x128_S1024x128_1_1_0_0_n_n.rhsIdx (ix2 r o) ((ValueIdx.contrEquiv1 dot_S1024x128_S128x128_S1024x128_1_1_0_0_n_n 128 rfl rfl).symm k) = ix2 o k := funext fun a => Fin.ext (by
    match a with
    | ⟨0, _⟩ => exact rhs_ref_0 _ _
    | ⟨1, _⟩ => exact (rhs_ref_1 _ _).trans hk)
  rw [el, er]

private theorem lhs_qry_0 (i : S16384x128.Idx) (q : dot_S16384x128_S128x128_S16384x128_1_1_0_0_n_n.contr.Idx) :
    (dot_S16384x128_S128x128_S16384x128_1_1_0_0_n_n.lhsIdx i q 0).val = (i 0).val := by
  unfold DotDims.lhsIdx
  rw [dif_neg (show ¬(0 : Fin S16384x128.rank) ∈ dot_S16384x128_S128x128_S16384x128_1_1_0_0_n_n.lhsBatch by decide), dif_pos (show (0 : Fin S16384x128.rank) ∈ dot_S16384x128_S128x128_S16384x128_1_1_0_0_n_n.lhsNonContracting by decide)]
  rfl
private theorem lhs_qry_1 (i : S16384x128.Idx) (q : dot_S16384x128_S128x128_S16384x128_1_1_0_0_n_n.contr.Idx) :
    (dot_S16384x128_S128x128_S16384x128_1_1_0_0_n_n.lhsIdx i q 1).val = (q ⟨0, by decide⟩).val :=
  dot_S16384x128_S128x128_S16384x128_1_1_0_0_n_n.lhsIdx_val_of_single rfl i q
private theorem rhs_qry_0 (i : S16384x128.Idx) (q : dot_S16384x128_S128x128_S16384x128_1_1_0_0_n_n.contr.Idx) :
    (dot_S16384x128_S128x128_S16384x128_1_1_0_0_n_n.rhsIdx i q 0).val = (i 1).val := by
  unfold DotDims.rhsIdx
  rw [dif_neg (show ¬(0 : Fin S128x128.rank) ∈ dot_S16384x128_S128x128_S16384x128_1_1_0_0_n_n.rhsBatch by decide), dif_pos (show (0 : Fin S128x128.rank) ∈ dot_S16384x128_S128x128_S16384x128_1_1_0_0_n_n.rhsNonContracting by decide)]
  rfl
private theorem rhs_qry_1 (i : S16384x128.Idx) (q : dot_S16384x128_S128x128_S16384x128_1_1_0_0_n_n.contr.Idx) :
    (dot_S16384x128_S128x128_S16384x128_1_1_0_0_n_n.rhsIdx i q 1).val = (q ⟨0, by decide⟩).val :=
  dot_S16384x128_S128x128_S16384x128_1_1_0_0_n_n.rhsIdx_val_of_single rfl i q

/-- The same product over the 16384 flattened (row, lane) pairs. -/
private theorem matmul_qry_apply (a : FVec Ideal S16384x128 .bf16) (b : FVec Ideal S128x128 .bf16) (p : Fin 16384) (o : Fin 128) :
    matmul dot_S16384x128_S128x128_S16384x128_1_1_0_0_n_n none a b (constant (F := Ideal) S16384x128 .f32 0x00000000#32) (ix2 p o)
      = ∑ k : Fin 128, a (ix2 p k) * b (ix2 o k) := by
  simp only [matmul]
  rw [Ideal.matmul_constant_zero_apply, ← Equiv.sum_comp (ValueIdx.contrEquiv1 dot_S16384x128_S128x128_S16384x128_1_1_0_0_n_n 128 rfl rfl).symm]
  refine Finset.sum_congr rfl fun k _ => ?_
  have hk := ValueIdx.contrEquiv1_symm_val dot_S16384x128_S128x128_S16384x128_1_1_0_0_n_n 128 rfl rfl k
  have el : dot_S16384x128_S128x128_S16384x128_1_1_0_0_n_n.lhsIdx (ix2 p o) ((ValueIdx.contrEquiv1 dot_S16384x128_S128x128_S16384x128_1_1_0_0_n_n 128 rfl rfl).symm k) = ix2 p k := funext fun a => Fin.ext (by
    match a with
    | ⟨0, _⟩ => exact lhs_qry_0 _ _
    | ⟨1, _⟩ => exact (lhs_qry_1 _ _).trans hk)
  have er : dot_S16384x128_S128x128_S16384x128_1_1_0_0_n_n.rhsIdx (ix2 p o) ((ValueIdx.contrEquiv1 dot_S16384x128_S128x128_S16384x128_1_1_0_0_n_n 128 rfl rfl).symm k) = ix2 o k := funext fun a => Fin.ext (by
    match a with
    | ⟨0, _⟩ => exact rhs_qry_0 _ _
    | ⟨1, _⟩ => exact (rhs_qry_1 _ _).trans hk)
  rw [el, er]

/-! ## The stages of the body's arithmetic -/

/-- The embedding block: the rows against the weight block plus the bias row, viewed as 1024 × 16 × 128. -/
private def embV (x0 : Vec Ideal S1024x128 .f32) (x1 : Vec Ideal S128x2048 .bf16) (x2 : Vec Ideal S2048 .f32) :
    FVec Ideal S1024x16x128 .f32 :=
  have v1 : FVec Ideal S1024x128 .f32 := shapeCast S1024x128 x0 shapeCasts_S1024x128_S1024x128
  have v3 : FVec Ideal S128x2048 .bf16 := shapeCast S128x2048 x1 shapeCasts_S128x2048_S128x2048
  have v5 : FVec Ideal S1024x128 .bf16 := truncf .bf16 v1 bitsLt_bf16_f32
  have cst : FVec Ideal S1024x2048 .f32 := constant S1024x2048 .f32 0x00000000#32
  have v6 : FVec Ideal S1024x2048 .f32 := matmul dot_S1024x128_S128x2048_S1024x2048_1_0_0_1_n_n none v5 v3 cst
  have v7 : FVec Ideal S1x2048 .f32 := shapeCast S1x2048 x2 shapeCasts_S2048_S1x2048
  have v8 : FVec Ideal S1024x2048 .f32 := broadcastTo S1024x2048 v7 broadcasts_S1x2048_S1024x2048
  have v9 : FVec Ideal S1024x2048 .f32 := addf v6 v8
  shapeCast S1024x16x128 v9 shapeCasts_S1024x2048_S1024x16x128

/-- The lane mean of an embedding block: the sum over the lanes times the sixteenth. -/
private def meanV (e : FVec Ideal S1024x16x128 .f32) : FVec Ideal S1024x128 .f32 :=
  have v11 : FVec Ideal S1024x128 .f32 := multiReduction .add [1] S1024x128 e 0x00000000#32 reduces_S1024x16x128_S1024x128 (.inl rfl) rfl
  have cst_5 : Ideal .f32 := Scalar.ofBits .f32 0x3D800000#32
  have v12 : FVec Ideal S1024x128 .f32 := broadcast S1024x128 cst_5
  mulf v11 v12

/-- An affine image of the 1024 rows of a block. -/
private def refV (m : FVec Ideal S1024x128 .f32) (w : Vec Ideal S128x128 .bf16) (b : Vec Ideal S128 .f32) : FVec Ideal S1024x128 .f32 :=
  have v15 : FVec Ideal S128x128 .bf16 := shapeCast S128x128 w shapeCasts_S128x128_S128x128
  have v17 : FVec Ideal S1024x128 .bf16 := truncf .bf16 m bitsLt_bf16_f32
  have cst_9 : FVec Ideal S1024x128 .f32 := constant S1024x128 .f32 0x00000000#32
  have v18 : FVec Ideal S1024x128 .f32 := matmul dot_S1024x128_S128x128_S1024x128_1_1_0_0_n_n none v17 v15 cst_9
  have v19 : FVec Ideal S1x128 .f32 := shapeCast S1x128 b shapeCasts_S128_S1x128
  have v20 : FVec Ideal S1024x128 .f32 := broadcastTo S1024x128 v19 broadcasts_S1x128_S1024x128
  addf v18 v20

/-- An affine image of the 16384 (row, lane) pairs of an embedding block, flattened row-major. -/
private def qryV (e : FVec Ideal S1024x16x128 .f32) (w : Vec Ideal S128x128 .bf16) (b : Vec Ideal S128 .f32) : FVec Ideal S16384x128 .f32 :=
  have v23 : FVec Ideal S128x128 .bf16 := shapeCast S128x128 w shapeCasts_S128x128_S128x128
  have v25 : FVec Ideal S16384x128 .f32 := shapeCast S16384x128 e shapeCasts_S1024x16x128_S16384x128
  have v26 : FVec Ideal S16384x128 .bf16 := truncf .bf16 v25 bitsLt_bf16_f32
  have cst_13 : FVec Ideal S16384x128 .f32 := constant S16384x128 .f32 0x00000000#32
  have v27 : FVec Ideal S16384x128 .f32 := matmul dot_S16384x128_S128x128_S16384x128_1_1_0_0_n_n none v26 v23 cst_13
  have v28 : FVec Ideal S1x128 .f32 := shapeCast S1x128 b shapeCasts_S128_S1x128
  have v29 : FVec Ideal S16384x128 .f32 := broadcastTo S16384x128 v28 broadcasts_S1x128_S16384x128
  addf v27 v29

/-- The hyperbolic tangent of the sum of the row image, repeated over the lanes, and the pair image, unflattened. -/
private def tanhV (a : FVec Ideal S1024x128 .f32) (q : FVec Ideal S16384x128 .f32) : FVec Ideal S1024x16x128 .f32 :=
  have v31 : FVec Ideal S1024x16x128 .f32 := shapeCast S1024x16x128 q shapeCasts_S16384x128_S1024x16x128
  have v32 : FVec Ideal S1024x1x128 .f32 := shapeCast S1024x1x128 a shapeCasts_S1024x128_S1024x1x128
  have v33 : FVec Ideal S1024x16x128 .f32 := broadcastTo S1024x16x128 v32 broadcasts_S1024x1x128_S1024x16x128
  have v34 : FVec Ideal S1024x16x128 .f32 := addf v33 v31
  tanh v34

/-- The second payload is the composition of the stages. -/
private theorem pay2_eq (x0 : Vec Ideal S1024x128 .f32) (x1 : Vec Ideal S128x2048 .bf16) (x2 : Vec Ideal S2048 .f32)
    (w1 : Vec Ideal S128x128 .bf16) (b1 : Vec Ideal S128 .f32) (w2 : Vec Ideal S128x128 .bf16) (b2 : Vec Ideal S128 .f32) :
    k0_pay2 (F := Ideal) x0 x1 x2 w1 b1 w2 b2
      = tanhV (refV (meanV (embV x0 x1 x2)) w1 b1) (qryV (embV x0 x1 x2) w2 b2) := rfl

/-- The embedding block at (r, l, o) is the specification's one-product embedding of row r at lane l, unit o. -/
private theorem embV_apply (x0 : Vec Ideal S1024x128 .f32) (x1 : Vec Ideal S128x2048 .bf16) (x2 : Vec Ideal S2048 .f32)
    (r : Fin 1024) (l : Fin 16) (o : Fin 128) :
    embV x0 x1 x2 (ix3 r l o) = embBig (fun j => x0 (ix2 r j)) x1 x2 l o := by
  unfold embV embBig
  refine (shapeCast_apply _ shapeCasts_S1024x2048_S1024x16x128 (ix3 r l o)
    (ix2 r (⟨128 * l.val + o.val, by omega⟩ : Fin 2048)) ?_).trans ?_
  · rw [Shape.rowMajor_val_two, Shape.rowMajor_val_three]
    show r.val * 2048 + (128 * l.val + o.val) = (r.val * 16 + l.val) * 128 + o.val
    omega
  refine (addf_apply _ _ _).trans ?_
  refine congrArg₂ (· + ·) ?_ ?_
  · refine (matmul_emb_apply _ _ r _).trans ?_
    refine Finset.sum_congr rfl fun k _ => ?_
    refine congrArg₂ (· * ·) ?_ ?_
    · exact congrFun (shapeCast_self x0 shapeCasts_S1024x128_S1024x128) (ix2 r k)
    · exact congrFun (shapeCast_self x1 shapeCasts_S128x2048_S128x2048) _
  · refine (broadcastTo_apply _ broadcasts_S1x2048_S1024x2048 _
      (ix2 (0 : Fin 1) (⟨128 * l.val + o.val, by omega⟩ : Fin 2048)) (fun a => ?_)).trans ?_
    · match a with
      | ⟨0, _⟩ => rfl
      | ⟨1, _⟩ => rfl
    · refine shapeCast_apply x2 shapeCasts_S2048_S1x2048 _ (ix1 (⟨128 * l.val + o.val, by omega⟩ : Fin 2048)) ?_
      rw [Shape.rowMajor_val_one, Shape.rowMajor_val_two]
      show 128 * l.val + o.val = 0 * 2048 + (128 * l.val + o.val)
      omega

/-- The lane mean at (r, k): the sum over the sixteen lanes times the word of 0.0625. -/
private theorem meanV_apply (e : FVec Ideal S1024x16x128 .f32) (r : Fin 1024) (k : Fin 128) :
    meanV e (ix2 r k) = (∑ l : Fin 16, e (ix3 r l k)) * Ideal.ofBits .f32 0x3D800000#32 := by
  unfold meanV
  refine (mulf_apply _ _ _).trans ?_
  refine congrArg₂ (· * ·) ?_ rfl
  refine (Ideal.multiReduction_add_single e _ reduces_S1024x16x128_S1024x128 _ _ (ix2 r k)).trans ?_
  refine Finset.sum_congr rfl fun l _ => ?_
  exact congrArg e (funext fun a => Fin.ext (by match a with | ⟨0, _⟩ => rfl | ⟨1, _⟩ => rfl | ⟨2, _⟩ => rfl))

/-- A bias row repeated over 1024 rows, at (r, o). -/
private theorem bias1024_apply (b : Vec Ideal S128 .f32) (r : Fin 1024) (o : Fin 128) :
    broadcastTo S1024x128 (shapeCast S1x128 b shapeCasts_S128_S1x128) broadcasts_S1x128_S1024x128 (ix2 r o) = b (ix1 o) := by
  refine (broadcastTo_apply _ broadcasts_S1x128_S1024x128 _ (ix2 (0 : Fin 1) o) (fun a => ?_)).trans ?_
  · match a with
    | ⟨0, _⟩ => rfl
    | ⟨1, _⟩ => rfl
  · refine shapeCast_apply b shapeCasts_S128_S1x128 _ (ix1 o) ?_
    rw [Shape.rowMajor_val_one, Shape.rowMajor_val_two]
    show o.val = 0 * 128 + o.val
    omega

/-- A bias row repeated over 16384 rows, at (p, o). -/
private theorem bias16384_apply (b : Vec Ideal S128 .f32) (p : Fin 16384) (o : Fin 128) :
    broadcastTo S16384x128 (shapeCast S1x128 b shapeCasts_S128_S1x128) broadcasts_S1x128_S16384x128 (ix2 p o) = b (ix1 o) := by
  refine (broadcastTo_apply _ broadcasts_S1x128_S16384x128 _ (ix2 (0 : Fin 1) o) (fun a => ?_)).trans ?_
  · match a with
    | ⟨0, _⟩ => rfl
    | ⟨1, _⟩ => rfl
  · refine shapeCast_apply b shapeCasts_S128_S1x128 _ (ix1 o) ?_
    rw [Shape.rowMajor_val_one, Shape.rowMajor_val_two]
    show o.val = 0 * 128 + o.val
    omega

/-- The row image at (r, o) is the specification's affine map of row r of the block. -/
private theorem refV_apply (m : FVec Ideal S1024x128 .f32) (w : Vec Ideal S128x128 .bf16) (b : Vec Ideal S128 .f32)
    (r : Fin 1024) (o : Fin 128) :
    refV m w b (ix2 r o) = lin w b (fun k => m (ix2 r k)) o := by
  unfold refV lin
  refine (addf_apply _ _ _).trans ?_
  refine congrArg₂ (· + ·) ?_ (bias1024_apply b r o)
  refine (matmul_ref_apply _ _ r o).trans ?_
  refine Finset.sum_congr rfl fun k _ => ?_
  refine congrArg₂ (· * ·) rfl ?_
  exact congrFun (shapeCast_self w shapeCasts_S128x128_S128x128) _

/-- The pair image at (16 r + l, o) is the specification's affine map of lane l of row r of the block. -/
private theorem qryV_apply (e : FVec Ideal S1024x16x128 .f32) (w : Vec Ideal S128x128 .bf16) (b : Vec Ideal S128 .f32)
    (r : Fin 1024) (l : Fin 16) (o : Fin 128) :
    qryV e w b (ix2 (⟨16 * r.val + l.val, by omega⟩ : Fin 16384) o) = lin w b (fun k => e (ix3 r l k)) o := by
  unfold qryV lin
  refine (addf_apply _ _ _).trans ?_
  refine congrArg₂ (· + ·) ?_ (bias16384_apply b _ o)
  refine (matmul_qry_apply _ _ _ o).trans ?_
  refine Finset.sum_congr rfl fun k _ => ?_
  refine congrArg₂ (· * ·) ?_ ?_
  · refine (truncf_apply (ψ := .bf16) _ bitsLt_bf16_f32 _).trans ?_
    refine shapeCast_apply e shapeCasts_S1024x16x128_S16384x128 _ (ix3 r l k) ?_
    rw [Shape.rowMajor_val_two, Shape.rowMajor_val_three]
    show (r.val * 16 + l.val) * 128 + k.val = (16 * r.val + l.val) * 128 + k.val
    omega
  · exact congrFun (shapeCast_self w shapeCasts_S128x128_S128x128) _

/-- The tangent block at (r, l, o). -/
private theorem tanhV_apply (a : FVec Ideal S1024x128 .f32) (q : FVec Ideal S16384x128 .f32) (r : Fin 1024) (l : Fin 16) (o : Fin 128) :
    tanhV a q (ix3 r l o) = Ideal.tanh (a (ix2 r o) + q (ix2 (⟨16 * r.val + l.val, by omega⟩ : Fin 16384) o)) := by
  unfold tanhV
  show Ideal.tanh (_ + _) = _
  refine congrArg Ideal.tanh (congrArg₂ (· + ·) ?_ ?_)
  · refine (broadcastTo_apply _ broadcasts_S1024x1x128_S1024x16x128 _ (ix3 r (0 : Fin 1) o) (fun a => ?_)).trans ?_
    · match a with
      | ⟨0, _⟩ => rfl
      | ⟨1, _⟩ => rfl
      | ⟨2, _⟩ => rfl
    · refine shapeCast_apply a shapeCasts_S1024x128_S1024x1x128 _ (ix2 r o) ?_
      rw [Shape.rowMajor_val_two, Shape.rowMajor_val_three]
      show r.val * 128 + o.val = (r.val * 1 + 0) * 128 + o.val
      omega
  · refine shapeCast_apply q shapeCasts_S16384x128_S1024x16x128 _ (ix2 (⟨16 * r.val + l.val, by omega⟩ : Fin 16384) o) ?_
    rw [Shape.rowMajor_val_two, Shape.rowMajor_val_three]
    show (16 * r.val + l.val) * 128 + o.val = (r.val * 16 + l.val) * 128 + o.val
    omega

/-! ## The body's output at an entry -/

/-- The tangent block of the body at (r, l, o), in the specification's words. -/
private theorem pay2_apply (x0 : Vec Ideal S1024x128 .f32) (x1 : Vec Ideal S128x2048 .bf16) (x2 : Vec Ideal S2048 .f32)
    (w1 : Vec Ideal S128x128 .bf16) (b1 : Vec Ideal S128 .f32) (w2 : Vec Ideal S128x128 .bf16) (b2 : Vec Ideal S128 .f32)
    (r : Fin 1024) (l : Fin 16) (o : Fin 128) :
    k0_pay2 (F := Ideal) x0 x1 x2 w1 b1 w2 b2 (ix3 r l o)
      = Ideal.tanh (lin w1 b1 (meanRow (embBig (fun j => x0 (ix2 r j)) x1 x2)) o
          + lin w2 b2 (embBig (fun j => x0 (ix2 r j)) x1 x2 l) o) := by
  refine (congrFun (pay2_eq x0 x1 x2 w1 b1 w2 b2) (ix3 r l o)).trans ?_
  refine (tanhV_apply _ _ r l o).trans ?_
  refine congrArg Ideal.tanh (congrArg₂ (· + ·) ?_ ?_)
  · refine (refV_apply _ w1 b1 r o).trans ?_
    refine congrArg (fun v => lin w1 b1 v o) (funext fun k => ?_)
    refine (meanV_apply _ r k).trans ?_
    unfold meanRow
    exact congrArg (· * Ideal.ofBits .f32 0x3D800000#32) (Finset.sum_congr rfl fun l' _ => embV_apply x0 x1 x2 r l' k)
  · refine (qryV_apply _ w2 b2 r l o).trans ?_
    exact congrArg (fun v => lin w2 b2 v o) (funext fun k => embV_apply x0 x1 x2 r l k)

/-- Entry (r, l) of the first body's output block. -/
theorem out0_9_apply (x0 : Vec Ideal S1024x128 .f32) (x1 : Vec Ideal S128x2048 .bf16) (x2 : Vec Ideal S2048 .f32)
    (x3 : Vec Ideal S128x128 .bf16) (x4 : Vec Ideal S128 .f32) (x5 : Vec Ideal S128x128 .bf16) (x6 : Vec Ideal S128 .f32)
    (x7 : Vec Ideal S1x128 .f32) (x8 : Vec Ideal S1 .f32) (r : Fin 1024) (l : Fin 16) :
    out0_9 x0 x1 x2 x3 x4 x5 x6 x7 x8 (ix2 r l)
      = logitRow (embBig (fun j => x0 (ix2 r j)) x1 x2) x3 x4 x5 x6 x7 x8 l := by
  have hz : (![0, 0] : Fin 2 → Nat) = fun _ => 0 := funext fun a => by fin_cases a <;> rfl
  have hz1 : (![0] : Fin 1 → Nat) = fun _ => 0 := funext fun a => by fin_cases a <;> rfl
  unfold out0_9
  rw [View.canon_unit_zero hz]
  simp only [View.ld_unit_zero (S := S1024x128) hz, View.ld_unit_zero (S := S128x2048) hz,
    View.ld_unit_zero (S := S2048) hz1, View.ld_unit_zero (S := S128x128) hz, View.ld_unit_zero (S := S128) hz1,
    View.ld_unit_zero (S := S1x128) hz, View.ld_unit_zero (S := S1) hz1]
  refine (pay1_apply _ _ _ r l).trans ?_
  unfold logitRow score
  exact congrArg₂ (· + ·) (Finset.sum_congr rfl fun o _ =>
    congrArg₂ (· * ·) (pay2_apply x0 x1 x2 x5 x6 x3 x4 r l o) (pay3_apply x7 o)) rfl

end Cert.KernelIdeal.LaneValue

end
-- ==== Proof.KReg0.lean ====
/-
  The first pallas_call's output array after the region: the attention logits of every row and lane.
  Grid point t writes back rows 1024 t … 1024 t + 1023; its feature block is those rows of the feature
  matrix and every other block is a whole array; the sixteen blocks cover the array.
-/
import proofs.«411023_j80564996538677_3_alg».proof.Proof.Gen.KernelIdeal.Frame
import proofs.«411023_j80564996538677_3_alg».proof.Proof.Spec
import proofs.«411023_j80564996538677_3_alg».proof.Proof.Algebra
import proofs.«411023_j80564996538677_3_alg».proof.Proof.KArgs
import proofs.«411023_j80564996538677_3_alg».proof.Proof.KHostA
import proofs.«411023_j80564996538677_3_alg».proof.Proof.KBody0
import Idealize.ShloMosaic.Lib.Pipeline.Value

set_option maxRecDepth 16384

noncomputable section

namespace Cert.KernelIdeal.LaneValue

open Idealize.ShloMosaic Idealize.ShloMosaic.TcCoe Idealize.ShloMosaic.ValueIdx Idealize.SL.Sem
open Cert.KernelIdeal Cert.KernelIdeal.Gen Cert.LaneAttn

variable (m : (ℓ : Loc nD τ sig) → Buf (Elt Ideal) ℓ) (ρ : Dev nD → PrngReg)

/-- The block index of every window at a grid point: the point's number on the row axis of the two
    row-blocked windows, zero everywhere else. -/
private theorem logitIdx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

section Blocks

/- The contents the region finds, as a parameter: the block reads do not look inside them. -/
variable (V : (c : Dev nD) → (b : Ref sig .tc) → Buf (Elt Ideal) ((c : Thread nD τ).loc b))

/-- The feature window's block at point t holds rows 1024 t … 1024 t + 1023 of its array. -/
private theorem logitFeatBlk (c : Dev nD) (t : Fin cfg0.N) (p : Fin 1024) (j : Fin 128) (k : S16384x128.Idx)
    (hk0 : (k 0).val = 1024 * t.val + p.val) (hk1 : (k 1).val = j.val) :
    (iblk0 V c 0 t : Vec Ideal S1024x128 .f32) (ix2 p j) = (V c main_v0 : S16384x128.Idx → EReal) k := by
  obtain ⟨e0, e1, -⟩ := logitIdx t
  show (V c main_v0 : S16384x128.Idx → EReal) (((cfg0.win 0).blk t).view.emb (ix2 p j)) = _
  congr 1
  funext a; apply Fin.ext
  match a with
  | ⟨0, _⟩ => show win0_0.index t (0 : Fin 2) * 1024 + 1 * p.val = (k 0).val; omega
  | ⟨1, _⟩ => show win0_0.index t (1 : Fin 2) * 128 + 1 * j.val = (k 1).val; omega

/-- A window of one block holds its whole array: the block-diagonal weight. -/
private theorem logitWholeBlk1 (c : Dev nD) (t : Fin cfg0.N) :
    (iblk0 V c 1 t : Vec Ideal S128x2048 .bf16) = (V c main_v28 : S128x2048.Idx → EReal) := by
  obtain ⟨-, -, w10, w11, w20, w30, w31, w40, w50, w51, w60, w70, w71, w80, -⟩ := logitIdx t
  funext y
  show (V c main_v28 : S128x2048.Idx → EReal) (((cfg0.win 1).blk t).view.emb y) = _
  congr 1
  funext a; apply Fin.ext
  match a with
  | ⟨0, _⟩ => show win0_1.index t (0 : Fin 2) * 128 + 1 * (y 0).val = (y 0).val; omega
  | ⟨1, _⟩ => show win0_1.index t (1 : Fin 2) * 2048 + 1 * (y 1).val = (y 1).val; omega

/-- A window of one block holds its whole array: the tiled bias. -/
private theorem logitWholeBlk2 (c : Dev nD) (t : Fin cfg0.N) :
    (iblk0 V c 2 t : Vec Ideal S2048 .f32) = (V c main_v31 : S2048.Idx → EReal) := by
  obtain ⟨-, -, w10, w11, w20, w30, w31, w40, w50, w51, w60, w70, w71, w80, -⟩ := logitIdx t
  funext y
  show (V c main_v31 : S2048.Idx → EReal) (((cfg0.win 2).blk t).view.emb y) = _
  congr 1
  funext a; apply Fin.ext
  match a with
  | ⟨0, _⟩ => show win0_2.index t (0 : Fin 1) * 2048 + 1 * (y 0).val = (y 0).val; omega

/-- A window of one block holds its whole array: the query weight. -/
private theorem logitWholeBlk3 (c : Dev nD) (t : Fin cfg0.N) :
    (iblk0 V c 3 t : Vec Ideal S128x128 .bf16) = (V c main_v32 : S128x128.Idx → EReal) := by
  obtain ⟨-, -, w10, w11, w20, w30, w31, w40, w50, w51, w60, w70, w71, w80, -⟩ := logitIdx t
  funext y
  show (V c main_v32 : S128x128.Idx → EReal) (((cfg0.win 3).blk t).view.emb y) = _
  congr 1
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- A window of one block holds its whole array: the query bias. -/
private theorem logitWholeBlk4 (c : Dev nD) (t : Fin cfg0.N) :
    (iblk0 V c 4 t : Vec Ideal S128 .f32) = (V c main_arg4 : S128.Idx → EReal) := by
  obtain ⟨-, -, w10, w11, w20, w30, w31, w40, w50, w51, w60, w70, w71, w80, -⟩ := logitIdx t
  funext y
  show (V c main_arg4 : S128.Idx → EReal) (((cfg0.win 4).blk t).view.emb y) = _
  congr 1
  funext a; apply Fin.ext
  match a with
  | ⟨0, _⟩ => show win0_4.index t (0 : Fin 1) * 128 + 1 * (y 0).val = (y 0).val; omega

/-- A window of one block holds its whole array: the reference weight. -/
private theorem logitWholeBlk5 (c : Dev nD) (t : Fin cfg0.N) :
    (iblk0 V c 5 t : Vec Ideal S128x128 .bf16) = (V c main_v33 : S128x128.Idx → EReal) := by
  obtain ⟨-, -, w10, w11, w20, w30, w31, w40, w50, w51, w60, w70, w71, w80, -⟩ := logitIdx t
  funext y
  show (V c main_v33 : S128x128.Idx → EReal) (((cfg0.win 5).blk t).view.emb y) = _
  congr 1
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- A window of one block holds its whole array: the reference bias. -/
private theorem logitWholeBlk6 (c : Dev nD) (t : Fin cfg0.N) :
    (iblk0 V c 6 t : Vec Ideal S128 .f32) = (V c main_arg6 : S128.Idx → EReal) := by
  obtain ⟨-, -, w10, w11, w20, w30, w31, w40, w50, w51, w60, w70, w71, w80, -⟩ := logitIdx t
  funext y
  show (V c main_arg6 : S128.Idx → EReal) (((cfg0.win 6).blk t).view.emb y) = _
  congr 1
  funext a; apply Fin.ext
  match a with
  | ⟨0, _⟩ => show win0_6.index t (0 : Fin 1) * 128 + 1 * (y 0).val = (y 0).val; omega

/-- A window of one block holds its whole array: the read-out row. -/
private theorem logitWholeBlk7 (c : Dev nD) (t : Fin cfg0.N) :
    (iblk0 V c 7 t : Vec Ideal S1x128 .f32) = (V c main_arg7 : S1x128.Idx → EReal) := by
  obtain ⟨-, -, w10, w11, w20, w30, w31, w40, w50, w51, w60, w70, w71, w80, -⟩ := logitIdx t
  funext y
  show (V c main_arg7 : S1x128.Idx → EReal) (((cfg0.win 7).blk t).view.emb y) = _
  congr 1
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- A window of one block holds its whole array: the read-out bias. -/
private theorem logitWholeBlk8 (c : Dev nD) (t : Fin cfg0.N) :
    (iblk0 V c 8 t : Vec Ideal S1 .f32) = (V c main_arg8 : S1.Idx → EReal) := by
  obtain ⟨-, -, w10, w11, w20, w30, w31, w40, w50, w51, w60, w70, w71, w80, -⟩ := logitIdx t
  funext y
  show (V c main_arg8 : S1.Idx → EReal) (((cfg0.win 8).blk t).view.emb y) = _
  congr 1
  funext a; apply Fin.ext
  match a with
  | ⟨0, _⟩ => show win0_8.index t (0 : Fin 1) * 1 + 1 * (y 0).val = (y 0).val; omega

/-- Row p, lane q of what point t leaves in the output block: the logit of row 1024 t + p of the feature
    array, with every other operand the whole array of its window. -/
private theorem logitOutBlk (c : Dev nD) (t : Fin cfg0.N) (p : Fin 1024) (q : Fin 16) (b : Fin 16384) (hb : b.val = 1024 * t.val + p.val) :
    out0_9 (iblk0 V c 0 t) (iblk0 V c 1 t) (iblk0 V c 2 t) (iblk0 V c 3 t) (iblk0 V c 4 t) (iblk0 V c 5 t)
        (iblk0 V c 6 t) (iblk0 V c 7 t) (iblk0 V c 8 t) (ix2 p q)
      = logitRow (embBig (fun j => (V c main_v0 : S16384x128.Idx → EReal) (ix2 b j))
            (V c main_v28 : S128x2048.Idx → EReal) (V c main_v31 : S2048.Idx → EReal))
          (V c main_v32 : S128x128.Idx → EReal) (V c main_arg4 : S128.Idx → EReal)
          (V c main_v33 : S128x128.Idx → EReal) (V c main_arg6 : S128.Idx → EReal)
          (V c main_arg7 : S1x128.Idx → EReal) (V c main_arg8 : S1.Idx → EReal) q := by
  refine (out0_9_apply (iblk0 V c 0 t) (iblk0 V c 1 t) (iblk0 V c 2 t) (iblk0 V c 3 t) (iblk0 V c 4 t) (iblk0 V c 5 t)
        (iblk0 V c 6 t) (iblk0 V c 7 t) (iblk0 V c 8 t) p q).trans ?_
  rw [logitWholeBlk1 V c t, logitWholeBlk2 V c t, logitWholeBlk3 V c t, logitWholeBlk4 V c t, logitWholeBlk5 V c t, logitWholeBlk6 V c t,
    logitWholeBlk7 V c t, logitWholeBlk8 V c t]
  have hx : (fun j : Fin 128 => (iblk0 V c 0 t : Vec Ideal S1024x128 .f32) (ix2 p j))
      = fun j => (V c main_v0 : S16384x128.Idx → EReal) (ix2 b j) :=
    funext fun j => logitFeatBlk V c t p j (ix2 b j) hb rfl
  rw [hx]

end Blocks

/-- The specification's embedding of a row, from the one-product form at the block-diagonal weight and the
    tiled bias. -/
private theorem embBig_embRow (x : Fin 128 → EReal) (lew : Mat 128 8) (leb : Vc 128) :
    embBig x (blockDiag lew) (tiled leb) = embRow x lew leb :=
  funext fun l => funext fun o => embBig_blockDiag x lew leb l o

/-- What point t writes back: block t of the logits array. -/
private theorem logit_flushed (c : Dev nD) (t : Fin cfg0.N) :
    (dat0 (V3 m ρ) c).flushed 9 t
      = ((cfg0.win 9).blk t).view.read (Elt Ideal) (fun i : S16384x16.Idx => logitOf m c (i 0) (i 1)) := by
  show (cfg0.win 9).cut (grid0.coords t) ((dat0 (V3 m ρ) c).after 9 t) = _
  rw [after0_9]
  funext y
  obtain ⟨p, q, rfl⟩ : ∃ (p : Fin 1024) (q : Fin 16), y = ix2 p q := ⟨y 0, y 1, eq_ix2 y⟩
  obtain ⟨-, -, -, -, -, -, -, -, -, -, -, -, -, -, e0, e1⟩ := logitIdx t
  have ht : t.val < 16 := lt_of_lt_of_eq t.isLt N_0
  -- the row of the array this entry is
  have hb : 1024 * t.val + p.val < 16384 := by have := p.isLt; omega
  refine (logitOutBlk (V3 m ρ) c t p q ⟨1024 * t.val + p.val, hb⟩ rfl).trans ?_
  rw [V3_feat m ρ c, V3_blockDiag m ρ c, V3_tiled m ρ c, V3_sqw m ρ c, V3_srw m ρ c, V3_arg4 m ρ c, V3_arg6 m ρ c,
    V3_arg7 m ρ c, V3_arg8 m ρ c, embBig_embRow]
  show _ = logitOf m c ((((cfg0.win 9).blk t).view.emb (ix2 p q)) 0) ((((cfg0.win 9).blk t).view.emb (ix2 p q)) 1)
  have h0 : (((cfg0.win 9).blk t).view.emb (ix2 p q)) 0 = ⟨1024 * t.val + p.val, hb⟩ := by
    apply Fin.ext
    show win0_9.index t (0 : Fin 2) * 1024 + 1 * p.val = 1024 * t.val + p.val
    omega
  have h1 : (((cfg0.win 9).blk t).view.emb (ix2 p q)) 1 = q := by
    apply Fin.ext
    show win0_9.index t (1 : Fin 2) * 16 + 1 * q.val = q.val
    omega
  rw [h0, h1]
  rfl

/-- An index of the logits array is in point t's block iff each coordinate is in the block's range. -/
private theorem logit_mem_blk (t : Fin cfg0.N) (i : S16384x16.Idx) :
    i ∈ ((cfg0.win 9).blk t).view.set
      ↔ ∀ a : Fin 2, win0_9.index t a * S1024x16.size a ≤ (i a).val ∧ (i a).val < win0_9.index t a * S1024x16.size a + S1024x16.size a := by
  show i ∈ ((View.whole main_v36).slice (win0_9.rect t)).set ↔ _
  rw [View.set_slice_whole, Rect.mem_set_unit]
  exact Iff.rfl

/-- Every row is in the block of the point that is its number divided by 1024. -/
private theorem logit_cover (i : S16384x16.Idx) :
    ∃ t : Fin cfg0.N, (cfg0.win 9).flush t = true ∧ i ∈ ((cfg0.win 9).blk t).view.set := by
  have hi0 : (i 0).val < 16384 := (i 0).isLt
  have hi1 : (i 1).val < 16 := (i 1).isLt
  have hN : cfg0.N = 16 := N_0
  let t : Fin cfg0.N := ⟨(i 0).val / 1024, by rw [hN]; omega⟩
  obtain ⟨-, -, -, -, -, -, -, -, -, -, -, -, -, -, e0, e1⟩ := logitIdx t
  have ht : t.val = (i 0).val / 1024 := rfl
  refine ⟨t, flush0_9 t, ?_⟩
  rw [logit_mem_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 16 ≤ (i 1).val ∧ (i 1).val < win0_9.index t (1 : Fin 2) * 16 + 16; omega

/-- The logits array the first region leaves. -/
theorem reg0_value (c : Dev nD) :
    (dat0 (V3 m ρ) c).arrAt 9 cfg0.N = fun i => logitOf m c (i 0) (i 1) :=
  (dat0 (V3 m ρ) c).arrAt_eq_of_cover 9 (fun i : S16384x16.Idx => logitOf m c (i 0) (i 1))
    (fun t _ => logit_flushed m ρ c t) logit_cover

end Cert.KernelIdeal.LaneValue

end
-- ==== Proof.KHostB.lean ====
/-
  What the second pallas_call finds in its arrays: the first region's logits, the host operations between
  the regions read at an index (the column maxima from minus infinity, the reciprocals of the column
  sums of the shifted exponentials), and the arrays made before the first region, which neither the
  first region nor those operations change.
-/
import proofs.«411023_j80564996538677_3_alg».proof.Proof.Gen.KernelIdeal.Frame
import proofs.«411023_j80564996538677_3_alg».proof.Proof.Spec
import proofs.«411023_j80564996538677_3_alg».proof.Proof.Algebra
import proofs.«411023_j80564996538677_3_alg».proof.Proof.KArgs
import proofs.«411023_j80564996538677_3_alg».proof.Proof.KHostA
import proofs.«411023_j80564996538677_3_alg».proof.Proof.KReg0
import Idealize.ShloMosaic.PureOps.Reduce
import Idealize.ShloMosaic.PureOps.Ideal.Laws
import Idealize.ShloMosaic.Lib.IdealHost
import Idealize.ShloMosaic.Lib.ValueIdx
import Idealize.ShloMosaic.Lib.Pipeline.Value

set_option maxRecDepth 16384

noncomputable section

namespace Cert.KernelIdeal.LaneValue

open Idealize.ShloMosaic Idealize.ShloMosaic.TcCoe Idealize.ShloMosaic.ValueIdx Idealize.SL.Sem
open Cert.KernelIdeal Cert.KernelIdeal.Gen Cert.LaneAttn

variable (m : (ℓ : Loc nD τ sig) → Buf (Elt Ideal) ℓ) (ρ : Dev nD → PrngReg)

/-! ## The operations between the regions, read at an index -/

/-- The reduced index `j` with row `k` put back is (k, j). -/
private theorem lift_rows (h : S16384x16.Reduces [0] S16) (j : S16.Idx) (k : Fin (S16384x16.size 0)) :
    h.lift j k = ix2 (⟨k.val, k.isLt⟩ : Fin 16384) (j 0) := by
  funext a; apply Fin.ext
  match a with
  | ⟨0, _⟩ => rfl
  | ⟨1, _⟩ => rfl

/-- The maximum over the rows from the word of minus infinity, at lane `j`: the fold of `max` from ⊥ down the column. -/
private theorem hostMax_apply (X : FVec Ideal S16384x16 .f32) (h : S16384x16.Reduces [0] S16) (j : S16.Idx) :
    Host.reduce FloatOps.maximumf X (constant S_ .f32 0xFF800000#32) reducesTo_S16384x16_S16_d0 h_S_ j
      = (Finset.univ : Finset (Fin 16384)).fold max ⊥ fun b => X (ix2 b (j 0)) := by
  rw [Host.reduce_eq_fold_single FloatOps.maximumf X _ reducesTo_S16384x16_S16_d0 h h_S_]
  have hf : (X ∘ h.lift j) = fun k : Fin 16384 => X (ix2 k (j 0)) := funext fun k => congrArg X (lift_rows h j k)
  show Finset.fold max (Ideal.ofBits .f32 0xFF800000#32) (X ∘ h.lift j) (Finset.univ : Finset (Fin 16384)) = _
  rw [ofBits_neg_inf, hf]
  rfl

/-- The sum over the rows from the zero word, at lane `j`: the sum down the column. -/
private theorem hostSum_apply (Y : FVec Ideal S16384x16 .f32) (h : S16384x16.Reduces [0] S16) (j : S16.Idx) :
    Host.reduceAdd Y (constant S_ .f32 0x00000000#32) reducesTo_S16384x16_S16_d0 h_S_ j
      = ∑ b : Fin 16384, Y (ix2 b (j 0)) := by
  rw [hostReduceAdd_apply, Ideal.hostReduceAdd_single _ h, constant_apply, Ideal.ofBits_zero_f32, zero_add]
  exact Finset.sum_congr rfl fun k _ => congrArg Y (lift_rows h j k)

/-- A vector of sixteen entries cast to one row reads, at (0, l), entry l. -/
private theorem oneRow_apply {α : Type} (z : S16.Idx → α) (i : S1x16.Idx) :
    shapeCast S1x16 z shapeCasts_S16_S1x16 i = z (ix1 (i 1)) :=
  shapeCast_apply z shapeCasts_S16_S1x16 i (ix1 (i 1)) (by
    have h0 : (i 0).val < 1 := (i 0).isLt
    rw [Shape.rowMajor_val_one, Shape.rowMajor_val_two]
    show (i 1).val = (i 0).val * 16 + (i 1).val
    omega)

/-- A vector of sixteen entries laid along the lanes of one row and then down all the rows reads, at (b, l), entry l. -/
private theorem laneBroadcast_apply {α : Type} (z : S16.Idx → α) (i : S16384x16.Idx) :
    broadcastInDim S16384x16 ![0, 1] bcast_S1x16_S16384x16_0_1 (broadcastInDim S1x16 ![1] bcast_S16_S1x16_1 z) i
      = z (ix1 (i 1)) :=
  (broadcastInDim_apply _ bcast_S1x16_S16384x16_0_1 _ i (ix2 (0 : Fin 1) (i 1))
      (fun a => match a with | ⟨0, _⟩ => rfl | ⟨1, _⟩ => rfl)).trans
    (broadcastInDim_apply _ bcast_S16_S1x16_1 z _ (ix1 (i 1)) (fun a => match a with | ⟨0, _⟩ => rfl))

/-- The one row of column maxima, as the operations make it from an array of logits: the maximum over the rows
    from the word of minus infinity, cast to one row. -/
private def maxRowOf (X : FVec Ideal S16384x16 .f32) : FVec Ideal S1x16 .f32 :=
  shapeCast S1x16 (Host.reduce FloatOps.maximumf X
    (constant (F := Ideal) S_ .f32 0xFF800000#32) reducesTo_S16384x16_S16_d0 h_S_) shapeCasts_S16_S1x16

/-- The one row of reciprocals, as the operations make it from an array of logits: the word of 1.0 over the sum
    down the rows, from the zero word, of the exponentials of the logits less their column maxima, cast to one row. -/
private def invRowOf (X : FVec Ideal S16384x16 .f32) : FVec Ideal S1x16 .f32 :=
  shapeCast S1x16 (Host.divf (F := Ideal) (broadcastInDim S16 ![] bcast_S_S16 (constant (F := Ideal) S_ .f32 0x3F800000#32))
    (Host.reduceAdd (Host.exp (subf X
        (broadcastInDim S16384x16 ![0, 1] bcast_S1x16_S16384x16_0_1
          (broadcastInDim S1x16 ![1] bcast_S16_S1x16_1
            (Host.reduce FloatOps.maximumf X
              (constant (F := Ideal) S_ .f32 0xFF800000#32) reducesTo_S16384x16_S16_d0 h_S_)))))
      (constant (F := Ideal) S_ .f32 0x00000000#32) reducesTo_S16384x16_S16_d0 h_S_)) shapeCasts_S16_S1x16

/-- The row of maxima of an array of logits is the specification's column maxima. -/
private theorem maxRowOf_apply (X : FVec Ideal S16384x16 .f32) (L : Fin 16384 → Fin 16 → EReal)
    (hX : X = fun i => L (i 0) (i 1)) (i : S1x16.Idx) : maxRowOf X i = colMax L (i 1) := by
  subst hX
  unfold maxRowOf
  rw [oneRow_apply, hostMax_apply _ (by decide)]
  rfl

/-- The row of reciprocals of an array of logits is the specification's reciprocal column sums. -/
private theorem invRowOf_apply (X : FVec Ideal S16384x16 .f32) (L : Fin 16384 → Fin 16 → EReal)
    (hX : X = fun i => L (i 0) (i 1)) (i : S1x16.Idx) : invRowOf X i = invSum L (i 1) := by
  subst hX
  unfold invRowOf
  rw [oneRow_apply, hostDivf_apply, broadcastInDim_scalar_apply, constant_apply, hostSum_apply _ (by decide)]
  unfold invSum colSum
  refine congrArg _ (Finset.sum_congr rfl fun b _ => ?_)
  show Ideal.exp (L b (i 1) - _) = Ideal.exp (L b (i 1) - colMax L (i 1))
  rw [laneBroadcast_apply, hostMax_apply _ (by decide)]
  rfl

/-! ## The arrays the operations between the regions do not write -/

/-- A buffer none of the operations between the regions writes holds after them what it held before. -/
local macro "between_regions_untouched" : tactic => `(tactic| (
  refine StableHlo.after_of_forall_not_mem _ _ (List.forall_iff_forall_mem.mp ?_)
  simp only [hostOps1, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The array of the first region's input window 0 comes out of the region, and of the operations after it, as it went in. -/
private theorem V5_eq_V3_v0 (c : Dev nD) : V5 m ρ c main_v0 = V3 m ρ c main_v0 :=
  calc W5 m ρ c (Proc.devRef .tc main_v0)
    _ = W4 m ρ c (Proc.devRef .tc main_v0) := by between_regions_untouched
    _ = W3 m ρ c (Proc.devRef .tc main_v0) :=
        (W4_arr m ρ c 0).trans (((dat0 (V3 m ρ) c).arrAt_in 0 rfl _).trans (A_eq0 (V3 m ρ) c 0))

/-- The array of the first region's input window 1 comes out of the region, and of the operations after it, as it went in. -/
private theorem V5_eq_V3_v28 (c : Dev nD) : V5 m ρ c main_v28 = V3 m ρ c main_v28 :=
  calc W5 m ρ c (Proc.devRef .tc main_v28)
    _ = W4 m ρ c (Proc.devRef .tc main_v28) := by between_regions_untouched
    _ = W3 m ρ c (Proc.devRef .tc main_v28) :=
        (W4_arr m ρ c 1).trans (((dat0 (V3 m ρ) c).arrAt_in 1 rfl _).trans (A_eq0 (V3 m ρ) c 1))

/-- The array of the first region's input window 2 comes out of the region, and of the operations after it, as it went in. -/
private theorem V5_eq_V3_v31 (c : Dev nD) : V5 m ρ c main_v31 = V3 m ρ c main_v31 :=
  calc W5 m ρ c (Proc.devRef .tc main_v31)
    _ = W4 m ρ c (Proc.devRef .tc main_v31) := by between_regions_untouched
    _ = W3 m ρ c (Proc.devRef .tc main_v31) :=
        (W4_arr m ρ c 2).trans (((dat0 (V3 m ρ) c).arrAt_in 2 rfl _).trans (A_eq0 (V3 m ρ) c 2))

/-- A buffer that is none of the first region's arrays passes the region, and the operations after it, unchanged. -/
private theorem V5_eq_V3_v2 (c : Dev nD) : V5 m ρ c main_v2 = V3 m ρ c main_v2 :=
  calc W5 m ρ c (Proc.devRef .tc main_v2)
    _ = W4 m ρ c (Proc.devRef .tc main_v2) := by between_regions_untouched
    _ = W3 m ρ c (Proc.devRef .tc main_v2) := W4_of_ne m ρ c main_v2 (by decide)

/-- A buffer that is none of the first region's arrays passes the region, and the operations after it, unchanged. -/
private theorem V5_eq_V3_v19 (c : Dev nD) : V5 m ρ c main_v19 = V3 m ρ c main_v19 :=
  calc W5 m ρ c (Proc.devRef .tc main_v19)
    _ = W4 m ρ c (Proc.devRef .tc main_v19) := by between_regions_untouched
    _ = W3 m ρ c (Proc.devRef .tc main_v19) := W4_of_ne m ρ c main_v19 (by decide)

/-- A buffer that is none of the first region's arrays passes the region, and the operations after it, unchanged. -/
private theorem V5_eq_V3_v34 (c : Dev nD) : V5 m ρ c main_v34 = V3 m ρ c main_v34 :=
  calc W5 m ρ c (Proc.devRef .tc main_v34)
    _ = W4 m ρ c (Proc.devRef .tc main_v34) := by between_regions_untouched
    _ = W3 m ρ c (Proc.devRef .tc main_v34) := W4_of_ne m ρ c main_v34 (by decide)

/-- A buffer that is none of the first region's arrays passes the region, and the operations after it, unchanged. -/
private theorem V5_eq_V3_v35 (c : Dev nD) : V5 m ρ c main_v35 = V3 m ρ c main_v35 :=
  calc W5 m ρ c (Proc.devRef .tc main_v35)
    _ = W4 m ρ c (Proc.devRef .tc main_v35) := by between_regions_untouched
    _ = W3 m ρ c (Proc.devRef .tc main_v35) := W4_of_ne m ρ c main_v35 (by decide)

/-- A buffer that is none of the first region's arrays passes the region, and the operations after it, unchanged. -/
private theorem V5_eq_V3_arg10 (c : Dev nD) : V5 m ρ c main_arg10 = V3 m ρ c main_arg10 :=
  calc W5 m ρ c (Proc.devRef .tc main_arg10)
    _ = W4 m ρ c (Proc.devRef .tc main_arg10) := by between_regions_untouched
    _ = W3 m ρ c (Proc.devRef .tc main_arg10) := W4_of_ne m ρ c main_arg10 (by decide)

/-- A buffer that is none of the first region's arrays passes the region, and the operations after it, unchanged. -/
private theorem V5_eq_V3_arg12 (c : Dev nD) : V5 m ρ c main_arg12 = V3 m ρ c main_arg12 :=
  calc W5 m ρ c (Proc.devRef .tc main_arg12)
    _ = W4 m ρ c (Proc.devRef .tc main_arg12) := by between_regions_untouched
    _ = W3 m ρ c (Proc.devRef .tc main_arg12) := W4_of_ne m ρ c main_arg12 (by decide)

/-- A buffer that is none of the first region's arrays passes the region, and the operations after it, unchanged. -/
private theorem V5_eq_V3_arg13 (c : Dev nD) : V5 m ρ c main_arg13 = V3 m ρ c main_arg13 :=
  calc W5 m ρ c (Proc.devRef .tc main_arg13)
    _ = W4 m ρ c (Proc.devRef .tc main_arg13) := by between_regions_untouched
    _ = W3 m ρ c (Proc.devRef .tc main_arg13) := W4_of_ne m ρ c main_arg13 (by decide)

/-- A buffer that is none of the first region's arrays passes the region, and the operations after it, unchanged. -/
private theorem V5_eq_V3_arg14 (c : Dev nD) : V5 m ρ c main_arg14 = V3 m ρ c main_arg14 :=
  calc W5 m ρ c (Proc.devRef .tc main_arg14)
    _ = W4 m ρ c (Proc.devRef .tc main_arg14) := by between_regions_untouched
    _ = W3 m ρ c (Proc.devRef .tc main_arg14) := W4_of_ne m ρ c main_arg14 (by decide)

/-! ## The statements -/

theorem V5_feat (c : Dev nD) : (V5 m ρ c main_v0 : S16384x128.Idx → EReal) = fun i => feat (aSt m c) (i 0) (i 1) :=
  (V5_eq_V3_v0 m ρ c).trans (V3_feat m ρ c)

/-- The first region's output array when the operations between the regions start: the specification's logits. -/
private theorem W4_logit (c : Dev nD) :
    (W4 m ρ c (Proc.devRef .tc main_v36) : S16384x16.Idx → EReal) = fun i => logitOf m c (i 0) (i 1) :=
  (W4_arr m ρ c 9).trans (reg0_value m ρ c)

/-- The logits the first region left. -/
theorem V5_logit (c : Dev nD) : (V5 m ρ c main_v36 : S16384x16.Idx → EReal) = fun i => logitOf m c (i 0) (i 1) :=
  calc W5 m ρ c (Proc.devRef .tc main_v36)
    _ = W4 m ρ c (Proc.devRef .tc main_v36) := by between_regions_untouched
    _ = _ := W4_logit m ρ c

/-- The column maxima. -/
theorem V5_colMax (c : Dev nD) : (V5 m ρ c main_v45 : S1x16.Idx → EReal) = fun i => colMax (logitOf m c) (i 1) := by
  have e : (V5 m ρ c main_v45 : S1x16.Idx → EReal) = maxRowOf (W4 m ρ c (Proc.devRef .tc main_v36)) := by
    show StableHlo.after hostOps1 (W4 m ρ c) (Proc.devRef .tc main_v45) = _
    after_results
    rfl
  exact e.trans (funext fun i => maxRowOf_apply _ (logitOf m c) (W4_logit m ρ c) i)

/-- The reciprocals of the column sums. -/
theorem V5_invSum (c : Dev nD) : (V5 m ρ c main_v46 : S1x16.Idx → EReal) = fun i => invSum (logitOf m c) (i 1) := by
  have e : (V5 m ρ c main_v46 : S1x16.Idx → EReal) = invRowOf (W4 m ρ c (Proc.devRef .tc main_v36)) := by
    show StableHlo.after hostOps1 (W4 m ρ c) (Proc.devRef .tc main_v46) = _
    after_results
    rfl
  exact e.trans (funext fun i => invRowOf_apply _ (logitOf m c) (W4_logit m ρ c) i)

theorem V5_phase (c : Dev nD) : (V5 m ρ c main_v2 : S16384x1.Idx → BitVec 32) = fun i => phase (aSt m c) (i 0) :=
  (V5_eq_V3_v2 m ρ c).trans (V3_phase m ρ c)
theorem V5_sel (c : Dev nD) : (V5 m ρ c main_v19 : S8x16.Idx → EReal) = fun i => sel (aPp m c) (i 0) (i 1) :=
  (V5_eq_V3_v19 m ρ c).trans (V3_sel m ρ c)
theorem V5_blockDiag (c : Dev nD) : (V5 m ρ c main_v28 : S128x2048.Idx → EReal) = blockDiag (aLew m c) :=
  (V5_eq_V3_v28 m ρ c).trans (V3_blockDiag m ρ c)
theorem V5_tiled (c : Dev nD) : (V5 m ρ c main_v31 : S2048.Idx → EReal) = tiled (aLeb m c) :=
  (V5_eq_V3_v31 m ρ c).trans (V3_tiled m ρ c)
theorem V5_arw (c : Dev nD) : (V5 m ρ c main_v35 : S128x128.Idx → EReal) = aArw m c :=
  (V5_eq_V3_v35 m ρ c).trans (V3_arw m ρ c)
theorem V5_aqw (c : Dev nD) : (V5 m ρ c main_v34 : S128x128.Idx → EReal) = aAqw m c :=
  (V5_eq_V3_v34 m ρ c).trans (V3_aqw m ρ c)
theorem V5_arg10 (c : Dev nD) : V5 m ρ c main_arg10 = m ((c.tc : Thread nD τ).loc main_arg10) :=
  (V5_eq_V3_arg10 m ρ c).trans (V3_arg10 m ρ c)
theorem V5_arg12 (c : Dev nD) : V5 m ρ c main_arg12 = m ((c.tc : Thread nD τ).loc main_arg12) :=
  (V5_eq_V3_arg12 m ρ c).trans (V3_arg12 m ρ c)
theorem V5_arg13 (c : Dev nD) : V5 m ρ c main_arg13 = m ((c.tc : Thread nD τ).loc main_arg13) :=
  (V5_eq_V3_arg13 m ρ c).trans (V3_arg13 m ρ c)
theorem V5_arg14 (c : Dev nD) : V5 m ρ c main_arg14 = m ((c.tc : Thread nD τ).loc main_arg14) :=
  (V5_eq_V3_arg14 m ρ c).trans (V3_arg14 m ρ c)

end Cert.KernelIdeal.LaneValue

end
-- ==== Proof.KBody1.lean ====
/-
  What the second kernel's body leaves in its output block, at an entry: the block is 8 × 1024, pair p by
  row r, and holds the row's result at that pair — the embedding as in the first kernel, the softmax
  weight as `exp (logit − max)` times the reciprocal of the column sum, the eight pair sums against the
  selector's rows put side by side, the picked pair as the sum against the indicator of the clamped
  phase word, the two affine maps, and the read-out of `tanh` of their sum; transposed at the end.
-/
import proofs.«411023_j80564996538677_3_alg».proof.Proof.Gen.KernelIdeal.Frame
import proofs.«411023_j80564996538677_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.LaneValue

open Idealize.ShloMosaic Idealize.ShloMosaic.TcCoe Idealize.ShloMosaic.ValueIdx Idealize.SL.Sem
open Cert.KernelIdeal Cert.KernelIdeal.Gen Cert.LaneAttn

/-! 1024 rows against the transpose of a 128 × 128 matrix: the operands' indices, axis by axis. -/
private theorem lhs_rowT_0 (i : S1024x128.Idx) (q : dot_S1024x128_S128x128_S1024x128_1_1_0_0_n_n.contr.Idx) :
    (dot_S1024x128_S128x128_S1024x128_1_1_0_0_n_n.lhsIdx i q 0).val = (i 0).val := by
  unfold DotDims.lhsIdx
  rw [dif_neg (show ¬(0 : Fin S1024x128.rank) ∈ dot_S1024x128_S128x128_S1024x128_1_1_0_0_n_n.lhsBatch by decide), dif_pos (show (0 : Fin S1024x128.rank) ∈ dot_S1024x128_S128x128_S1024x128_1_1_0_0_n_n.lhsNonContracting by decide)]
  rfl
private theorem lhs_rowT_1 (i : S1024x128.Idx) (q : dot_S1024x128_S128x128_S1024x128_1_1_0_0_n_n.contr.Idx) :
    (dot_S1024x128_S128x128_S1024x128_1_1_0_0_n_n.lhsIdx i q 1).val = (q ⟨0, by decide⟩).val :=
  dot_S1024x128_S128x128_S1024x128_1_1_0_0_n_n.lhsIdx_val_of_single rfl i q
private theorem rhs_rowT_0 (i : S1024x128.Idx) (q : dot_S1024x128_S128x128_S1024x128_1_1_0_0_n_n.contr.Idx) :
    (dot_S1024x128_S128x128_S1024x128_1_1_0_0_n_n.rhsIdx i q 0).val = (i 1).val := by
  unfold DotDims.rhsIdx
  rw [dif_neg (show ¬(0 : Fin S128x128.rank) ∈ dot_S1024x128_S128x128_S1024x128_1_1_0_0_n_n.rhsBatch by decide), dif_pos (show (0 : Fin S128x128.rank) ∈ dot_S1024x128_S128x128_S1024x128_1_1_0_0_n_n.rhsNonContracting by decide)]
  rfl
private theorem rhs_rowT_1 (i : S1024x128.Idx) (q : dot_S1024x128_S128x128_S1024x128_1_1_0_0_n_n.contr.Idx) :
    (dot_S1024x128_S128x128_S1024x128_1_1_0_0_n_n.rhsIdx i q 1).val = (q ⟨0, by decide⟩).val :=
  dot_S1024x128_S128x128_S1024x128_1_1_0_0_n_n.rhsIdx_val_of_single rfl i q

/-- A block of 1024 rows times the transpose of a 128 × 128 matrix, into the zero block: entry (r, o) is the sum over k of (r, k) times (o, k). -/
private theorem matmul_rowT_apply (lhs : FVec Ideal S1024x128 .bf16) (rhs : FVec Ideal S128x128 .bf16) (r : Fin 1024) (o : Fin 128) :
    matmul dot_S1024x128_S128x128_S1024x128_1_1_0_0_n_n none lhs rhs (constant (F := Ideal) S1024x128 .f32 0x00000000#32) (ix2 r o)
      = ∑ k : Fin 128, lhs (ix2 r k) * rhs (ix2 o k) := by
  simp only [matmul]
  rw [Ideal.matmul_constant_zero_apply, ← Equiv.sum_comp (ValueIdx.contrEquiv1 dot_S1024x128_S128x128_S1024x128_1_1_0_0_n_n 128 rfl rfl).symm]
  refine Finset.sum_congr rfl fun k _ => ?_
  have hk := ValueIdx.contrEquiv1_symm_val dot_S1024x128_S128x128_S1024x128_1_1_0_0_n_n 128 rfl rfl k
  have el : dot_S1024x128_S128x128_S1024x128_1_1_0_0_n_n.lhsIdx (ix2 r o) ((ValueIdx.contrEquiv1 dot_S1024x128_S128x128_S1024x128_1_1_0_0_n_n 128 rfl rfl).symm k) = ix2 r k := funext fun a => Fin.ext (by
    match a with
    | ⟨0, _⟩ => exact lhs_rowT_0 _ _
    | ⟨1, _⟩ => exact (lhs_rowT_1 _ _).trans hk)
  have er : dot_S1024x128_S128x128_S1024x128_1_1_0_0_n_n.rhsIdx (ix2 r o) ((ValueIdx.contrEquiv1 dot_S1024x128_S128x128_S1024x128_1_1_0_0_n_n 128 rfl rfl).symm k) = ix2 o k := funext fun a => Fin.ext (by
    match a with
    | ⟨0, _⟩ => exact rhs_rowT_0 _ _
    | ⟨1, _⟩ => exact (rhs_rowT_1 _ _).trans hk)
  rw [el, er]

/-! 8192 rows against the transpose of a 128 × 128 matrix: the operands' indices, axis by axis. -/
private theorem lhs_flatT_0 (i : S8192x128.Idx) (q : dot_S8192x128_S128x128_S8192x128_1_1_0_0_n_n.contr.Idx) :
    (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide), dif_pos (show (0 : Fin S8192x128.rank) ∈ dot_S8192x128_S128x128_S8192x128_1_1_0_0_n_n.lhsNonContracting by decide)]
  rfl
private theorem lhs_flatT_1 (i : S8192x128.Idx) (q : dot_S8192x128_S128x128_S8192x128_1_1_0_0_n_n.contr.Idx) :
    (dot_S8192x128_S128x128_S8192x128_1_1_0_0_n_n.lhsIdx i q 1).val = (q ⟨0, by decide⟩).val :=
  dot_S8192x128_S128x128_S8192x128_1_1_0_0_n_n.lhsIdx_val_of_single rfl i q
private theorem rhs_flatT_0 (i : S8192x128.Idx) (q : dot_S8192x128_S128x128_S8192x128_1_1_0_0_n_n.contr.Idx) :
    (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide), dif_pos (show (0 : Fin S128x128.rank) ∈ dot_S8192x128_S128x128_S8192x128_1_1_0_0_n_n.rhsNonContracting by decide)]
  rfl
private theorem rhs_flatT_1 (i : S8192x128.Idx) (q : dot_S8192x128_S128x128_S8192x128_1_1_0_0_n_n.contr.Idx) :
    (dot_S8192x128_S128x128_S8192x128_1_1_0_0_n_n.rhsIdx i q 1).val = (q ⟨0, by decide⟩).val :=
  dot_S8192x128_S128x128_S8192x128_1_1_0_0_n_n.rhsIdx_val_of_single rfl i q

/-- The same for the 8192 flattened rows. -/
private theorem matmul_flatT_apply (lhs : FVec Ideal S8192x128 .bf16) (rhs : FVec Ideal S128x128 .bf16) (r : Fin 8192) (o : Fin 128) :
    matmul dot_S8192x128_S128x128_S8192x128_1_1_0_0_n_n none lhs rhs (constant (F := Ideal) S8192x128 .f32 0x00000000#32) (ix2 r o)
      = ∑ k : Fin 128, lhs (ix2 r k) * rhs (ix2 o k) := by
  simp only [matmul]
  rw [Ideal.matmul_constant_zero_apply, ← Equiv.sum_comp (ValueIdx.contrEquiv1 dot_S8192x128_S128x128_S8192x128_1_1_0_0_n_n 128 rfl rfl).symm]
  refine Finset.sum_congr rfl fun k _ => ?_
  have hk := ValueIdx.contrEquiv1_symm_val dot_S8192x128_S128x128_S8192x128_1_1_0_0_n_n 128 rfl rfl k
  have el : dot_S8192x128_S128x128_S8192x128_1_1_0_0_n_n.lhsIdx (ix2 r o) ((ValueIdx.contrEquiv1 dot_S8192x128_S128x128_S8192x128_1_1_0_0_n_n 128 rfl rfl).symm k) = ix2 r k := funext fun a => Fin.ext (by
    match a with
    | ⟨0, _⟩ => exact lhs_flatT_0 _ _
    | ⟨1, _⟩ => exact (lhs_flatT_1 _ _).trans hk)
  have er : dot_S8192x128_S128x128_S8192x128_1_1_0_0_n_n.rhsIdx (ix2 r o) ((ValueIdx.contrEquiv1 dot_S8192x128_S128x128_S8192x128_1_1_0_0_n_n 128 rfl rfl).symm k) = ix2 o k := funext fun a => Fin.ext (by
    match a with
    | ⟨0, _⟩ => exact rhs_flatT_0 _ _
    | ⟨1, _⟩ => exact (rhs_flatT_1 _ _).trans hk)
  rw [el, er]

/-! 1024 rows against a 128 × 2048 matrix: the operands' indices, axis by axis. -/
private theorem lhs_wide_0 (i : S1024x2048.Idx) (q : dot_S1024x128_S128x2048_S1024x2048_1_0_0_1_n_n.contr.Idx) :
    (dot_S1024x128_S128x2048_S1024x2048_1_0_0_1_n_n.lhsIdx i q 0).val = (i 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
private theorem lhs_wide_1 (i : S1024x2048.Idx) (q : dot_S1024x128_S128x2048_S1024x2048_1_0_0_1_n_n.contr.Idx) :
    (dot_S1024x128_S128x2048_S1024x2048_1_0_0_1_n_n.lhsIdx i q 1).val = (q ⟨0, by decide⟩).val :=
  dot_S1024x128_S128x2048_S1024x2048_1_0_0_1_n_n.lhsIdx_val_of_single rfl i q
private theorem rhs_wide_1 (i : S1024x2048.Idx) (q : dot_S1024x128_S128x2048_S1024x2048_1_0_0_1_n_n.contr.Idx) :
    (dot_S1024x128_S128x2048_S1024x2048_1_0_0_1_n_n.rhsIdx i q 1).val = (i 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl
private theorem rhs_wide_0 (i : S1024x2048.Idx) (q : dot_S1024x128_S128x2048_S1024x2048_1_0_0_1_n_n.contr.Idx) :
    (dot_S1024x128_S128x2048_S1024x2048_1_0_0_1_n_n.rhsIdx i q 0).val = (q ⟨0, by decide⟩).val :=
  dot_S1024x128_S128x2048_S1024x2048_1_0_0_1_n_n.rhsIdx_val_of_single rfl i q

/-- A block of 1024 rows times a 128 × 2048 matrix, into the zero block: entry (r, c) is the sum over j of (r, j) times (j, c). -/
private theorem matmul_wide_apply (lhs : FVec Ideal S1024x128 .bf16) (rhs : FVec Ideal S128x2048 .bf16) (r : Fin 1024) (o : Fin 2048) :
    matmul dot_S1024x128_S128x2048_S1024x2048_1_0_0_1_n_n none lhs rhs (constant (F := Ideal) S1024x2048 .f32 0x00000000#32) (ix2 r o)
      = ∑ k : Fin 128, lhs (ix2 r k) * rhs (ix2 k o) := by
  simp only [matmul]
  rw [Ideal.matmul_constant_zero_apply, ← Equiv.sum_comp (ValueIdx.contrEquiv1 dot_S1024x128_S128x2048_S1024x2048_1_0_0_1_n_n 128 rfl rfl).symm]
  refine Finset.sum_congr rfl fun k _ => ?_
  have hk := ValueIdx.contrEquiv1_symm_val dot_S1024x128_S128x2048_S1024x2048_1_0_0_1_n_n 128 rfl rfl k
  have el : dot_S1024x128_S128x2048_S1024x2048_1_0_0_1_n_n.lhsIdx (ix2 r o) ((ValueIdx.contrEquiv1 dot_S1024x128_S128x2048_S1024x2048_1_0_0_1_n_n 128 rfl rfl).symm k) = ix2 r k := funext fun a => Fin.ext (by
    match a with
    | ⟨0, _⟩ => exact lhs_wide_0 _ _
    | ⟨1, _⟩ => exact (lhs_wide_1 _ _).trans hk)
  have er : dot_S1024x128_S128x2048_S1024x2048_1_0_0_1_n_n.rhsIdx (ix2 r o) ((ValueIdx.contrEquiv1 dot_S1024x128_S128x2048_S1024x2048_1_0_0_1_n_n 128 rfl rfl).symm k) = ix2 k o := funext fun a => Fin.ext (by
    match a with
    | ⟨0, _⟩ => exact (rhs_wide_0 _ _).trans hk
    | ⟨1, _⟩ => exact rhs_wide_1 _ _)
  rw [el, er]

/-! Layout operations of this body read at an index, at their literal shapes. -/

section Layout
variable {α : Type}

/-- [1024, 2048] viewed [1024, 16, 128]: entry (r, l, o) is column 128 l + o of row r. -/
private theorem cast_wide_lanes (x : (⟨2, ![1024, 2048]⟩ : Shape).Idx → α)
    (h : (⟨2, ![1024, 2048]⟩ : Shape).ShapeCasts ⟨3, ![1024, 16, 128]⟩) (r : Fin 1024) (l : Fin 16) (o : Fin 128) :
    shapeCast ⟨3, ![1024, 16, 128]⟩ x h (ix3 r l o) = x (ix2 r ⟨128 * l.val + o.val, by omega⟩) :=
  shapeCast_apply x h _ _ (by
    rw [Shape.rowMajor_val_two, Shape.rowMajor_val_three]
    show r.val * 2048 + (128 * l.val + o.val) = (r.val * 16 + l.val) * 128 + o.val
    omega)

/-- [a, b] viewed [a, b, 1]. -/
private theorem cast_add_last {a b : ℕ} (x : (⟨2, ![a, b]⟩ : Shape).Idx → α)
    (h : (⟨2, ![a, b]⟩ : Shape).ShapeCasts ⟨3, ![a, b, 1]⟩) (r : Fin a) (l : Fin b) (u : Fin 1) :
    shapeCast ⟨3, ![a, b, 1]⟩ x h (ix3 r l u) = x (ix2 r l) :=
  shapeCast_apply x h _ _ (by
    have hu : u.val = 0 := by omega
    rw [Shape.rowMajor_val_two, Shape.rowMajor_val_three]
    show r.val * b + l.val = (r.val * b + l.val) * 1 + u.val
    omega)

/-- [b] viewed [1, b, 1]. -/
private theorem cast_vec_mid {b : ℕ} (x : (⟨1, ![b]⟩ : Shape).Idx → α)
    (h : (⟨1, ![b]⟩ : Shape).ShapeCasts ⟨3, ![1, b, 1]⟩) (u : Fin 1) (l : Fin b) (w : Fin 1) :
    shapeCast ⟨3, ![1, b, 1]⟩ x h (ix3 u l w) = x (ix1 l) :=
  shapeCast_apply x h _ _ (by
    have hu : u.val = 0 := by omega
    have hw : w.val = 0 := by omega
    rw [Shape.rowMajor_val_one, Shape.rowMajor_val_three]
    show l.val = (u.val * b + l.val) * 1 + w.val
    rw [hu, hw]; omega)

/-- [c] viewed [1, 1, c]. -/
private theorem cast_vec_last {c : ℕ} (x : (⟨1, ![c]⟩ : Shape).Idx → α)
    (h : (⟨1, ![c]⟩ : Shape).ShapeCasts ⟨3, ![1, 1, c]⟩) (u w : Fin 1) (o : Fin c) :
    shapeCast ⟨3, ![1, 1, c]⟩ x h (ix3 u w o) = x (ix1 o) :=
  shapeCast_apply x h _ _ (by
    have hu : u.val = 0 := by omega
    have hw : w.val = 0 := by omega
    rw [Shape.rowMajor_val_one, Shape.rowMajor_val_three]
    show o.val = (u.val * 1 + w.val) * c + o.val
    rw [hu, hw]; simp)

/-- [a, c] viewed [a, 1, c]. -/
private theorem cast_add_mid {a c : ℕ} (x : (⟨2, ![a, c]⟩ : Shape).Idx → α)
    (h : (⟨2, ![a, c]⟩ : Shape).ShapeCasts ⟨3, ![a, 1, c]⟩) (r : Fin a) (u : Fin 1) (o : Fin c) :
    shapeCast ⟨3, ![a, 1, c]⟩ x h (ix3 r u o) = x (ix2 r o) :=
  shapeCast_apply x h _ _ (by
    have hu : u.val = 0 := by omega
    rw [Shape.rowMajor_val_two, Shape.rowMajor_val_three]
    show r.val * c + o.val = (r.val * 1 + u.val) * c + o.val
    rw [hu]; simp)

/-- [1024, 8, 128] viewed [8192, 128]: row 8 r + p is (r, p). -/
private theorem cast_pairs_flat (x : (⟨3, ![1024, 8, 128]⟩ : Shape).Idx → α)
    (h : (⟨3, ![1024, 8, 128]⟩ : Shape).ShapeCasts ⟨2, ![8192, 128]⟩) (r : Fin 1024) (p : Fin 8) (o : Fin 128) :
    shapeCast ⟨2, ![8192, 128]⟩ x h (ix2 ⟨8 * r.val + p.val, by omega⟩ o) = x (ix3 r p o) :=
  shapeCast_apply x h _ _ (by
    rw [Shape.rowMajor_val_two, Shape.rowMajor_val_three]
    show (r.val * 8 + p.val) * 128 + o.val = (8 * r.val + p.val) * 128 + o.val
    omega)

/-- [8192, 128] viewed [1024, 8, 128]: (r, p) is row 8 r + p. -/
private theorem cast_flat_pairs (x : (⟨2, ![8192, 128]⟩ : Shape).Idx → α)
    (h : (⟨2, ![8192, 128]⟩ : Shape).ShapeCasts ⟨3, ![1024, 8, 128]⟩) (r : Fin 1024) (p : Fin 8) (o : Fin 128) :
    shapeCast ⟨3, ![1024, 8, 128]⟩ x h (ix3 r p o) = x (ix2 ⟨8 * r.val + p.val, by omega⟩ o) :=
  shapeCast_apply x h _ _ (by
    rw [Shape.rowMajor_val_two, Shape.rowMajor_val_three]
    show (8 * r.val + p.val) * 128 + o.val = (r.val * 8 + p.val) * 128 + o.val
    omega)

/-- [1024, 16, 1] broadcast to [1024, 16, 128]. -/
private theorem bcast_last (x : (⟨3, ![1024, 16, 1]⟩ : Shape).Idx → α)
    (h : (⟨3, ![1024, 16, 1]⟩ : Shape).Broadcasts ⟨3, ![1024, 16, 128]⟩) (r : Fin 1024) (l : Fin 16) (o : Fin 128) :
    broadcastTo ⟨3, ![1024, 16, 128]⟩ x h (ix3 r l o) = x (ix3 r l 0) :=
  broadcastTo_apply x h _ _ fun ax => match ax with | ⟨0, _⟩ => rfl | ⟨1, _⟩ => rfl | ⟨2, _⟩ => rfl

/-- [1024, 8, 1] broadcast to [1024, 8, 128]. -/
private theorem bcast_last8 (x : (⟨3, ![1024, 8, 1]⟩ : Shape).Idx → α)
    (h : (⟨3, ![1024, 8, 1]⟩ : Shape).Broadcasts ⟨3, ![1024, 8, 128]⟩) (r : Fin 1024) (p : Fin 8) (o : Fin 128) :
    broadcastTo ⟨3, ![1024, 8, 128]⟩ x h (ix3 r p o) = x (ix3 r p 0) :=
  broadcastTo_apply x h _ _ fun ax => match ax with | ⟨0, _⟩ => rfl | ⟨1, _⟩ => rfl | ⟨2, _⟩ => rfl

/-- [1, 16, 1] broadcast to [1024, 16, 128]. -/
private theorem bcast_mid (x : (⟨3, ![1, 16, 1]⟩ : Shape).Idx → α)
    (h : (⟨3, ![1, 16, 1]⟩ : Shape).Broadcasts ⟨3, ![1024, 16, 128]⟩) (r : Fin 1024) (l : Fin 16) (o : Fin 128) :
    broadcastTo ⟨3, ![1024, 16, 128]⟩ x h (ix3 r l o) = x (ix3 0 l 0) :=
  broadcastTo_apply x h _ _ fun ax => match ax with | ⟨0, _⟩ => rfl | ⟨1, _⟩ => rfl | ⟨2, _⟩ => rfl

/-- [1024, 1, 128] broadcast to [1024, 8, 128]. -/
private theorem bcast_pairs (x : (⟨3, ![1024, 1, 128]⟩ : Shape).Idx → α)
    (h : (⟨3, ![1024, 1, 128]⟩ : Shape).Broadcasts ⟨3, ![1024, 8, 128]⟩) (r : Fin 1024) (p : Fin 8) (o : Fin 128) :
    broadcastTo ⟨3, ![1024, 8, 128]⟩ x h (ix3 r p o) = x (ix3 r 0 o) :=
  broadcastTo_apply x h _ _ fun ax => match ax with | ⟨0, _⟩ => rfl | ⟨1, _⟩ => rfl | ⟨2, _⟩ => rfl

/-- [1, 1, 128] broadcast to [1024, 8, 128]. -/
private theorem bcast_units (x : (⟨3, ![1, 1, 128]⟩ : Shape).Idx → α)
    (h : (⟨3, ![1, 1, 128]⟩ : Shape).Broadcasts ⟨3, ![1024, 8, 128]⟩) (r : Fin 1024) (p : Fin 8) (o : Fin 128) :
    broadcastTo ⟨3, ![1024, 8, 128]⟩ x h (ix3 r p o) = x (ix3 0 0 o) :=
  broadcastTo_apply x h _ _ fun ax => match ax with | ⟨0, _⟩ => rfl | ⟨1, _⟩ => rfl | ⟨2, _⟩ => rfl

/-- [1024, 1] broadcast to [1024, 8]. -/
private theorem bcast_col (x : (⟨2, ![1024, 1]⟩ : Shape).Idx → α)
    (h : (⟨2, ![1024, 1]⟩ : Shape).Broadcasts ⟨2, ![1024, 8]⟩) (r : Fin 1024) (p : Fin 8) :
    broadcastTo ⟨2, ![1024, 8]⟩ x h (ix2 r p) = x (ix2 r 0) :=
  broadcastTo_apply x h _ _ fun ax => match ax with | ⟨0, _⟩ => rfl | ⟨1, _⟩ => rfl

end Layout

/-! Sums along one axis of this body's blocks. -/

/-- The sum over the 16 lanes. -/
private theorem sum_lanes (src : FVec Ideal S1024x16x128 .f32) (h : S1024x16x128.Reduces [1] S1024x128) (r : Fin 1024) (o : Fin 128) :
    multiReduction (F := Ideal) .add [1] S1024x128 src 0x00000000#32 h (.inl rfl) rfl (ix2 r o) = ∑ l : Fin 16, src (ix3 r l o) := by
  refine (Ideal.multiReduction_add_single src _ h _ _ (ix2 r o)).trans ?_
  exact Finset.sum_congr rfl fun l _ => congrArg src (funext fun a => Fin.ext (match a with | ⟨0, _⟩ => rfl | ⟨1, _⟩ => rfl | ⟨2, _⟩ => rfl))

/-- The sum over the 8 pairs. -/
private theorem sum_pairs (src : FVec Ideal S1024x8x128 .f32) (h : S1024x8x128.Reduces [1] S1024x128) (r : Fin 1024) (o : Fin 128) :
    multiReduction (F := Ideal) .add [1] S1024x128 src 0x00000000#32 h (.inl rfl) rfl (ix2 r o) = ∑ q : Fin 8, src (ix3 r q o) := by
  refine (Ideal.multiReduction_add_single src _ h _ _ (ix2 r o)).trans ?_
  exact Finset.sum_congr rfl fun l _ => congrArg src (funext fun a => Fin.ext (match a with | ⟨0, _⟩ => rfl | ⟨1, _⟩ => rfl | ⟨2, _⟩ => rfl))

/-- The sum over the 128 units. -/
private theorem sum_units (src : FVec Ideal S1024x8x128 .f32) (h : S1024x8x128.Reduces [2] S1024x8) (r : Fin 1024) (p : Fin 8) :
    multiReduction (F := Ideal) .add [2] S1024x8 src 0x00000000#32 h (.inl rfl) rfl (ix2 r p) = ∑ o : Fin 128, src (ix3 r p o) := by
  refine (Ideal.multiReduction_add_single src _ h _ _ (ix2 r p)).trans ?_
  exact Finset.sum_congr rfl fun l _ => congrArg src (funext fun a => Fin.ext (match a with | ⟨0, _⟩ => rfl | ⟨1, _⟩ => rfl | ⟨2, _⟩ => rfl))

/-! The indicator of the clamped phase word. -/

/-- The word clamped into 0 … 7, read as an integer. -/
private theorem clamp_toInt (w : BitVec 32) :
    (IntOp.minsi 7#32 (IntOp.maxsi 0#32 w)).toInt = min 7 (max 0 w.toInt) := by
  have e0 : (0#32 : BitVec 32).toInt = 0 := by decide
  have e7 : (7#32 : BitVec 32).toInt = 7 := by decide
  unfold IntOp.minsi IntOp.maxsi
  by_cases h0 : w.slt 0#32 = true
  · have h0' : w.toInt < 0 := by have := BitVec.slt_iff_toInt_lt.mp h0; omega
    rw [if_pos h0]
    have h7 : ¬ ((7#32 : BitVec 32).slt 0#32 = true) := by decide
    rw [if_neg h7, e0]; omega
  · have h0' : ¬ w.toInt < 0 := fun h => h0 (BitVec.slt_iff_toInt_lt.mpr (by omega))
    rw [if_neg h0]
    by_cases h7 : (7#32 : BitVec 32).slt w = true
    · have h7' : 7 < w.toInt := by have := BitVec.slt_iff_toInt_lt.mp h7; omega
      rw [if_pos h7, e7]; omega
    · have h7' : ¬ 7 < w.toInt := fun h => h7 (BitVec.slt_iff_toInt_lt.mpr (by omega))
      rw [if_neg h7]; omega

/-- Comparing the pair's number with the clamped word, widened and converted, is the indicator. -/
private theorem hot_word (w : BitVec 32) (q : Fin 8) :
    (((((IntOp.cmpi .eq (BitVec.ofNat 32 q.val) (IntOp.minsi 7#32 (IntOp.maxsi 0#32 w))).setWidth 32).toInt : ℝ)) : EReal)
      = hotOf w q := by
  have hc := clamp_toInt w
  generalize IntOp.minsi 7#32 (IntOp.maxsi 0#32 w) = c at hc
  have hq : (BitVec.ofNat 32 q.val).toInt = (q.val : Int) := by fin_cases q <;> decide
  unfold hotOf
  by_cases heq : BitVec.ofNat 32 q.val = c
  · have hh : (q.val : Int) = min 7 (max 0 w.toInt) := by rw [← hc, ← hq, heq]
    rw [if_pos hh, IntOp.cmpi_eq.mpr heq]
    have e : ((1#1 : BitVec 1).setWidth 32).toInt = 1 := by decide
    rw [e]; simp
  · have hh : ¬ (q.val : Int) = min 7 (max 0 w.toInt) := fun h => heq (BitVec.eq_of_toInt_eq (by rw [hq, h, hc]))
    have hz : IntOp.cmpi .eq (BitVec.ofNat 32 q.val) c = 0#1 :=
      eq_zero_of_ne_one fun h => heq (IntOp.cmpi_eq.mp h)
    rw [if_neg hh, hz]
    have e : ((0#1 : BitVec 1).setWidth 32).toInt = 0 := by decide
    rw [e]; simp

/-! The weighted embeddings. -/

/-- Entry (r, l, o) of the weighted embeddings: the weight of lane l of row r times the lane's embedding at unit o. -/
private theorem pay2_apply (x0 : Vec Ideal S1024x128 .f32) (x6 : Vec Ideal S128x2048 .bf16) (x7 : Vec Ideal S2048 .f32)
    (x1 : Vec Ideal S1024x16 .f32) (x2 : Vec Ideal S1x16 .f32) (x3 : Vec Ideal S1x16 .f32)
    (r : Fin 1024) (l : Fin 16) (o : Fin 128) :
    k1_pay2 x0 x6 x7 x1 x2 x3 (ix3 r l o)
      = (Ideal.exp (x1 (ix2 r l) - x2 (ix2 0 l)) * x3 (ix2 0 l)) * embBig (fun j => x0 (ix2 r j)) x6 x7 l o := by
  unfold k1_pay2
  refine (mulf_apply _ _ _).trans ?_
  refine congrArg₂ (fun a b : EReal => a * b) ?_ ?_
  · refine (bcast_last _ _ r l o).trans ?_
    refine (cast_add_last _ _ r l 0).trans ?_
    refine (mulf_apply _ _ _).trans ?_
    refine congrArg₂ (fun a b : EReal => a * b) ?_ ?_
    · show Ideal.exp _ = Ideal.exp _
      refine congrArg Ideal.exp ?_
      refine (subf_apply _ _ _).trans ?_
      refine congrArg₂ (fun a b : EReal => a - b) ?_ ?_
      · exact congrFun (shapeCast_self _ _) _
      · refine (broadcastTo_1b_ab_apply _ _ r l).trans ?_
        exact congrFun (shapeCast_self _ _) _
    · refine (broadcastTo_1b_ab_apply _ _ r l).trans ?_
      exact congrFun (shapeCast_self _ _) _
  · refine (cast_wide_lanes _ _ r l o).trans ?_
    refine (addf_apply _ _ _).trans ?_
    unfold embBig
    refine congrArg₂ (fun a b : EReal => a + b) ?_ ?_
    · refine (matmul_wide_apply _ _ r _).trans ?_
      refine Finset.sum_congr rfl fun j _ => ?_
      refine congrArg₂ (fun a b : EReal => a * b) ?_ ?_
      · exact congrFun (shapeCast_self x0 _) _
      · exact congrFun (shapeCast_self _ _) _
    · refine (broadcastTo_1b_ab_apply _ _ r _).trans ?_
      exact shapeCast_a_1a_apply _ _ 0 _

/-! The eight pair sums. -/

/-- A one-row load of the selector block reads that row. -/
private theorem ld_row (x5 : Vec Ideal S8x16 .f32) (n : Nat) (inb : ∀ a, (![n, 0] : Fin 2 → Nat) a + S1x16.size a ≤ S8x16.size a)
    (q : Fin 8) (hq : q.val = n) (l : Fin 16) :
    View.ld x5 (Rect.unit (s := S8x16) ![n, 0] S1x16.size inb) (ix2 0 l) = x5 (ix2 q l) := by
  subst hq
  exact congrArg x5 (funext fun a => Fin.ext (by
    match a with
    | ⟨0, _⟩ => show q.val + 1 * 0 = q.val; omega
    | ⟨1, _⟩ => show 0 + 1 * l.val = l.val; omega))

/-- The weighted embeddings against one selector row, laid along the lanes and summed over them. -/
private theorem laneSum_apply (v24 : FVec Ideal S1024x16x128 .f32) (w : FVec Ideal S16 .f32) (h1 : S16.ShapeCasts S1x16x1)
    (h2 : S1x16x1.Broadcasts S1024x16x128) (h3 : S1024x16x128.Reduces [1] S1024x128) (r : Fin 1024) (o : Fin 128) :
    multiReduction (F := Ideal) .add [1] S1024x128 (mulf v24 (broadcastTo S1024x16x128 (shapeCast S1x16x1 w h1) h2)) 0x00000000#32 h3 (.inl rfl) rfl (ix2 r o)
      = ∑ l : Fin 16, v24 (ix3 r l o) * w (ix1 l) := by
  refine (sum_lanes _ h3 r o).trans ?_
  refine Finset.sum_congr rfl fun l _ => ?_
  refine (mulf_apply _ _ _).trans ?_
  refine congrArg (fun b : EReal => v24 (ix3 r l o) * b) ?_
  refine (bcast_mid _ h2 r l o).trans ?_
  exact cast_vec_mid w h1 0 l 0

/-- Pair q of row r at unit o, from the selector's row q loaded as a one-row block. -/
private theorem pair_of_row (x0 : Vec Ideal S1024x128 .f32) (x6 : Vec Ideal S128x2048 .bf16) (x7 : Vec Ideal S2048 .f32)
    (x1 : Vec Ideal S1024x16 .f32) (x2 : Vec Ideal S1x16 .f32) (x3 : Vec Ideal S1x16 .f32) (x5 : Vec Ideal S8x16 .f32)
    (n : Nat) (inb : ∀ a, (![n, 0] : Fin 2 → Nat) a + S1x16.size a ≤ S8x16.size a) (q : Fin 8) (hq : q.val = n)
    (h0 : S1x16.ShapeCasts S16) (h1 : S16.ShapeCasts S1x16x1)
    (h2 : S1x16x1.Broadcasts S1024x16x128) (h3 : S1024x16x128.Reduces [1] S1024x128) (r : Fin 1024) (o : Fin 128) :
    multiReduction (F := Ideal) .add [1] S1024x128 (mulf (k1_pay2 x0 x6 x7 x1 x2 x3)
        (broadcastTo S1024x16x128 (shapeCast S1x16x1 (shapeCast S16 (View.ld x5 (Rect.unit (s := S8x16) ![n, 0] S1x16.size inb)) h0) h1) h2))
        0x00000000#32 h3 (.inl rfl) rfl (ix2 r o)
      = pairsRow (embBig (fun j => x0 (ix2 r j)) x6 x7)
          (fun l => Ideal.exp (x1 (ix2 r l) - x2 (ix2 0 l)) * x3 (ix2 0 l)) (fun q l => x5 (ix2 q l)) q o := by
  refine (laneSum_apply _ _ h1 h2 h3 r o).trans ?_
  unfold pairsRow
  refine Finset.sum_congr rfl fun l _ => ?_
  refine congrArg₂ (fun a b : EReal => a * b) (pay2_apply x0 x6 x7 x1 x2 x3 r l o) ?_
  refine (shapeCast_1a_a_apply _ h0 l).trans ?_
  exact ld_row x5 n inb q hq l

/-- A [1024, 1, 128] piece of a concatenation along the middle axis whose earlier pieces are k unit pieces: entry (r, k, o)
    is the piece at (r, o). -/
private theorem concat_unit_piece (xs : List ((s : Shape) × (s.Idx → Ideal .f32)))
    (hc : Shape.Concatenates (xs.map (·.1)) S1024x8x128 1) (k : Nat) (hk : k < xs.length)
    (y : FVec Ideal S1024x128 .f32) (hs : S1024x128.ShapeCasts S1024x1x128)
    (hy : xs[k] = ⟨S1024x1x128, shapeCast S1024x1x128 y hs⟩)
    (hpre : (((xs.take k).map (·.1)).map fun s => if h : s.rank = S1024x8x128.rank then s.size ((1 : Fin S1024x8x128.rank).cast h.symm) else 0).sum = k)
    (r : Fin 1024) (q : Fin 8) (hqk : q.val = k) (o : Fin 128) :
    concatenate S1024x8x128 1 xs hc (ix3 r q o) = y (ix2 r o) := by
  refine (concatenate_apply_piece (1 : Fin S1024x8x128.rank) xs hc (ix3 r q o) k hk S1024x1x128 _ hy rfl k hpre
    (ix3 r 0 o) (fun b hb => ?_) ?_).trans (cast_add_mid y hs r 0 o)
  · match b with
    | ⟨0, _⟩ => rfl
    | ⟨1, _⟩ => exact absurd rfl hb
    | ⟨2, _⟩ => rfl
  · show k + 0 = q.val
    omega

/-- Eight such pieces side by side: entry (r, q, o) is piece q at (r, o). -/
private theorem concat8_apply (y0 y1 y2 y3 y4 y5 y6 y7 : FVec Ideal S1024x128 .f32) (hs : S1024x128.ShapeCasts S1024x1x128)
    (hc : Shape.Concatenates [S1024x1x128, S1024x1x128, S1024x1x128, S1024x1x128, S1024x1x128, S1024x1x128, S1024x1x128, S1024x1x128] S1024x8x128 1)
    (r : Fin 1024) (q : Fin 8) (o : Fin 128) :
    concatenate S1024x8x128 1 [⟨S1024x1x128, shapeCast S1024x1x128 y0 hs⟩, ⟨S1024x1x128, shapeCast S1024x1x128 y1 hs⟩,
        ⟨S1024x1x128, shapeCast S1024x1x128 y2 hs⟩, ⟨S1024x1x128, shapeCast S1024x1x128 y3 hs⟩,
        ⟨S1024x1x128, shapeCast S1024x1x128 y4 hs⟩, ⟨S1024x1x128, shapeCast S1024x1x128 y5 hs⟩,
        ⟨S1024x1x128, shapeCast S1024x1x128 y6 hs⟩, ⟨S1024x1x128, shapeCast S1024x1x128 y7 hs⟩] hc (ix3 r q o)
      = (![y0, y1, y2, y3, y4, y5, y6, y7] : Fin 8 → FVec Ideal S1024x128 .f32) q (ix2 r o) := by
  fin_cases q
  · exact concat_unit_piece _ _ 0 (by show (0 : Nat) < 8; omega) y0 hs rfl rfl r _ rfl o
  · exact concat_unit_piece _ _ 1 (by show (1 : Nat) < 8; omega) y1 hs rfl rfl r _ rfl o
  · exact concat_unit_piece _ _ 2 (by show (2 : Nat) < 8; omega) y2 hs rfl rfl r _ rfl o
  · exact concat_unit_piece _ _ 3 (by show (3 : Nat) < 8; omega) y3 hs rfl rfl r _ rfl o
  · exact concat_unit_piece _ _ 4 (by show (4 : Nat) < 8; omega) y4 hs rfl rfl r _ rfl o
  · exact concat_unit_piece _ _ 5 (by show (5 : Nat) < 8; omega) y5 hs rfl rfl r _ rfl o
  · exact concat_unit_piece _ _ 6 (by show (6 : Nat) < 8; omega) y6 hs rfl rfl r _ rfl o
  · exact concat_unit_piece _ _ 7 (by show (7 : Nat) < 8; omega) y7 hs rfl rfl r _ rfl o

/-- Entry (r, q, o) of the eight pair sums put side by side: pair q of row r at unit o. -/
private theorem pairs_apply (x0 : Vec Ideal S1024x128 .f32) (x6 : Vec Ideal S128x2048 .bf16) (x7 : Vec Ideal S2048 .f32)
    (x1 : Vec Ideal S1024x16 .f32) (x2 : Vec Ideal S1x16 .f32) (x3 : Vec Ideal S1x16 .f32) (x5 : Vec Ideal S8x16 .f32)
    (r : Fin 1024) (q : Fin 8) (o : Fin 128) :
    k1_pay6 (k1_pay2 x0 x6 x7 x1 x2 x3) (k1_pay3 x0 x6 x7 x1 x2 x3 (View.ld x5 r1_5))
        (k1_pay4 x0 x6 x7 x1 x2 x3 (View.ld x5 r1_6)) (k1_pay5 (View.ld x5 r1_7)) (View.ld x5 r1_8) (View.ld x5 r1_9)
        (View.ld x5 r1_10) (View.ld x5 r1_11) (View.ld x5 r1_12) (ix3 r q o)
      = pairsRow (embBig (fun j => x0 (ix2 r j)) x6 x7)
          (fun l => Ideal.exp (x1 (ix2 r l) - x2 (ix2 0 l)) * x3 (ix2 0 l)) (fun q l => x5 (ix2 q l)) q o := by
  unfold k1_pay6
  refine (concat8_apply _ _ _ _ _ _ _ _ _ _ r q o).trans ?_
  fin_cases q
  · exact pair_of_row x0 x6 x7 x1 x2 x3 x5 0 _ 0 rfl _ _ _ _ r o
  · exact pair_of_row x0 x6 x7 x1 x2 x3 x5 1 _ 1 rfl _ _ _ _ r o
  · exact pair_of_row x0 x6 x7 x1 x2 x3 x5 2 _ 2 rfl _ _ _ _ r o
  · exact pair_of_row x0 x6 x7 x1 x2 x3 x5 3 _ 3 rfl _ _ _ _ r o
  · exact pair_of_row x0 x6 x7 x1 x2 x3 x5 4 _ 4 rfl _ _ _ _ r o
  · exact pair_of_row x0 x6 x7 x1 x2 x3 x5 5 _ 5 rfl _ _ _ _ r o
  · exact pair_of_row x0 x6 x7 x1 x2 x3 x5 6 _ 6 rfl _ _ _ _ r o
  · exact pair_of_row x0 x6 x7 x1 x2 x3 x5 7 _ 7 rfl _ _ _ _ r o

/-- The indicator block at (r, q): the comparison of the pair's number with row r's clamped phase word. -/
private theorem hot_entry (x4 : Vec Ideal S1024x1 .i32) (h0 : S1024x1.ShapeCasts S1024x1) (hi : S1024x8.Iotas .tc 32 [1])
    (hb : S1024x1.Broadcasts S1024x8) (hw : 1 < 32) (r : Fin 1024) (q : Fin 8) :
    (sitofp (F := Ideal) .f32 (extui 32 (cmpi .eq (iota .tc S1024x8 32 [1] hi)
        (broadcastTo S1024x8 (minsi (broadcast S1024x1 7#32) (maxsi (broadcast S1024x1 0#32) (shapeCast S1024x1 x4 h0))) hb)) hw)
      : FVec Ideal S1024x8 .f32) (ix2 r q) = hotOf (x4 (ix2 r 0)) q := by
  have e1 : iota .tc S1024x8 32 [1] hi (ix2 r q) = BitVec.ofNat 32 q.val := iota_single_apply .tc S1024x8 32 1 hi (ix2 r q)
  have e2 : broadcastTo S1024x8 (minsi (broadcast S1024x1 7#32) (maxsi (broadcast S1024x1 0#32) (shapeCast S1024x1 x4 h0))) hb (ix2 r q)
      = IntOp.minsi 7#32 (IntOp.maxsi 0#32 (x4 (ix2 r 0))) := by
    refine (bcast_col _ hb r q).trans ?_
    show IntOp.minsi 7#32 (IntOp.maxsi 0#32 (shapeCast S1024x1 x4 h0 (ix2 r 0))) = _
    rw [shapeCast_self]
  refine Eq.trans ?_ (hot_word (x4 (ix2 r 0)) q)
  show ((((IntOp.cmpi .eq (iota .tc S1024x8 32 [1] hi (ix2 r q))
      (broadcastTo S1024x8 (minsi (broadcast S1024x1 7#32) (maxsi (broadcast S1024x1 0#32) (shapeCast S1024x1 x4 h0))) hb (ix2 r q))).setWidth 32).toInt : ℝ) : EReal) = _
  rw [e1, e2]

/-- Entry (r, p) of the read-out before the bias: over the units, `tanh` of the pair's affine image plus the picked pair's,
    times the read-out row. The picked pair is the sum over the pairs against the indicator. -/
private theorem pay7_apply (v81 : FVec Ideal S1024x8x128 .f32) (x4 : Vec Ideal S1024x1 .i32) (x8 : Vec Ideal S128x128 .bf16)
    (x9 : Vec Ideal S128 .f32) (x10 : Vec Ideal S128x128 .bf16) (x11 : Vec Ideal S128 .f32) (x12 : Vec Ideal S1x128 .f32)
    (r : Fin 1024) (p : Fin 8) :
    k1_pay7 v81 x4 x8 x9 x10 x11 x12 (ix2 r p)
      = ∑ o : Fin 128, Ideal.tanh (lin x10 x11 (fun k => v81 (ix3 r p k)) o
          + lin x8 x9 (fun k => ∑ q : Fin 8, v81 (ix3 r q k) * hotOf (x4 (ix2 r 0)) q) o) * x12 (ix2 0 o) := by
  unfold k1_pay7
  refine (sum_units _ _ r p).trans ?_
  refine Finset.sum_congr rfl fun o _ => ?_
  refine (mulf_apply _ _ _).trans ?_
  refine congrArg₂ (fun a b : EReal => a * b) ?_ ?_
  · show Ideal.tanh _ = Ideal.tanh _
    refine congrArg Ideal.tanh ?_
    refine (addf_apply _ _ _).trans ?_
    refine congrArg₂ (fun a b : EReal => a + b) ?_ ?_
    · refine (cast_flat_pairs _ _ r p o).trans ?_
      refine (addf_apply _ _ _).trans ?_
      unfold lin
      refine congrArg₂ (fun a b : EReal => a + b) ?_ ?_
      · refine (matmul_flatT_apply _ _ _ o).trans ?_
        refine Finset.sum_congr rfl fun k _ => ?_
        refine congrArg₂ (fun a b : EReal => a * b) ?_ ?_
        · exact cast_pairs_flat v81 _ r p k
        · exact congrFun (shapeCast_self _ _) _
      · refine (broadcastTo_1b_ab_apply _ _ _ o).trans ?_
        exact shapeCast_a_1a_apply _ _ 0 o
    · refine (bcast_pairs _ _ r p o).trans ?_
      refine (cast_add_mid _ _ r 0 o).trans ?_
      refine (addf_apply _ _ _).trans ?_
      unfold lin
      refine congrArg₂ (fun a b : EReal => a + b) ?_ ?_
      · refine (matmul_rowT_apply _ _ r o).trans ?_
        refine Finset.sum_congr rfl fun k _ => ?_
        refine congrArg₂ (fun a b : EReal => a * b) ?_ ?_
        · refine (sum_pairs _ _ r k).trans ?_
          refine Finset.sum_congr rfl fun q _ => ?_
          refine (mulf_apply _ _ _).trans ?_
          refine congrArg (fun b : EReal => v81 (ix3 r q k) * b) ?_
          refine (bcast_last8 _ _ r q k).trans ?_
          refine (cast_add_last _ _ r q 0).trans ?_
          exact hot_entry x4 _ _ _ _ r q
        · exact congrFun (shapeCast_self _ _) _
      · refine (broadcastTo_1b_ab_apply _ _ r o).trans ?_
        exact shapeCast_a_1a_apply _ _ 0 o
  · refine (bcast_units _ _ r p o).trans ?_
    refine (cast_vec_last _ _ 0 0 o).trans ?_
    exact shapeCast_1a_a_apply _ _ o

/-! The output entry. -/

private theorem hz2 : (![0, 0] : Fin 2 → Nat) = fun _ => 0 := funext fun a => by fin_cases a <;> rfl
private theorem hz1 : (![0] : Fin 1 → Nat) = fun _ => 0 := funext fun a => by fin_cases a <;> rfl

/-- Entry (p, r) of the second body's output block. -/
theorem out1_14_apply (x0 : Vec Ideal S1024x128 .f32) (x1 : Vec Ideal S1024x16 .f32) (x2 : Vec Ideal S1x16 .f32)
    (x3 : Vec Ideal S1x16 .f32) (x4 : Vec Ideal S1024x1 .i32) (x5 : Vec Ideal S8x16 .f32) (x6 : Vec Ideal S128x2048 .bf16)
    (x7 : Vec Ideal S2048 .f32) (x8 : Vec Ideal S128x128 .bf16) (x9 : Vec Ideal S128 .f32) (x10 : Vec Ideal S128x128 .bf16)
    (x11 : Vec Ideal S128 .f32) (x12 : Vec Ideal S1x128 .f32) (x13 : Vec Ideal S1 .f32) (p : Fin 8) (r : Fin 1024) :
    out1_14 x0 x1 x2 x3 x4 x5 x6 x7 x8 x9 x10 x11 x12 x13 (ix2 p r)
      = qRow (embBig (fun j => x0 (ix2 r j)) x6 x7)
          (fun l => Ideal.exp (x1 (ix2 r l) - x2 (ix2 0 l)) * x3 (ix2 0 l))
          (fun q l => x5 (ix2 q l)) (hotOf (x4 (ix2 r 0))) x10 x11 x8 x9 x12 x13 p := by
  unfold out1_14
  rw [View.canon_unit_zero hz2]
  simp only [View.ld_unit_zero (S := S1024x128) hz2, View.ld_unit_zero (S := S128x2048) hz2, View.ld_unit_zero (S := S2048) hz1,
    View.ld_unit_zero (S := S1024x16) hz2, View.ld_unit_zero (S := S1x16) hz2, View.ld_unit_zero (S := S1024x1) hz2,
    View.ld_unit_zero (S := S128x128) hz2, View.ld_unit_zero (S := S128) hz1, View.ld_unit_zero (S := S1x128) hz2,
    View.ld_unit_zero (S := S1) hz1]
  unfold k1_pay1
  refine (transpose_ix2_apply _ _ p r).trans ?_
  refine (addf_apply _ _ _).trans ?_
  unfold qRow score
  refine congrArg₂ (fun a b : EReal => a + b) ?_ ?_
  · refine (pay7_apply _ x4 x8 x9 x10 x11 x12 r p).trans ?_
    refine Finset.sum_congr rfl fun o _ => ?_
    refine congrArg (fun a : EReal => Ideal.tanh a * x12 (ix2 0 o)) ?_
    refine congrArg₂ (fun a b : EReal => a + b) ?_ ?_
    · exact congrArg (fun v : Fin 128 → EReal => lin x10 x11 v o) (funext fun k => pairs_apply x0 x6 x7 x1 x2 x3 x5 r p k)
    · refine congrArg (fun v : Fin 128 → EReal => lin x8 x9 v o) (funext fun k => ?_)
      unfold greenRow
      exact Finset.sum_congr rfl fun q _ =>
        congrArg (fun a : EReal => a * hotOf (x4 (ix2 r 0)) q) (pairs_apply x0 x6 x7 x1 x2 x3 x5 r q k)
  · exact congrArg x13 (funext fun a => Fin.ext (match a with | ⟨0, _⟩ => rfl))

end Cert.KernelIdeal.LaneValue

end
-- ==== Proof.KReg1.lean ====
/-
  The second pallas_call's output array after the region: the result of every row and pair, transposed
  (pair by row). Grid point t writes back columns 1024 t … 1024 t + 1023; its feature, logit and phase
  blocks are those rows of their arrays and every other block is a whole array; the sixteen blocks
  cover the array.
-/
import proofs.«411023_j80564996538677_3_alg».proof.Proof.Gen.KernelIdeal.Frame
import proofs.«411023_j80564996538677_3_alg».proof.Proof.Spec
import proofs.«411023_j80564996538677_3_alg».proof.Proof.Algebra
import proofs.«411023_j80564996538677_3_alg».proof.Proof.KArgs
import proofs.«411023_j80564996538677_3_alg».proof.Proof.KHostB
import proofs.«411023_j80564996538677_3_alg».proof.Proof.KBody1
import Idealize.ShloMosaic.Lib.Pipeline.Value

set_option maxRecDepth 16384

noncomputable section

namespace Cert.KernelIdeal.LaneValue

open Idealize.ShloMosaic Idealize.ShloMosaic.TcCoe Idealize.ShloMosaic.ValueIdx Idealize.SL.Sem
open Cert.KernelIdeal Cert.KernelIdeal.Gen Cert.LaneAttn

variable (m : (ℓ : Loc nD τ sig) → Buf (Elt Ideal) ℓ) (ρ : Dev nD → PrngReg)

namespace Reg1

/-- The block index of the moving windows at grid point t: the row-blocked windows sit at block t of their first axis
    and the output at block t of its second axis; there are sixteen points. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_4.index t (0 : Fin 2) = t.val ∧ win1_4.index t (1 : Fin 2) = 0
    ∧ win1_14.index t (0 : Fin 2) = 0 ∧ win1_14.index t (1 : Fin 2) = t.val
    ∧ t.val < 16 :=
  (by decide +kernel : ∀ t : Fin grid1.N, _)

/-- The other windows sit at block 0 on every axis. -/
theorem blockIndex_resident : ∀ t : Fin cfg1.N,
    win1_2.index t (0 : Fin 2) = 0 ∧ win1_2.index t (1 : Fin 2) = 0
    ∧ win1_3.index t (0 : Fin 2) = 0 ∧ win1_3.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 1) = 0
    ∧ win1_10.index t (0 : Fin 2) = 0 ∧ win1_10.index t (1 : Fin 2) = 0
    ∧ win1_11.index t (0 : Fin 1) = 0
    ∧ win1_12.index t (0 : Fin 2) = 0 ∧ win1_12.index t (1 : Fin 2) = 0
    ∧ win1_13.index t (0 : Fin 1) = 0 :=
  (by decide +kernel : ∀ t : Fin grid1.N, _)

/-- Row r of point t's blocks is row 1024 t + r of the batch. -/
def rowAt (t : Fin cfg1.N) (r : Fin 1024) : Fin 16384 :=
  ⟨1024 * t.val + r.val, by have := (blockIndex t).2.2.2.2.2.2.2.2; omega⟩

/-- The feature block at point t holds rows 1024 t … 1024 t + 1023 of the feature array. -/
theorem featBlock (c : Dev nD) (t : Fin cfg1.N) (r : Fin 1024) (j : Fin 128) :
    (iblk1 (V5 m ρ) c 0 t : Vec Ideal S1024x128 .f32) (ix2 r j) = feat (aSt m c) (rowAt t r) j := by
  obtain ⟨e0, e1, -⟩ := blockIndex t
  show (V5 m ρ c main_v0 : S16384x128.Idx → EReal) (((cfg1.win 0).blk t).view.emb (ix2 r j)) = _
  rw [V5_feat]
  show feat (aSt m c) _ _ = _
  congr 1
  · apply Fin.ext
    show win1_0.index t (0 : Fin 2) * 1024 + 1 * r.val = 1024 * t.val + r.val
    omega
  · apply Fin.ext
    show win1_0.index t (1 : Fin 2) * 128 + 1 * j.val = j.val
    omega

/-- The embedding matrix's block is the whole array. -/
theorem bigBlock (c : Dev nD) (t : Fin cfg1.N) :
    (iblk1 (V5 m ρ) c 6 t : Vec Ideal S128x2048 .bf16) = blockDiag (aLew m c) := by
  obtain ⟨-, -, -, -, -, -, e0, e1, -⟩ := blockIndex_resident t
  rw [← V5_blockDiag m ρ c]
  funext y
  show (V5 m ρ c main_v28 : S128x2048.Idx → EReal) (((cfg1.win 6).blk t).view.emb y) = _
  congr 1
  funext a
  apply Fin.ext
  match a with
  | ⟨0, _⟩ => show win1_6.index t (0 : Fin 2) * 128 + 1 * (y 0).val = (y 0).val; omega
  | ⟨1, _⟩ => show win1_6.index t (1 : Fin 2) * 2048 + 1 * (y 1).val = (y 1).val; omega

/-- The logit block at point t holds the same rows of the logit array. -/
theorem logitBlock (c : Dev nD) (t : Fin cfg1.N) (r : Fin 1024) (l : Fin 16) :
    (iblk1 (V5 m ρ) c 1 t : Vec Ideal S1024x16 .f32) (ix2 r l) = logitOf m c (rowAt t r) l := by
  obtain ⟨-, -, e0, e1, -⟩ := blockIndex t
  show (V5 m ρ c main_v36 : S16384x16.Idx → EReal) (((cfg1.win 1).blk t).view.emb (ix2 r l)) = _
  rw [V5_logit]
  show logitOf m c _ _ = _
  congr 1
  · apply Fin.ext
    show win1_1.index t (0 : Fin 2) * 1024 + 1 * r.val = 1024 * t.val + r.val
    omega
  · apply Fin.ext
    show win1_1.index t (1 : Fin 2) * 16 + 1 * l.val = l.val
    omega

/-- The phase block at point t holds the same rows of the phase words. -/
theorem phaseBlock (c : Dev nD) (t : Fin cfg1.N) (r : Fin 1024) :
    (iblk1 (V5 m ρ) c 4 t : Vec Ideal S1024x1 .i32) (ix2 r 0) = phase (aSt m c) (rowAt t r) := by
  obtain ⟨-, -, -, -, e0, e1, -⟩ := blockIndex t
  show (V5 m ρ c main_v2 : S16384x1.Idx → BitVec 32) (((cfg1.win 4).blk t).view.emb (ix2 r 0)) = _
  rw [V5_phase]
  show phase (aSt m c) _ = _
  congr 1
  apply Fin.ext
  show win1_4.index t (0 : Fin 2) * 1024 + 1 * r.val = 1024 * t.val + r.val
  omega

/-- The column maxima's block is the whole array. -/
theorem colMaxBlock (c : Dev nD) (t : Fin cfg1.N) (l : Fin 16) :
    (iblk1 (V5 m ρ) c 2 t : Vec Ideal S1x16 .f32) (ix2 0 l) = colMax (logitOf m c) l := by
  obtain ⟨e0, e1, -⟩ := blockIndex_resident t
  show (V5 m ρ c main_v45 : S1x16.Idx → EReal) (((cfg1.win 2).blk t).view.emb (ix2 0 l)) = _
  rw [V5_colMax]
  show colMax (logitOf m c) _ = _
  congr 1
  apply Fin.ext
  show win1_2.index t (1 : Fin 2) * 16 + 1 * l.val = l.val
  omega

/-- The reciprocal column sums' block is the whole array. -/
theorem invSumBlock (c : Dev nD) (t : Fin cfg1.N) (l : Fin 16) :
    (iblk1 (V5 m ρ) c 3 t : Vec Ideal S1x16 .f32) (ix2 0 l) = invSum (logitOf m c) l := by
  obtain ⟨-, -, e0, e1, -⟩ := blockIndex_resident t
  show (V5 m ρ c main_v46 : S1x16.Idx → EReal) (((cfg1.win 3).blk t).view.emb (ix2 0 l)) = _
  rw [V5_invSum]
  show invSum (logitOf m c) _ = _
  congr 1
  apply Fin.ext
  show win1_3.index t (1 : Fin 2) * 16 + 1 * l.val = l.val
  omega

/-- The selector's block is the whole array. -/
theorem selBlock (c : Dev nD) (t : Fin cfg1.N) (q : Fin 8) (l : Fin 16) :
    (iblk1 (V5 m ρ) c 5 t : Vec Ideal S8x16 .f32) (ix2 q l) = sel (aPp m c) q l := by
  obtain ⟨-, -, -, -, e0, e1, -⟩ := blockIndex_resident t
  show (V5 m ρ c main_v19 : S8x16.Idx → EReal) (((cfg1.win 5).blk t).view.emb (ix2 q l)) = _
  rw [V5_sel]
  show sel (aPp m c) _ _ = _
  congr 1
  · apply Fin.ext
    show win1_5.index t (0 : Fin 2) * 8 + 1 * q.val = q.val
    omega
  · apply Fin.ext
    show win1_5.index t (1 : Fin 2) * 16 + 1 * l.val = l.val
    omega

/-- The tiled bias's block is the whole array. -/
theorem tiledBlock (c : Dev nD) (t : Fin cfg1.N) :
    (iblk1 (V5 m ρ) c 7 t : Vec Ideal S2048 .f32) = tiled (aLeb m c) := by
  obtain ⟨-, -, -, -, -, -, -, -, e0, -⟩ := blockIndex_resident t
  rw [← V5_tiled m ρ c]
  funext y
  show (V5 m ρ c main_v31 : S2048.Idx → EReal) (((cfg1.win 7).blk t).view.emb y) = _
  congr 1
  funext a
  apply Fin.ext
  match a with
  | ⟨0, _⟩ => show win1_7.index t (0 : Fin 1) * 2048 + 1 * (y 0).val = (y 0).val; omega

/-- The second head's reference matrix's block is the whole array. -/
theorem arwBlock (c : Dev nD) (t : Fin cfg1.N) :
    (iblk1 (V5 m ρ) c 8 t : Vec Ideal S128x128 .bf16) = aArw m c := by
  obtain ⟨-, -, -, -, -, -, -, -, -, e0, e1, -⟩ := blockIndex_resident t
  rw [← V5_arw m ρ c]
  funext y
  show (V5 m ρ c main_v35 : S128x128.Idx → EReal) (((cfg1.win 8).blk t).view.emb y) = _
  congr 1
  funext a
  apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- The second head's reference bias's block is the whole array. -/
theorem arbBlock (c : Dev nD) (t : Fin cfg1.N) :
    (iblk1 (V5 m ρ) c 9 t : Vec Ideal S128 .f32) = aArb m c := by
  obtain ⟨-, -, -, -, -, -, -, -, -, -, -, e0, -⟩ := blockIndex_resident t
  show _ = m ((c.tc : Thread nD τ).loc main_arg12)
  rw [← V5_arg12 m ρ c]
  funext y
  show (V5 m ρ c main_arg12 : S128.Idx → EReal) (((cfg1.win 9).blk t).view.emb y) = _
  congr 1
  funext a
  apply Fin.ext
  match a with
  | ⟨0, _⟩ => show win1_9.index t (0 : Fin 1) * 128 + 1 * (y 0).val = (y 0).val; omega

/-- The second head's query matrix's block is the whole array. -/
theorem aqwBlock (c : Dev nD) (t : Fin cfg1.N) :
    (iblk1 (V5 m ρ) c 10 t : Vec Ideal S128x128 .bf16) = aAqw m c := by
  obtain ⟨-, -, -, -, -, -, -, -, -, -, -, -, e0, e1, -⟩ := blockIndex_resident t
  rw [← V5_aqw m ρ c]
  funext y
  show (V5 m ρ c main_v34 : S128x128.Idx → EReal) (((cfg1.win 10).blk t).view.emb y) = _
  congr 1
  funext a
  apply Fin.ext
  match a with
  | ⟨0, _⟩ => show win1_10.index t (0 : Fin 2) * 128 + 1 * (y 0).val = (y 0).val; omega
  | ⟨1, _⟩ => show win1_10.index t (1 : Fin 2) * 128 + 1 * (y 1).val = (y 1).val; omega

/-- The second head's query bias's block is the whole array. -/
theorem aqbBlock (c : Dev nD) (t : Fin cfg1.N) :
    (iblk1 (V5 m ρ) c 11 t : Vec Ideal S128 .f32) = aAqb m c := by
  obtain ⟨-, -, -, -, -, -, -, -, -, -, -, -, -, -, e0, -⟩ := blockIndex_resident t
  show _ = m ((c.tc : Thread nD τ).loc main_arg10)
  rw [← V5_arg10 m ρ c]
  funext y
  show (V5 m ρ c main_arg10 : S128.Idx → EReal) (((cfg1.win 11).blk t).view.emb y) = _
  congr 1
  funext a
  apply Fin.ext
  match a with
  | ⟨0, _⟩ => show win1_11.index t (0 : Fin 1) * 128 + 1 * (y 0).val = (y 0).val; omega

/-- The second head's read-out row's block is the whole array. -/
theorem aawBlock (c : Dev nD) (t : Fin cfg1.N) :
    (iblk1 (V5 m ρ) c 12 t : Vec Ideal S1x128 .f32) = aAaw m c := by
  obtain ⟨-, -, -, -, -, -, -, -, -, -, -, -, -, -, -, e0, e1, -⟩ := blockIndex_resident t
  show _ = m ((c.tc : Thread nD τ).loc main_arg13)
  rw [← V5_arg13 m ρ c]
  funext y
  show (V5 m ρ c main_arg13 : S1x128.Idx → EReal) (((cfg1.win 12).blk t).view.emb y) = _
  congr 1
  funext a
  apply Fin.ext
  match a with
  | ⟨0, _⟩ => show win1_12.index t (0 : Fin 2) * 1 + 1 * (y 0).val = (y 0).val; omega
  | ⟨1, _⟩ => show win1_12.index t (1 : Fin 2) * 128 + 1 * (y 1).val = (y 1).val; omega

/-- The second head's read-out bias's block is the whole array. -/
theorem aabBlock (c : Dev nD) (t : Fin cfg1.N) :
    (iblk1 (V5 m ρ) c 13 t : Vec Ideal S1 .f32) = aAab m c := by
  obtain ⟨-, -, -, -, -, -, -, -, -, -, -, -, -, -, -, -, -, e0⟩ := blockIndex_resident t
  show _ = m ((c.tc : Thread nD τ).loc main_arg14)
  rw [← V5_arg14 m ρ c]
  funext y
  show (V5 m ρ c main_arg14 : S1.Idx → EReal) (((cfg1.win 13).blk t).view.emb y) = _
  congr 1
  funext a
  apply Fin.ext
  match a with
  | ⟨0, _⟩ => show win1_13.index t (0 : Fin 1) * 1 + 1 * (y 0).val = (y 0).val; omega

/-- Equal arguments give equal results of a row. -/
private theorem qRow_congr {e e' : Fin 16 → Fin 128 → EReal} {a a' : Fin 16 → EReal} {s s' : Fin 8 → Fin 16 → EReal}
    {h h' : Fin 8 → EReal} {aqw aqw' : Mat 128 128} {aqb aqb' : Vc 128} {arw arw' : Mat 128 128} {arb arb' : Vc 128}
    {aaw aaw' : Mat 1 128} {aab aab' : Vc 1} (p : Fin 8)
    (he : e = e') (ha : a = a') (hs : s = s') (hh : h = h') (h1 : aqw = aqw') (h2 : aqb = aqb') (h3 : arw = arw')
    (h4 : arb = arb') (h5 : aaw = aaw') (h6 : aab = aab') :
    qRow e a s h aqw aqb arw arb aaw aab p = qRow e' a' s' h' aqw' aqb' arw' arb' aaw' aab' p := by
  subst he ha hs hh h1 h2 h3 h4 h5 h6; rfl

/-- What grid point t writes back is its block of the transposed result array. -/
theorem writeBack (c : Dev nD) (t : Fin cfg1.N) :
    (dat1 (V5 m ρ) c).flushed 14 t
      = ((cfg1.win 14).blk t).view.read (Elt Ideal) (fun i : S8x16384.Idx => resultOf m c (i 1) (i 0)) := by
  show (cfg1.win 14).cut (grid1.coords t) ((dat1 (V5 m ρ) c).after 14 t) = _
  rw [after1_14]
  funext y
  obtain ⟨p, r, rfl⟩ : ∃ (p : Fin 8) (r : Fin 1024), y = ix2 p r := ⟨y 0, y 1, eq_ix2 y⟩
  obtain ⟨-, -, -, -, -, -, e0, e1, -⟩ := blockIndex t
  have hp : (((cfg1.win 14).blk t).view.emb (ix2 p r)) (0 : Fin 2) = p := by
    apply Fin.ext
    show win1_14.index t (0 : Fin 2) * 8 + 1 * p.val = p.val
    omega
  have hb : (((cfg1.win 14).blk t).view.emb (ix2 p r)) (1 : Fin 2) = rowAt t r := by
    apply Fin.ext
    show win1_14.index t (1 : Fin 2) * 1024 + 1 * r.val = 1024 * t.val + r.val
    omega
  show out1_14 (iblk1 (V5 m ρ) c 0 t) (iblk1 (V5 m ρ) c 1 t) (iblk1 (V5 m ρ) c 2 t) (iblk1 (V5 m ρ) c 3 t)
      (iblk1 (V5 m ρ) c 4 t) (iblk1 (V5 m ρ) c 5 t) (iblk1 (V5 m ρ) c 6 t) (iblk1 (V5 m ρ) c 7 t) (iblk1 (V5 m ρ) c 8 t)
      (iblk1 (V5 m ρ) c 9 t) (iblk1 (V5 m ρ) c 10 t) (iblk1 (V5 m ρ) c 11 t) (iblk1 (V5 m ρ) c 12 t) (iblk1 (V5 m ρ) c 13 t)
      (ix2 p r)
    = resultOf m c ((((cfg1.win 14).blk t).view.emb (ix2 p r)) (1 : Fin 2)) ((((cfg1.win 14).blk t).view.emb (ix2 p r)) (0 : Fin 2))
  rw [hp, hb]
  refine (out1_14_apply (iblk1 (V5 m ρ) c 0 t) (iblk1 (V5 m ρ) c 1 t) (iblk1 (V5 m ρ) c 2 t) (iblk1 (V5 m ρ) c 3 t)
      (iblk1 (V5 m ρ) c 4 t) (iblk1 (V5 m ρ) c 5 t) (iblk1 (V5 m ρ) c 6 t) (iblk1 (V5 m ρ) c 7 t) (iblk1 (V5 m ρ) c 8 t)
      (iblk1 (V5 m ρ) c 9 t) (iblk1 (V5 m ρ) c 10 t) (iblk1 (V5 m ρ) c 11 t) (iblk1 (V5 m ρ) c 12 t) (iblk1 (V5 m ρ) c 13 t)
      p r).trans ?_
  unfold resultOf result
  refine qRow_congr p ?_ ?_ ?_ ?_ (aqwBlock m ρ c t) (aqbBlock m ρ c t) (arwBlock m ρ c t) (arbBlock m ρ c t)
    (aawBlock m ρ c t) (aabBlock m ρ c t)
  · -- the block-diagonal product is the lane-by-lane embedding
    funext l o
    rw [bigBlock m ρ c t, tiledBlock m ρ c t, embBig_blockDiag]
    show embRow _ _ _ l o = embRow (feat (aSt m c) (rowAt t r)) _ _ l o
    congr 1
    funext j
    exact featBlock m ρ c t r j
  · -- the softmax weight along the batch
    funext l
    rw [logitBlock m ρ c t r l, colMaxBlock m ρ c t l, invSumBlock m ρ c t l]
    rfl
  · funext q l
    exact selBlock m ρ c t q l
  · rw [phaseBlock m ρ c t r]

/-- An index of the output array is in point t's block iff each coordinate is in the block's range on its axis. -/
theorem mem_block (t : Fin cfg1.N) (i : S8x16384.Idx) :
    i ∈ ((cfg1.win 14).blk t).view.set
      ↔ ∀ a : Fin 2, win1_14.index t a * S8x1024.size a ≤ (i a).val
          ∧ (i a).val < win1_14.index t a * S8x1024.size a + S8x1024.size a := by
  show i ∈ ((View.whole main_v47).slice (win1_14.rect t)).set ↔ _
  rw [View.set_slice_whole, Rect.mem_set_unit]
  exact Iff.rfl

/-- Column b of the output array is written back by point b / 1024. -/
theorem covered (i : S8x16384.Idx) :
    ∃ t : Fin cfg1.N, (cfg1.win 14).flush t = true ∧ i ∈ ((cfg1.win 14).blk t).view.set := by
  have hi0 : (i 0).val < 8 := (i 0).isLt
  have hi1 : (i 1).val < 16384 := (i 1).isLt
  have hN : cfg1.N = 16 := N_1
  let t : Fin cfg1.N := ⟨(i 1).val / 1024, by omega⟩
  obtain ⟨-, -, -, -, -, -, e0, e1, -⟩ := blockIndex t
  have ht : t.val = (i 1).val / 1024 := rfl
  refine ⟨t, flush1_14 t, ?_⟩
  rw [mem_block]
  intro a
  match a with
  | ⟨0, _⟩ =>
    show win1_14.index t (0 : Fin 2) * 8 ≤ (i 0).val ∧ (i 0).val < win1_14.index t (0 : Fin 2) * 8 + 8
    omega
  | ⟨1, _⟩ =>
    show win1_14.index t (1 : Fin 2) * 1024 ≤ (i 1).val ∧ (i 1).val < win1_14.index t (1 : Fin 2) * 1024 + 1024
    omega

end Reg1

/-- The transposed result array the second region leaves. -/
theorem reg1_value (c : Dev nD) :
    (dat1 (V5 m ρ) c).arrAt 14 cfg1.N = fun i => resultOf m c (i 1) (i 0) :=
  (dat1 (V5 m ρ) c).arrAt_eq_of_cover 14 (fun i : S8x16384.Idx => resultOf m c (i 1) (i 0))
    (fun t _ => Reg1.writeBack m ρ c t) Reg1.covered

end Cert.KernelIdeal.LaneValue

end
-- ==== Proof.KValue.lean ====
/-
  The kernel program's result: the last host operation transposes the second region's output array, so
  the result buffer ends holding the specification's result at (row, pair); and the run, re-posted with
  the result named so.
-/
import proofs.«411023_j80564996538677_3_alg».proof.Proof.Gen.KernelIdeal.Frame
import proofs.«411023_j80564996538677_3_alg».proof.Proof.KRun
import proofs.«411023_j80564996538677_3_alg».proof.Proof.Spec
import proofs.«411023_j80564996538677_3_alg».proof.Proof.KArgs
import proofs.«411023_j80564996538677_3_alg».proof.Proof.KReg1
import Idealize.ShloMosaic.Lib.ValueLayout
import Idealize.ShloMosaic.Lib.StableHlo.Run

set_option maxRecDepth 16384

noncomputable section

namespace Cert.KernelIdeal.LaneValue

open Idealize.ShloMosaic Idealize.ShloMosaic.TcCoe Idealize.ShloMosaic.ValueIdx Idealize.SL.Sem
open Cert.KernelIdeal Cert.KernelIdeal.Gen Cert.LaneAttn

variable (m : (ℓ : Loc nD τ sig) → Buf (Elt Ideal) ℓ) (ρ : Dev nD → PrngReg)

/-- The result buffer at the last boundary. -/
theorem W7_result (c : Dev nD) :
    (W7 m ρ c (Proc.devRef .tc main_v48) : S16384x8.Idx → EReal) = fun i => resultOf m c (i 0) (i 1) := by
  -- the one host operation after the second region transposes its output array
  have e : (W7 m ρ c (Proc.devRef .tc main_v48) : S16384x8.Idx → EReal)
      = transpose S16384x8 [1, 0] (W6 m ρ c (Proc.devRef .tc main_v47) : S8x16384.Idx → EReal)
          (by decide : S8x16384.Transposes [1, 0] S16384x8) := by
    show StableHlo.after hostOps2 (W6 m ρ c) (Proc.devRef .tc main_v48) = _
    after_results
  -- and that array is the second region's output: the result, pair by row
  have e6 : (W6 m ρ c (Proc.devRef .tc main_v47) : S8x16384.Idx → EReal) = fun i => resultOf m c (i 1) (i 0) :=
    (W6_arr m ρ c 14).trans (reg1_value m ρ c)
  rw [e, e6]
  funext i
  obtain ⟨b, p, rfl⟩ : ∃ (b : Fin 16384) (p : Fin 8), i = ix2 b p := ⟨i 0, i 1, eq_ix2 i⟩
  exact transpose_ix2_apply (fun i : S8x16384.Idx => resultOf m c (i 1) (i 0)) _ b p

/-- Every weakly fair execution of the idealized kernel program terminates without a fault, its result array
    holding the specification's result of the argument arrays and the arguments unchanged. -/
theorem run : θ_run defs (onTc (τ := τ) (main (F := Ideal))) ⟨m, fun _ => 0, ρ⟩ (fun r => ∀ c : Dev nD,
      r.2.mem ((c.tc : Thread nD τ).loc main_v48) = (fun i => resultOf m c (i 0) (i 1) : S16384x8.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (W7_result m ρ c), (h c).2⟩) (run_value m ρ)

end Cert.KernelIdeal.LaneValue

end
-- ==== Proof.PreDecode.lean ====
/-
  What the claim's precondition says of the arguments the reference's side needs: the printed predicate is
  a conjunction, taken apart conjunct by conjunct; "every entry's absolute value is below plus infinity"
  makes the first read-out's weights real numbers; the two comparisons of the pair words with 0 and 16
  and of the converted phase column with 0 and 8 are the index ranges.
-/
import proofs.«411023_j80564996538677_3_alg».proof.Pre_finite_inputs
import proofs.«411023_j80564996538677_3_alg».proof.Proof.Gen.Pre_finite_inputs
import proofs.«411023_j80564996538677_3_alg».proof.Proof.Spec
import proofs.«411023_j80564996538677_3_alg».proof.Proof.Algebra
import Idealize.ShloMosaic.Lib.ReduceAll
import Idealize.ShloMosaic.Lib.StableHlo.Predicate
import Idealize.ShloMosaic.Lib.ValueLayout

noncomputable section

namespace Cert.Pre_finite_inputs.Decode

open Idealize.ShloMosaic Idealize.ShloMosaic.ValueIdx Cert.Pre_finite_inputs Cert.LaneAttn

/-- The scalar shape has one index. -/
private local instance subsingleton_scalar_idx : Subsingleton S_.Idx := ⟨fun a b => funext fun d => d.elim0⟩

/-! ## One element of a conjunct -/

/-- The word the absolute values are compared with is plus infinity. -/
private theorem ofBits_pos_inf : Ideal.ofBits .f32 0x7F800000#32 = (⊤ : EReal) := by
  simp [Ideal.ofBits, Ideal.ieee]

/-- An extended real whose absolute value, the larger of it and its negative, is below plus infinity is a real
    number: at either infinity that maximum is plus infinity. -/
private theorem real_of_abs_lt (x : EReal)
    (hx : Ideal.cmp .olt (max x (-x)) (Ideal.ofBits .f32 0x7F800000#32) = 1#1) : ∃ r : ℝ, x = (r : EReal) := by
  rw [ofBits_pos_inf] at hx
  induction x using EReal.rec with
  | bot => simp [Ideal.cmp] at hx
  | coe r => exact ⟨r, rfl⟩
  | top => simp [Ideal.cmp] at hx

/-- A word not below 0 and below the word of `n`, both signed, lies in 0 … n − 1 as an integer. -/
private theorem range_of_cmp (w c : BitVec 32) (n : Int) (hc : c.toInt = n)
    (hw : IntOp.andi (IntOp.cmpi .sge w 0#32) (IntOp.cmpi .slt w c) = 1#1) : 0 ≤ w.toInt ∧ w.toInt < n := by
  obtain ⟨h0, h1⟩ := IntOp.andi_eq_one.1 hw
  have h0' := IntOp.cmpi_sge.1 h0
  have h1' := IntOp.cmpi_slt.1 h1
  rw [show (0#32 : BitVec 32).toInt = 0 from by decide] at h0'
  rw [hc] at h1'
  exact ⟨h0', h1'⟩

/-! ## One conjunct: a reduction by `and` over all axes -/

/-- Where "every entry's absolute value is below plus infinity" came out 1, every entry is a real number. -/
private theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1)
    (i : s.Idx) : ∃ r : ℝ, x i = (r : EReal) :=
  real_of_abs_lt (x i) (Host.reduce_andi_all _ _ hr hu ix0 e i)

/-- Where "every word is not below 0 and below the word of `n`" came out 1, every word lies in 0 … n − 1. -/
private theorem range_of_all {s : Shape} {axes : List (Fin s.rank)} (x : IVec s 32) (c : BitVec 32) (n : Int)
    (hc : c.toInt = n)
    (hb : S_.BroadcastsInDim s (![] : Fin 0 → Fin s.rank)) (hr : s.ReducesTo axes S_) (hu : 0 < S_.numel)
    (e : Host.reduce IntOp.andi
          (andi (cmpi .sge x (broadcastInDim s ![] hb (constantI S_ 32 0#32)))
            (cmpi .slt x (broadcastInDim s ![] hb (constantI S_ 32 c))))
          (constantI S_ 1 1#1) hr hu ix0 = 1#1)
    (i : s.Idx) : 0 ≤ (x i).toInt ∧ (x i).toInt < n :=
  range_of_cmp (x i) c n hc (Host.reduce_andi_all _ _ hr hu ix0 e i)

/-! ## The phase column -/

/-- An `[a, 1]` array cast to `[a]` reads, at `i`, the operand at `(i, 0)`: the two row-major positions agree. -/
private theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The converted column 0 of the state, cut out and flattened, is at `b` the specification's phase word of row `b`. -/
private theorem phase_col (x0 : FVec Ideal S16384x129 .f32) (hs : S16384x129.Slices ![0, 0] S16384x1)
    (hc : S16384x1.ShapeCasts S16384) (b : Fin 16384) :
    fptosi 32 (shapeCast S16384 (extractStridedSlice S16384x1 ![0, 0] x0 hs) hc) (ix1 b) = phase x0 b := by
  show Ideal.fptosi 32 (shapeCast S16384 (extractStridedSlice S16384x1 ![0, 0] x0 hs) hc (ix1 b)) = _
  rw [shapeCast_a1_a_apply, slice2_axis1_eq]
  rfl

/-- Where the printed precondition is all ones, the arguments are admissible. -/
theorem admissible_of_pre [Cert.Pre_finite_inputs.Facts]
    (x0 : FVec Ideal S16384x129 .f32) (x1 : FVec Ideal S128x8 .f32) (x2 : FVec Ideal S128 .f32) (x3 : FVec Ideal S128x128 .f32) (x4 : FVec Ideal S128 .f32) (x5 : FVec Ideal S128x128 .f32) (x6 : FVec Ideal S128 .f32) (x7 : FVec Ideal S1x128 .f32) (x8 : FVec Ideal S1 .f32) (x9 : FVec Ideal S128x128 .f32) (x10 : FVec Ideal S128 .f32) (x11 : FVec Ideal S128x128 .f32) (x12 : FVec Ideal S128 .f32) (x13 : FVec Ideal S1x128 .f32) (x14 : FVec Ideal S1 .f32) (x15 : IVec S8x2 32)
    (h : Cert.Pre_finite_inputs.fn (F := Ideal) x0 x1 x2 x3 x4 x5 x6 x7 x8 x9 x10 x11 x12 x13 x14 x15 = fun _ => 1#1) :
    Admissible x0 x7 x8 x15 := by
  -- the predicate's one word, with the chain of its operations in view
  have h0 := congrFun h ValueIdx.ix0
  dsimp only [fn, fn_part1, fn_part2, fn_part3, fn_part4, fn_part5] at h0
  -- the conjunction taken apart from its last conjunct inwards: the phase column, the pair words, then the float
  -- arguments 14, 13, …, 9 (dropped), 8 and 7 (kept); what is left, arguments 0 … 6, is not needed
  obtain ⟨h0, hph⟩ := IntOp.andi_eq_one.1 h0
  obtain ⟨h0, hpp⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h8⟩ := IntOp.andi_eq_one.1 h0
  obtain ⟨-, h7⟩ := IntOp.andi_eq_one.1 h0
  -- the phase words' range, at the printed column, then at the specification's phase word
  have hphase : ∀ b : Fin 16384, 0 ≤ (phase x0 b).toInt ∧ (phase x0 b).toInt < 8 := fun b => by
    have hb := range_of_all _ 8#32 8 (by decide) _ _ _ hph (ix1 b)
    rw [phase_col] at hb
    exact hb
  exact
    { saw_real := fun i => real_of_all x7 _ _ _ h7 i
      sab_real := fun i => real_of_all x8 _ _ _ h8 i
      pair_lo := fun i => (range_of_all x15 16#32 16 (by decide) _ _ _ hpp i).1
      pair_hi := fun i => (range_of_all x15 16#32 16 (by decide) _ _ _ hpp i).2
      phase_lo := fun b => (hphase b).1
      phase_hi := fun b => (hphase b).2 }

end Cert.Pre_finite_inputs.Decode

end
-- ==== Proof.RefA.lean ====
/-
  The reference's lane embeddings and attention logits, read at an index: the features reshaped into
  16 lanes of 8, a contraction with the embedding matrix over the 8 features plus the bias; the mean over
  the lanes as a sum divided by sixteen, which is the product with the sixteenth; two contractions over
  128 units plus their biases; `tanh` of their sum; a contraction with the one read-out row plus its bias.
-/
import proofs.«411023_j80564996538677_3_alg».proof.Proof.RefRead
import proofs.«411023_j80564996538677_3_alg».proof.Proof.Spec
import proofs.«411023_j80564996538677_3_alg».proof.Proof.Algebra

set_option maxRecDepth 16384

noncomputable section

namespace Cert.ReferenceIdeal.LaneValue

open Idealize.ShloMosaic Idealize.ShloMosaic.TcCoe Idealize.ShloMosaic.ValueIdx Idealize.SL.Sem
open Cert.ReferenceIdeal Cert.ReferenceIdeal.Gen Cert.ReferenceIdeal.ReadP Cert.LaneAttn

/-- Row-major: feature `d` of lane `l` of row `b` sits in state column `8 l + d + 1`. -/
private theorem feat_idx (b : Fin 16384) (l : Fin 16) (o : Fin 128) (d : Fin 8) :
    idx_main_v3 (idx_main_v4 (lidx_main_v5 (ix3 b l o) d)) = ix2 b ⟨8 * l.val + d.val + 1, by omega⟩ :=
  funext fun a => Fin.ext (by
    match a with
    | ⟨0, _⟩ => show ((b.val * 16 + l.val) * 8 + d.val) / 128 = b.val; omega
    | ⟨1, _⟩ => show 1 + ((b.val * 16 + l.val) * 8 + d.val) % 128 = 8 * l.val + d.val + 1; omega)

private theorem emb_ridx (b : Fin 16384) (l : Fin 16) (o : Fin 128) (d : Fin 8) :
    ridx_main_v5 (ix3 b l o) d = ix2 o d :=
  funext fun a => Fin.ext (by match a with | ⟨0, _⟩ => rfl | ⟨1, _⟩ => rfl)

private theorem emb_bias_idx (b : Fin 16384) (l : Fin 16) (o : Fin 128) :
    idx_main_v6 (idx_main_v7 (ix3 b l o)) = ix1 o :=
  funext fun a => Fin.ext (by match a with | ⟨0, _⟩ => rfl)

/-- The reference's embedding array at explicit coordinates. -/
private theorem v8_at (x0 : (⟨S16384x129, .f32⟩ : BufTy).Contents (Elt Ideal)) (x1 : (⟨S128x8, .f32⟩ : BufTy).Contents (Elt Ideal)) (x2 : (⟨S128, .f32⟩ : BufTy).Contents (Elt Ideal)) (b : Fin 16384) (l : Fin 16) (o : Fin 128) :
    val_main_v8 (F := Ideal) x0 x1 x2 (ix3 b l o) = emb x0 x1 x2 b l o := by
  rw [val_main_v8_apply, val_main_v5_apply, val_main_v7_apply, val_main_v6_apply]
  simp only [Ideal.addf_def, val_main_v4_apply, val_main_v3_apply, feat_idx, emb_ridx, emb_bias_idx]
  rfl

/-- The reference's embedding array. -/
theorem ref_emb (x0 : (⟨S16384x129, .f32⟩ : BufTy).Contents (Elt Ideal)) (x1 : (⟨S128x8, .f32⟩ : BufTy).Contents (Elt Ideal)) (x2 : (⟨S128, .f32⟩ : BufTy).Contents (Elt Ideal)) :
    val_main_v8 (F := Ideal) x0 x1 x2 = fun i => emb x0 x1 x2 (i 0) (i 1) (i 2) := by
  funext i
  obtain ⟨b, l, o, rfl⟩ : ∃ b l o, i = ix3 b l o := ⟨i 0, i 1, i 2, eq_ix3 i⟩
  exact v8_at x0 x1 x2 b l o

/-! ## The mean over the lanes -/

private theorem sum_idx (b : Fin 16384) (j : Fin 128) (l : Fin 16) :
    idx_main_v9 (ix2 b j) l = ix3 b l j :=
  funext fun a => Fin.ext (by match a with | ⟨0, _⟩ => rfl | ⟨1, _⟩ => rfl | ⟨2, _⟩ => rfl)

/-- The sum over the lanes from zero, divided by the word of sixteen, is the specification's mean. -/
private theorem v11_at (x0 : (⟨S16384x129, .f32⟩ : BufTy).Contents (Elt Ideal)) (x1 : (⟨S128x8, .f32⟩ : BufTy).Contents (Elt Ideal)) (x2 : (⟨S128, .f32⟩ : BufTy).Contents (Elt Ideal)) (b : Fin 16384) (j : Fin 128) :
    val_main_v11 (F := Ideal) x0 x1 x2 (ix2 b j) = meanRow (emb x0 x1 x2 b) j := by
  rw [val_main_v11_apply, val_main_v9_apply, val_main_v10_apply, val_main_cst_apply, val_main_cst_0_apply]
  simp only [Ideal.hostDivf_def, Ideal.ofBits_def, Ideal.ofBits_zero_f32, zero_add, sum_idx, v8_at, div_sixteen]
  rfl

/-! ## The two affine images -/

private theorem mean_lidx (b : Fin 16384) (k j : Fin 128) : lidx_main_v12 (ix2 b k) j = ix2 b j :=
  funext fun a => Fin.ext (by match a with | ⟨0, _⟩ => rfl | ⟨1, _⟩ => rfl)

private theorem mean_ridx (b : Fin 16384) (k j : Fin 128) : ridx_main_v12 (ix2 b k) j = ix2 k j :=
  funext fun a => Fin.ext (by match a with | ⟨0, _⟩ => rfl | ⟨1, _⟩ => rfl)

private theorem mean_bias_idx (b : Fin 16384) (k : Fin 128) : idx_main_v13 (idx_main_v14 (ix2 b k)) = ix1 k :=
  funext fun a => Fin.ext (by match a with | ⟨0, _⟩ => rfl)

/-- The affine image of the mean embedding. -/
private theorem v15_at (x0 : (⟨S16384x129, .f32⟩ : BufTy).Contents (Elt Ideal)) (x1 : (⟨S128x8, .f32⟩ : BufTy).Contents (Elt Ideal)) (x2 : (⟨S128, .f32⟩ : BufTy).Contents (Elt Ideal)) (x5 : (⟨S128x128, .f32⟩ : BufTy).Contents (Elt Ideal)) (x6 : (⟨S128, .f32⟩ : BufTy).Contents (Elt Ideal)) (b : Fin 16384) (k : Fin 128) :
    val_main_v15 (F := Ideal) x0 x1 x2 x5 x6 (ix2 b k) = lin x5 x6 (meanRow (emb x0 x1 x2 b)) k := by
  rw [val_main_v15_apply, val_main_v12_apply, val_main_v14_apply, val_main_v13_apply]
  simp only [Ideal.addf_def, mean_lidx, mean_ridx, mean_bias_idx, v11_at]
  rfl

private theorem lane_lidx (b : Fin 16384) (l : Fin 16) (k j : Fin 128) : lidx_main_v16 (ix3 b l k) j = ix3 b l j :=
  funext fun a => Fin.ext (by match a with | ⟨0, _⟩ => rfl | ⟨1, _⟩ => rfl | ⟨2, _⟩ => rfl)

private theorem lane_ridx (b : Fin 16384) (l : Fin 16) (k j : Fin 128) : ridx_main_v16 (ix3 b l k) j = ix2 k j :=
  funext fun a => Fin.ext (by match a with | ⟨0, _⟩ => rfl | ⟨1, _⟩ => rfl)

private theorem lane_bias_idx (b : Fin 16384) (l : Fin 16) (k : Fin 128) :
    idx_main_v17 (idx_main_v18 (ix3 b l k)) = ix1 k :=
  funext fun a => Fin.ext (by match a with | ⟨0, _⟩ => rfl)

/-- The affine image of one lane's embedding. -/
private theorem v19_at (x0 : (⟨S16384x129, .f32⟩ : BufTy).Contents (Elt Ideal)) (x1 : (⟨S128x8, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (b : Fin 16384) (l : Fin 16) (k : Fin 128) :
    val_main_v19 (F := Ideal) x0 x1 x2 x3 x4 (ix3 b l k) = lin x3 x4 (emb x0 x1 x2 b l) k := by
  rw [val_main_v19_apply, val_main_v16_apply, val_main_v18_apply, val_main_v17_apply]
  simp only [Ideal.addf_def, lane_lidx, lane_ridx, lane_bias_idx, v8_at]
  rfl

/-! ## Their sum under `tanh`, and the read-out -/

private theorem bcast_idx (b : Fin 16384) (l : Fin 16) (k : Fin 128) :
    idx_main_v20 (idx_main_v21 (ix3 b l k)) = ix2 b k :=
  funext fun a => Fin.ext (by match a with | ⟨0, _⟩ => rfl | ⟨1, _⟩ => rfl)

/-- `tanh` of the mean's image plus the lane's image. -/
private theorem v23_at (x0 : (⟨S16384x129, .f32⟩ : BufTy).Contents (Elt Ideal)) (x1 : (⟨S128x8, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (b : Fin 16384) (l : Fin 16) (k : Fin 128) :
    val_main_v23 (F := Ideal) x0 x1 x2 x3 x4 x5 x6 (ix3 b l k)
      = Ideal.tanh (lin x5 x6 (meanRow (emb x0 x1 x2 b)) k + lin x3 x4 (emb x0 x1 x2 b l) k) := by
  rw [val_main_v23_apply, val_main_v22_apply, val_main_v21_apply, val_main_v20_apply]
  simp only [Ideal.hostUnary_tanh_def, Ideal.addf_def, bcast_idx, v15_at, v19_at]

private theorem out_lidx (b : Fin 16384) (l : Fin 16) (z : Fin 1) (k : Fin 128) :
    lidx_main_v24 (ix3 b l z) k = ix3 b l k :=
  funext fun a => Fin.ext (by match a with | ⟨0, _⟩ => rfl | ⟨1, _⟩ => rfl | ⟨2, _⟩ => rfl)

private theorem out_ridx (b : Fin 16384) (l : Fin 16) (z : Fin 1) (k : Fin 128) :
    ridx_main_v24 (ix3 b l z) k = ix2 (0 : Fin 1) k :=
  funext fun a => Fin.ext (by
    match a with
    | ⟨0, _⟩ => show z.val = 0; omega
    | ⟨1, _⟩ => rfl)

private theorem out_bias_idx (b : Fin 16384) (l : Fin 16) (z : Fin 1) :
    idx_main_v25 (idx_main_v26 (ix3 b l z)) = ix1 (0 : Fin 1) :=
  funext fun a => Fin.ext (by match a with | ⟨0, _⟩ => rfl)

/-- The reference's logits array at explicit coordinates. -/
private theorem v27_at (x0 : (⟨S16384x129, .f32⟩ : BufTy).Contents (Elt Ideal)) (x1 : (⟨S128x8, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S1x128, .f32⟩ : BufTy).Contents (Elt Ideal)) (x8 : (⟨S1, .f32⟩ : BufTy).Contents (Elt Ideal))
    (b : Fin 16384) (l : Fin 16) (z : Fin 1) :
    val_main_v27 (F := Ideal) x0 x1 x2 x3 x4 x5 x6 x7 x8 (ix3 b l z) = logit x0 x1 x2 x3 x4 x5 x6 x7 x8 b l := by
  rw [val_main_v27_apply, val_main_v24_apply, val_main_v26_apply, val_main_v25_apply]
  simp only [Ideal.addf_def, out_lidx, out_ridx, out_bias_idx, v23_at]
  rfl

/-- The reference's logits array (its last axis has one entry). -/
theorem ref_logit (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) :
    val_main_v27 (F := Ideal) x0 x1 x2 x3 x4 x5 x6 x7 x8 = fun i => logit x0 x1 x2 x3 x4 x5 x6 x7 x8 (i 0) (i 1) := by
  funext i
  obtain ⟨b, l, z, rfl⟩ : ∃ b l z, i = ix3 b l z := ⟨i 0, i 1, i 2, eq_ix3 i⟩
  exact v27_at x0 x1 x2 x3 x4 x5 x6 x7 x8 b l z

end Cert.ReferenceIdeal.LaneValue

end
-- ==== Proof.RefB.lean ====
/-
  The reference's softmax along the batch and the weighted embeddings, read at an index: the column
  maximum as a fold of `max` from minus infinity (taken once more against minus infinity, which changes
  nothing), the shifted exponentials, their column sum from zero, the quotient — the product with the
  reciprocal of the sum, since with real read-out weights the sum is not zero — broadcast over the 128
  units and multiplied with the embedding.
-/
import proofs.«411023_j80564996538677_3_alg».proof.Proof.RefRead
import proofs.«411023_j80564996538677_3_alg».proof.Proof.Spec
import proofs.«411023_j80564996538677_3_alg».proof.Proof.Algebra
import proofs.«411023_j80564996538677_3_alg».proof.Proof.RefA

set_option maxRecDepth 16384

noncomputable section

namespace Cert.ReferenceIdeal.LaneValue

open Idealize.ShloMosaic Idealize.ShloMosaic.TcCoe Idealize.ShloMosaic.ValueIdx Idealize.SL.Sem
open Cert.ReferenceIdeal Cert.ReferenceIdeal.Gen Cert.ReferenceIdeal.ReadP Cert.LaneAttn

/-- The index over (l, 0) with row `k` put back on the dropped batch axis is (k, l, 0). -/
private theorem lift_batch (h : S16384x16x1.Reduces [0] S16x1) (l : Fin 16) (k : Fin (S16384x16x1.size 0)) :
    h.lift (ix2 l 0) k = ix3 (⟨k.val, k.isLt⟩ : Fin 16384) l 0 := by
  funext c; apply Fin.ext
  match c with
  | ⟨0, _⟩ => rfl
  | ⟨1, _⟩ => rfl
  | ⟨2, _⟩ => rfl

/-- The max-reduce over the batch at lane `l`: the fold of `max` from minus infinity over the rows' logits. -/
private theorem colMax_read (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (l : Fin 16) :
    val_main_v28 (F := Ideal) x0 x1 x2 x3 x4 x5 x6 x7 x8 (ix2 l 0) = colMax (logit x0 x1 x2 x3 x4 x5 x6 x7 x8) l := by
  unfold val_main_v28
  rw [ref_logit]
  have h : S16384x16x1.Reduces [0] S16x1 := by decide
  rw [Host.reduce_eq_fold_single FloatOps.maximumf _ _ reducesTo_S16384x16x1_S16x1_d0 h h_S_]
  rw [val_main_cst_1_apply, Ideal.ofBits_def, ofBits_neg_inf]
  unfold colMax
  have hf : ((fun i : S16384x16x1.Idx => logit x0 x1 x2 x3 x4 x5 x6 x7 x8 (i 0) (i 1)) ∘ h.lift (ix2 l 0))
      = fun k : Fin 16384 => logit x0 x1 x2 x3 x4 x5 x6 x7 x8 k l := funext fun k => by
    show logit x0 x1 x2 x3 x4 x5 x6 x7 x8 (h.lift (ix2 l 0) k 0) (h.lift (ix2 l 0) k 1) = _
    rw [lift_batch h l k]; rfl
  exact congrArg (fun f => Finset.fold max (⊥ : EReal) f (Finset.univ : Finset (Fin 16384))) hf

/-- Taken once more against minus infinity, the column maximum is unchanged. -/
private theorem colMax_again (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (l : Fin 16) :
    val_main_v30 (F := Ideal) x0 x1 x2 x3 x4 x5 x6 x7 x8 (ix2 l 0) = colMax (logit x0 x1 x2 x3 x4 x5 x6 x7 x8) l := by
  rw [val_main_v30_apply, val_main_v29_apply, val_main_cst_2_apply, colMax_read]
  simp only [Ideal.maximumf_def, Ideal.ofBits_def, ofBits_neg_inf]
  exact max_eq_right bot_le

/-- The column maximum broadcast back over the batch. -/
private theorem colMax_bcast (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (b : Fin 16384) (l : Fin 16) :
    val_main_v32 (F := Ideal) x0 x1 x2 x3 x4 x5 x6 x7 x8 (ix3 b l 0) = colMax (logit x0 x1 x2 x3 x4 x5 x6 x7 x8) l := by
  rw [val_main_v32_apply, val_main_v31_apply]
  have e : idx_main_v31 (idx_main_v32 (ix3 b l (0 : Fin 1))) = ix2 l (0 : Fin 1) :=
    funext fun a => Fin.ext (by match a with | ⟨0, _⟩ => rfl | ⟨1, _⟩ => rfl)
  rw [e, colMax_again]

/-- The shifted exponential. -/
private theorem expShift_read (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (b : Fin 16384) (l : Fin 16) :
    val_main_v34 (F := Ideal) x0 x1 x2 x3 x4 x5 x6 x7 x8 (ix3 b l 0) = expShift (logit x0 x1 x2 x3 x4 x5 x6 x7 x8) b l := by
  rw [val_main_v34_apply, val_main_v33_apply, colMax_bcast, ref_logit]
  simp only [Ideal.hostUnary_exp_def, Ideal.subf_def]
  rfl

/-- The column sum of the shifted exponentials, from zero. -/
private theorem colSum_read (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (l : Fin 16) :
    val_main_v35 (F := Ideal) x0 x1 x2 x3 x4 x5 x6 x7 x8 (ix2 l 0) = colSum (logit x0 x1 x2 x3 x4 x5 x6 x7 x8) l := by
  rw [val_main_v35_apply, val_main_cst_3_apply, Ideal.ofBits_def, Ideal.ofBits_zero_f32, zero_add]
  unfold colSum
  refine Finset.sum_congr rfl fun k _ => ?_
  have e : idx_main_v35 (ix2 l (0 : Fin 1)) k = ix3 k l (0 : Fin 1) :=
    funext fun a => Fin.ext (by match a with | ⟨0, _⟩ => rfl | ⟨1, _⟩ => rfl | ⟨2, _⟩ => rfl)
  rw [e, expShift_read]

/-- The column sum broadcast back over the batch. -/
private theorem colSum_bcast (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (b : Fin 16384) (l : Fin 16) :
    val_main_v37 (F := Ideal) x0 x1 x2 x3 x4 x5 x6 x7 x8 (ix3 b l 0) = colSum (logit x0 x1 x2 x3 x4 x5 x6 x7 x8) l := by
  rw [val_main_v37_apply, val_main_v36_apply]
  have e : idx_main_v36 (idx_main_v37 (ix3 b l (0 : Fin 1))) = ix2 l (0 : Fin 1) :=
    funext fun a => Fin.ext (by match a with | ⟨0, _⟩ => rfl | ⟨1, _⟩ => rfl)
  rw [e, colSum_read]

/-- Every logit is real when the read-out row and its bias are. -/
private theorem logit_real (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal))
    (hw : ∀ i, ∃ r : ℝ, x7 i = (r : EReal)) (hb : ∀ i, ∃ r : ℝ, x8 i = (r : EReal)) (b : Fin 16384) (l : Fin 16) :
    ∃ r : ℝ, logit x0 x1 x2 x3 x4 x5 x6 x7 x8 b l = (r : EReal) := by
  unfold logit
  exact logitRow_real _ _ _ _ _ _ _ hw hb l

/-- The quotient by the column sum is the softmax weight. -/
private theorem attn_read (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal))
    (hw : ∀ i, ∃ r : ℝ, x7 i = (r : EReal)) (hb : ∀ i, ∃ r : ℝ, x8 i = (r : EReal)) (b : Fin 16384) (l : Fin 16) :
    val_main_v38 (F := Ideal) x0 x1 x2 x3 x4 x5 x6 x7 x8 (ix3 b l 0) = attn (logit x0 x1 x2 x3 x4 x5 x6 x7 x8) b l := by
  rw [val_main_v38_apply, expShift_read, colSum_bcast, Ideal.hostDivf_def]
  exact div_colSum _ (logit_real x0 x1 x2 x3 x4 x5 x6 x7 x8 hw hb) b l

/-- The reference's weighted embeddings. -/
theorem ref_weighted (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal))
    (hw : ∀ i, ∃ r : ℝ, x7 i = (r : EReal)) (hb : ∀ i, ∃ r : ℝ, x8 i = (r : EReal)) :
    val_main_v40 (F := Ideal) x0 x1 x2 x3 x4 x5 x6 x7 x8
      = fun i => attn (logit x0 x1 x2 x3 x4 x5 x6 x7 x8) (i 0) (i 1) * emb x0 x1 x2 (i 0) (i 1) (i 2) := by
  funext i
  obtain ⟨b, l, o, rfl⟩ : ∃ b l o, i = ix3 b l o := ⟨i 0, i 1, i 2, eq_ix3 i⟩
  rw [val_main_v40_apply, val_main_v39_apply, ref_emb]
  have e : idx_main_v39 (ix3 b l o) = ix3 b l (0 : Fin 1) :=
    funext fun a => Fin.ext (by match a with | ⟨0, _⟩ => rfl | ⟨1, _⟩ => rfl | ⟨2, _⟩ => rfl)
  rw [e, attn_read x0 x1 x2 x3 x4 x5 x6 x7 x8 hw hb, Ideal.mulf_def]

end Cert.ReferenceIdeal.LaneValue

end
-- ==== Proof.RefC.lean ====
/-
  The reference's lane pairs and the pair its phase picks, read at an index. A pair is the sum of two
  gathers of the weighted embeddings along the lane axis at a column of the pair words (a negative word
  would be wrapped by 16 and the gather clamps: with the words in 0 … 15 it reads the named lane), which
  is the lane sum against the selector; the picked pair is a gather along the pair axis at the row's
  phase word (wrapped, range-checked with a fill outside 0 … 7: with the word in range it reads the named
  pair), which is the pair sum against the indicator.
-/
import proofs.«411023_j80564996538677_3_alg».proof.Proof.RefRead
import proofs.«411023_j80564996538677_3_alg».proof.Proof.Spec
import proofs.«411023_j80564996538677_3_alg».proof.Proof.Algebra
import proofs.«411023_j80564996538677_3_alg».proof.Proof.RefA
import proofs.«411023_j80564996538677_3_alg».proof.Proof.RefB

set_option maxRecDepth 16384

noncomputable section

namespace Cert.ReferenceIdeal.LaneValue

open Idealize.ShloMosaic Idealize.ShloMosaic.TcCoe Idealize.ShloMosaic.ValueIdx Idealize.SL.Sem
open Cert.ReferenceIdeal Cert.ReferenceIdeal.Gen Cert.ReferenceIdeal.ReadP Cert.LaneAttn

/-! ## Words in range -/

/-- A word that is not negative is not below zero in the signed order. -/
private theorem cmpi_slt_zero (w : BitVec 32) (h : 0 ≤ w.toInt) : IntOp.cmpi .slt w 0#32 = 0#1 := by
  have h0 : (0#32 : BitVec 32).toInt = 0 := by decide
  show BitVec.ofBool (w.slt 0#32) = 0#1
  have : w.slt 0#32 = false := by
    unfold BitVec.slt; rw [h0]; exact decide_eq_false (by omega)
  rw [this]; rfl

/-- A word that is not negative is at least zero in the signed order. -/
private theorem cmpi_sge_zero (w : BitVec 32) (h : 0 ≤ w.toInt) : IntOp.cmpi .sge w 0#32 = 1#1 := by
  have h0 : (0#32 : BitVec 32).toInt = 0 := by decide
  show BitVec.ofBool ((0#32 : BitVec 32).sle w) = 1#1
  have : (0#32 : BitVec 32).sle w = true := by
    unfold BitVec.sle; rw [h0]; exact decide_eq_true h
  rw [this]; rfl

/-- A word below eight is at most seven in the signed order. -/
private theorem cmpi_sle_seven (w : BitVec 32) (h : w.toInt < 8) : IntOp.cmpi .sle w 7#32 = 1#1 := by
  have h7 : (7#32 : BitVec 32).toInt = 7 := by decide
  show BitVec.ofBool (w.sle 7#32) = 1#1
  have : w.sle 7#32 = true := by
    unfold BitVec.sle; rw [h7]; exact decide_eq_true (by omega)
  rw [this]; rfl

/-- The wrap of a negative word keeps a word that is not negative. -/
private theorem select_wrap (w n : BitVec 32) (h : 0 ≤ w.toInt) :
    Scalar.select (IntOp.cmpi .slt w 0#32) (IntOp.addi w n) w = w := by
  rw [cmpi_slt_zero w h]; exact select_zero _ _

/-- A word that is not negative, read signed, is its natural value. -/
private theorem toInt_toNat (w : BitVec 32) (h : 0 ≤ w.toInt) : w.toInt.toNat = w.toNat := by
  have hlt := w.isLt
  have hc := BitVec.toInt_eq_toNat_cond w
  by_cases hw : 2 * w.toNat < 2 ^ 32
  · rw [if_pos hw] at hc; omega
  · rw [if_neg hw] at hc; omega

/-- A lane word in 0 … 15, clamped into the lane axis, names its lane. -/
private theorem lane_val (w : BitVec 32) (hlo : 0 ≤ w.toInt) (hhi : w.toInt < 16) :
    min w.toInt.toNat 15 = (laneOf w).val := by
  show min w.toInt.toNat 15 = w.toNat % 16
  have e := toInt_toNat w hlo
  have : (w.toInt.toNat : Int) = w.toInt := Int.toNat_of_nonneg hlo
  omega

/-- A pair word in 0 … 7, clamped into the pair axis, names its pair. -/
private theorem pair_val (w : BitVec 32) (hlo : 0 ≤ w.toInt) (hhi : w.toInt < 8) :
    min w.toInt.toNat 7 = (pairOf w).val := by
  show min w.toInt.toNat 7 = w.toNat % 8
  have e := toInt_toNat w hlo
  have : (w.toInt.toNat : Int) = w.toInt := Int.toNat_of_nonneg hlo
  omega

/-! ## The two gathers read at an entry -/

section GatherLanes
local notation "dA" => gather_S16384x16x128_S8x1_S16384x8x128_02_1_n_n_1_1_163841128

private theorem gA0 (idx : IVec S8x1 32) (b : Fin 16384) (p : Fin 8) (o : Fin 128) :
    (GatherDims.operandIdx dA (ix3 b p o) idx 0).val = b.val := by
  show GatherDims.start _ _ idx _ + GatherDims.batchCoord _ _ _ + GatherDims.offCoord _ _ _ = b.val
  rw [GatherDims.batchCoord_eq_zero _ _ _ (by decide)]
  unfold GatherDims.start GatherDims.offCoord
  rw [dif_neg (by decide), dif_pos (by decide)]
  simp only [Nat.zero_add, Nat.add_zero]
  rfl

private theorem gA2 (idx : IVec S8x1 32) (b : Fin 16384) (p : Fin 8) (o : Fin 128) :
    (GatherDims.operandIdx dA (ix3 b p o) idx 2).val = o.val := by
  show GatherDims.start _ _ idx _ + GatherDims.batchCoord _ _ _ + GatherDims.offCoord _ _ _ = o.val
  rw [GatherDims.batchCoord_eq_zero _ _ _ (by decide)]
  unfold GatherDims.start GatherDims.offCoord
  rw [dif_neg (by decide), dif_pos (by decide)]
  simp only [Nat.zero_add, Nat.add_zero]
  rfl

private theorem gA1 (idx : IVec S8x1 32) (b : Fin 16384) (p : Fin 8) (o : Fin 128) :
    (GatherDims.operandIdx dA (ix3 b p o) idx 1).val = min (idx (ix2 p 0)).toInt.toNat 15 := by
  show GatherDims.start _ _ idx _ + GatherDims.batchCoord _ _ _ + GatherDims.offCoord _ _ _ = _
  rw [GatherDims.batchCoord_eq_zero _ _ _ (by decide), GatherDims.offCoord_eq_zero _ _ _ (by decide)]
  unfold GatherDims.start
  rw [dif_pos (by decide)]
  simp only [Nat.add_zero]
  have hsi : GatherDims.siIdx dA (ix3 b p o)
      ⟨List.idxOf (1 : Fin S16384x16x128.rank) (GatherDims.startIndexMap dA), List.idxOf_lt_length_iff.2 (by decide)⟩ = ix2 p 0 := by
    funext c; refine Fin.ext ?_
    match c with
    | ⟨0, _⟩ => rfl
    | ⟨1, _⟩ => rfl
  rw [hsi]
  rfl

/-- The gather along the lane axis at a column of eight words: entry (b, p, o) is the operand's at row b, at the lane
    word p names (read signed, clamped into 0 … 15), at unit o. -/
theorem gather_lanes_apply {α : Type} (x : S16384x16x128.Idx → α) (idx : IVec S8x1 32) (b : Fin 16384) (p : Fin 8) (o : Fin 128)
    (l : Fin 16) (hl : min (idx (ix2 p 0)).toInt.toNat 15 = l.val) :
    Host.gather dA x idx (ix3 b p o) = x (ix3 b l o) := by
  unfold Host.gather
  congr 1
  funext a
  apply Fin.ext
  match a with
  | ⟨0, _⟩ => exact gA0 idx b p o
  | ⟨1, _⟩ => exact (gA1 idx b p o).trans hl
  | ⟨2, _⟩ => exact gA2 idx b p o
end GatherLanes

section GatherPairs
local notation "dB" => gather_S16384x8x128_S16384x1x1_S16384x1x128_2_1_0_0_1_2_11128

private theorem gB0 (idx : IVec S16384x1x1 32) (b : Fin 16384) (u : Fin 1) (o : Fin 128) :
    (GatherDims.operandIdx dB (ix3 b u o) idx 0).val = b.val := by
  show GatherDims.start _ _ idx _ + GatherDims.batchCoord _ _ _ + GatherDims.offCoord _ _ _ = b.val
  rw [GatherDims.offCoord_eq_zero _ _ _ (by decide)]
  unfold GatherDims.start GatherDims.batchCoord
  rw [dif_neg (by decide), dif_pos (by decide)]
  simp only [Nat.zero_add, Nat.add_zero]
  rfl

private theorem gB2 (idx : IVec S16384x1x1 32) (b : Fin 16384) (u : Fin 1) (o : Fin 128) :
    (GatherDims.operandIdx dB (ix3 b u o) idx 2).val = o.val := by
  show GatherDims.start _ _ idx _ + GatherDims.batchCoord _ _ _ + GatherDims.offCoord _ _ _ = o.val
  rw [GatherDims.batchCoord_eq_zero _ _ _ (by decide)]
  unfold GatherDims.start GatherDims.offCoord
  rw [dif_neg (by decide), dif_pos (by decide)]
  simp only [Nat.zero_add, Nat.add_zero]
  rfl

private theorem gB1 (idx : IVec S16384x1x1 32) (b : Fin 16384) (u : Fin 1) (o : Fin 128) :
    (GatherDims.operandIdx dB (ix3 b u o) idx 1).val = min (idx (ix3 b u 0)).toInt.toNat 7 := by
  show GatherDims.start _ _ idx _ + GatherDims.batchCoord _ _ _ + GatherDims.offCoord _ _ _ = _
  rw [GatherDims.batchCoord_eq_zero _ _ _ (by decide), GatherDims.offCoord_eq_zero _ _ _ (by decide)]
  unfold GatherDims.start
  rw [dif_pos (by decide)]
  simp only [Nat.add_zero]
  have hsi : GatherDims.siIdx dB (ix3 b u o)
      ⟨List.idxOf (1 : Fin S16384x8x128.rank) (GatherDims.startIndexMap dB), List.idxOf_lt_length_iff.2 (by decide)⟩ = ix3 b u 0 := by
    funext c; refine Fin.ext ?_
    match c with
    | ⟨0, _⟩ => rfl
    | ⟨1, _⟩ => rfl
    | ⟨2, _⟩ => rfl
  rw [hsi]
  rfl

/-- The batched gather along the pair axis at each row's own word: entry (b, 0, o) is the operand's at row b, at the pair
    the row's word names (read signed, clamped into 0 … 7), at unit o. -/
theorem gather_pairs_apply {α : Type} (x : S16384x8x128.Idx → α) (idx : IVec S16384x1x1 32) (b : Fin 16384) (u : Fin 1) (o : Fin 128)
    (q : Fin 8) (hq : min (idx (ix3 b u 0)).toInt.toNat 7 = q.val) :
    Host.gather dB x idx (ix3 b u o) = x (ix3 b q o) := by
  unfold Host.gather
  congr 1
  funext a
  apply Fin.ext
  match a with
  | ⟨0, _⟩ => exact gB0 idx b u o
  | ⟨1, _⟩ => exact (gB1 idx b u o).trans hq
  | ⟨2, _⟩ => exact gB2 idx b u o
end GatherPairs

/-! ## The pair words and the phase word, as the gathers meet them -/

/-- Column 0 of the pair words after the wrap: the word itself. -/
private theorem words0 (x15 : (⟨S8x2, .i32⟩ : BufTy).Contents (Elt Ideal)) (hlo : ∀ i, 0 ≤ (x15 i).toInt) (p : Fin 8) :
    val_main_v48 (F := Ideal) x15 (ix2 p 0) = x15 (ix2 p 0) := by
  have e48 : idx_main_v48 (ix2 p (0 : Fin 1)) = ix1 p := funext fun a => Fin.ext (by match a with | ⟨0, _⟩ => rfl)
  have e42 : idx_main_v42 (ix1 p) = ix2 p 0 :=
    funext fun a => Fin.ext (by match a with | ⟨0, _⟩ => exact Nat.div_one _ | ⟨1, _⟩ => rfl)
  have e41 : idx_main_v41 (ix2 p (0 : Fin 1)) = ix2 p (0 : Fin 2) :=
    funext fun a => Fin.ext (by match a with | ⟨0, _⟩ => rfl | ⟨1, _⟩ => rfl)
  rw [val_main_v48_apply, e48, val_main_v47_apply, val_main_v44_apply, val_main_v46_apply, val_main_v42_apply, e42,
    val_main_v41_apply, e41, val_main_v43_apply, val_main_c_apply]
  exact select_wrap _ _ (hlo _)

/-- Column 1 of the pair words after the wrap: the word itself. -/
private theorem words1 (x15 : (⟨S8x2, .i32⟩ : BufTy).Contents (Elt Ideal)) (hlo : ∀ i, 0 ≤ (x15 i).toInt) (p : Fin 8) :
    val_main_v57 (F := Ideal) x15 (ix2 p 0) = x15 (ix2 p 1) := by
  have e57 : idx_main_v57 (ix2 p (0 : Fin 1)) = ix1 p := funext fun a => Fin.ext (by match a with | ⟨0, _⟩ => rfl)
  have e51 : idx_main_v51 (ix1 p) = ix2 p 0 :=
    funext fun a => Fin.ext (by match a with | ⟨0, _⟩ => exact Nat.div_one _ | ⟨1, _⟩ => rfl)
  have e50 : idx_main_v50 (ix2 p (0 : Fin 1)) = ix2 p (1 : Fin 2) :=
    funext fun a => Fin.ext (by match a with | ⟨0, _⟩ => rfl | ⟨1, _⟩ => rfl)
  rw [val_main_v57_apply, e57, val_main_v56_apply, val_main_v53_apply, val_main_v55_apply, val_main_v51_apply, e51,
    val_main_v50_apply, e50, val_main_v52_apply, val_main_c_5_apply]
  exact select_wrap _ _ (hlo _)

/-- The broadcast phase words: row b's is its phase. -/
private theorem phase_word (x0 : (⟨S16384x129, .f32⟩ : BufTy).Contents (Elt Ideal)) (b : Fin 16384) (u v : Fin 1) :
    val_main_v60 (F := Ideal) x0 (ix3 b u v) = phase x0 b := by
  have e60 : idx_main_v60 (ix3 b u v) = ix1 b := funext fun a => Fin.ext (by match a with | ⟨0, _⟩ => rfl)
  have e1 : idx_main_v1 (ix1 b) = ix2 b 0 :=
    funext fun a => Fin.ext (by match a with | ⟨0, _⟩ => exact Nat.div_one _ | ⟨1, _⟩ => rfl)
  have e0 : idx_main_v0 (ix2 b (0 : Fin 1)) = ix2 b (0 : Fin 129) :=
    funext fun a => Fin.ext (by match a with | ⟨0, _⟩ => rfl | ⟨1, _⟩ => rfl)
  rw [val_main_v60_apply, e60, val_main_v2_apply, val_main_v1_apply, e1, val_main_v0_apply, e0]
  rfl

/-- The phase words after the wrap: the phase itself. -/
private theorem phase_wrapped (x0 : (⟨S16384x129, .f32⟩ : BufTy).Contents (Elt Ideal)) (hlo : ∀ b, 0 ≤ (phase x0 b).toInt)
    (b : Fin 16384) (u v : Fin 1) :
    val_main_call0_v4 (F := Ideal) x0 (ix3 b u v) = phase x0 b := by
  rw [val_main_call0_v4_apply, val_main_call0_v1_apply, val_main_call0_v3_apply, phase_word, val_main_call0_v0_apply,
    val_main_call0_c_apply]
  exact select_wrap _ _ (hlo b)

/-- The range test of the wrapped phase word holds everywhere. -/
private theorem in_range (x0 : (⟨S16384x129, .f32⟩ : BufTy).Contents (Elt Ideal)) (hlo : ∀ b, 0 ≤ (phase x0 b).toInt)
    (hhi : ∀ b, (phase x0 b).toInt < 8) (i : S16384x1x1.Idx) :
    val_main_call0_v10 (F := Ideal) x0 i = 1#1 := by
  obtain ⟨b, u, v, rfl⟩ : ∃ b u v, i = ix3 b u v := ⟨i 0, i 1, i 2, eq_ix3 i⟩
  rw [val_main_call0_v10_apply, val_main_call0_v6_apply, val_main_call0_v9_apply, phase_wrapped x0 hlo,
    val_main_call0_v5_apply, val_main_call0_c_2_apply, val_main_call0_v8_apply, val_main_call0_v7_apply,
    val_main_call0_c_1_apply, cmpi_sge_zero _ (hlo b), cmpi_sle_seven _ (hhi b)]
  rfl

/-- The test reduced over its unit axis still holds. -/
private theorem in_range_reduced (x0 : (⟨S16384x129, .f32⟩ : BufTy).Contents (Elt Ideal)) (hlo : ∀ b, 0 ≤ (phase x0 b).toInt)
    (hhi : ∀ b, (phase x0 b).toInt < 8) (j : S16384x1.Idx) :
    val_main_call0_v11 (F := Ideal) x0 j = 1#1 := by
  have hR : S16384x1x1.Reduces [2] S16384x1 := by decide
  unfold val_main_call0_v11
  rw [Host.reduce_eq_fold_single IntOp.andi _ _ reducesTo_S16384x1x1_S16384x1_d2 hR h_S_ j]
  have hx : (val_main_call0_v10 (F := Ideal) x0 ∘ hR.lift j) = fun _ => 1#1 :=
    funext fun k => in_range x0 hlo hhi _
  rw [hx]
  show (Finset.univ : Finset (Fin 1)).fold IntOp.andi (val_main_call0_c_3 (F := Ideal) _) (fun _ => 1#1) = 1#1
  rw [val_main_call0_c_3_apply]
  rfl

/-! ## The two stages -/

/-- The reference's pairs array. -/
theorem ref_pairs (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (x15 : (⟨S8x2, .i32⟩ : BufTy).Contents (Elt Ideal))
    (h : Admissible x0 x7 x8 x15) :
    val_main_v59 (F := Ideal) x0 x1 x2 x3 x4 x5 x6 x7 x8 x15
      = fun i => pairsRow (emb x0 x1 x2 (i 0)) (attn (logit x0 x1 x2 x3 x4 x5 x6 x7 x8) (i 0)) (sel x15) (i 1) (i 2) := by
  funext i
  obtain ⟨b, p, o, rfl⟩ : ∃ b p o, i = ix3 b p o := ⟨i 0, i 1, i 2, eq_ix3 i⟩
  show val_main_v59 (F := Ideal) x0 x1 x2 x3 x4 x5 x6 x7 x8 x15 (ix3 b p o)
    = pairsRow (emb x0 x1 x2 b) (attn (logit x0 x1 x2 x3 x4 x5 x6 x7 x8) b) (sel x15) p o
  rw [val_main_v59_apply, pairsRow_sel _ _ _ h.pair_lo h.pair_hi]
  unfold val_main_v49 val_main_v58
  rw [gather_lanes_apply _ _ b p o (laneOf (x15 (ix2 p 0)))
      (by rw [words0 x15 h.pair_lo]; exact lane_val _ (h.pair_lo _) (h.pair_hi _)),
    gather_lanes_apply _ _ b p o (laneOf (x15 (ix2 p 1)))
      (by rw [words1 x15 h.pair_lo]; exact lane_val _ (h.pair_lo _) (h.pair_hi _)),
    ref_weighted x0 x1 x2 x3 x4 x5 x6 x7 x8 h.saw_real h.sab_real]
  rfl

/-- The reference's picked pair. -/
theorem ref_green (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal)) (x15 : (⟨S8x2, .i32⟩ : BufTy).Contents (Elt Ideal))
    (h : Admissible x0 x7 x8 x15) :
    val_main_v62 (F := Ideal) x0 x1 x2 x3 x4 x5 x6 x7 x8 x15
      = fun i => greenRow (emb x0 x1 x2 (i 0)) (attn (logit x0 x1 x2 x3 x4 x5 x6 x7 x8) (i 0)) (sel x15) (hotOf (phase x0 (i 0))) (i 1) := by
  funext i
  obtain ⟨b, o, rfl⟩ : ∃ b o, i = ix2 b o := ⟨i 0, i 1, eq_ix2 i⟩
  show val_main_v62 (F := Ideal) x0 x1 x2 x3 x4 x5 x6 x7 x8 x15 (ix2 b o)
    = greenRow (emb x0 x1 x2 b) (attn (logit x0 x1 x2 x3 x4 x5 x6 x7 x8) b) (sel x15) (hotOf (phase x0 b)) o
  have e62 : idx_main_v62 (ix2 b o) = ix3 b 0 o := funext fun a => Fin.ext (by
    have hb := b.isLt; have ho := o.isLt
    match a with
    | ⟨0, _⟩ => show (b.val * 128 + o.val) / 128 = b.val; omega
    | ⟨1, _⟩ => rfl
    | ⟨2, _⟩ => show (b.val * 128 + o.val) % 128 = o.val; omega)
  rw [val_main_v62_apply, e62, val_main_v61_apply, val_main_call0_v13_apply,
    in_range_reduced x0 h.phase_lo h.phase_hi, select_one]
  unfold val_main_call0_v12
  rw [gather_pairs_apply _ _ b 0 o (pairOf (phase x0 b))
      (by rw [phase_wrapped x0 h.phase_lo]; exact pair_val _ (h.phase_lo b) (h.phase_hi b)),
    ref_pairs x0 x1 x2 x3 x4 x5 x6 x7 x8 x15 h, greenRow_hotOf _ _ _ _ (h.phase_lo b) (h.phase_hi b)]

end Cert.ReferenceIdeal.LaneValue

end
-- ==== Proof.RefD.lean ====
/-
  The reference's result, read at an index: two contractions over 128 units plus their biases, of the pairs
  and of the picked pair; `tanh` of their sum; a contraction with the one read-out row plus its bias; the
  unit axis dropped.
-/
import proofs.«411023_j80564996538677_3_alg».proof.Proof.RefRead
import proofs.«411023_j80564996538677_3_alg».proof.Proof.Spec
import proofs.«411023_j80564996538677_3_alg».proof.Proof.Algebra
import proofs.«411023_j80564996538677_3_alg».proof.Proof.RefC

set_option maxRecDepth 16384

noncomputable section

namespace Cert.ReferenceIdeal.LaneValue

open Idealize.ShloMosaic Idealize.ShloMosaic.TcCoe Idealize.ShloMosaic.ValueIdx Idealize.SL.Sem
open Cert.ReferenceIdeal Cert.ReferenceIdeal.Gen Cert.ReferenceIdeal.ReadP Cert.LaneAttn

/-- The affine image of the picked pair, at row `b`, unit `o`: the contraction of the picked pair with row `o` of
    the matrix, plus the bias's entry `o`. -/
private theorem ref_green_lin (x0 : (⟨S16384x129, .f32⟩ : BufTy).Contents (Elt Ideal)) (x1 : (⟨S128x8, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S1x128, .f32⟩ : BufTy).Contents (Elt Ideal)) (x8 : (⟨S1, .f32⟩ : BufTy).Contents (Elt Ideal)) (x11 : (⟨S128x128, .f32⟩ : BufTy).Contents (Elt Ideal)) (x12 : (⟨S128, .f32⟩ : BufTy).Contents (Elt Ideal)) (x15 : (⟨S8x2, .i32⟩ : BufTy).Contents (Elt Ideal))
    (h : Admissible x0 x7 x8 x15) (b : Fin 16384) (o : Fin 128) :
    val_main_v66 (F := Ideal) x0 x1 x2 x3 x4 x5 x6 x7 x8 x11 x12 x15 (ix2 b o)
      = lin x11 x12 (greenRow (emb x0 x1 x2 b) (attn (logit x0 x1 x2 x3 x4 x5 x6 x7 x8) b) (sel x15) (hotOf (phase x0 b))) o := by
  have e1 : ∀ k : Fin 128, lidx_main_v63 (ix2 b o) k = ix2 b k := fun k =>
    funext fun a => Fin.ext (by match a with | ⟨0, _⟩ => rfl | ⟨1, _⟩ => rfl)
  have e2 : ∀ k : Fin 128, ridx_main_v63 (ix2 b o) k = ix2 o k := fun k =>
    funext fun a => Fin.ext (by match a with | ⟨0, _⟩ => rfl | ⟨1, _⟩ => rfl)
  have e3 : idx_main_v64 (idx_main_v65 (ix2 b o)) = ix1 o :=
    funext fun a => Fin.ext (by match a with | ⟨0, _⟩ => rfl)
  rw [val_main_v66_apply, val_main_v63_apply, val_main_v65_apply, val_main_v64_apply,
    ref_green x0 x1 x2 x3 x4 x5 x6 x7 x8 x15 h]
  simp only [e1, e2, e3, Ideal.addf_def]
  rfl

/-- The affine image of pair `p`, at row `b`, unit `o`. -/
private theorem ref_pairs_lin (x0 : (⟨S16384x129, .f32⟩ : BufTy).Contents (Elt Ideal)) (x1 : (⟨S128x8, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S1x128, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x15 : (⟨S8x2, .i32⟩ : BufTy).Contents (Elt Ideal))
    (h : Admissible x0 x7 x8 x15) (b : Fin 16384) (p : Fin 8) (o : Fin 128) :
    val_main_v70 (F := Ideal) x0 x1 x2 x3 x4 x5 x6 x7 x8 x9 x10 x15 (ix3 b p o)
      = lin x9 x10 (pairsRow (emb x0 x1 x2 b) (attn (logit x0 x1 x2 x3 x4 x5 x6 x7 x8) b) (sel x15) p) o := by
  have e1 : ∀ k : Fin 128, lidx_main_v67 (ix3 b p o) k = ix3 b p k := fun k =>
    funext fun a => Fin.ext (by match a with | ⟨0, _⟩ => rfl | ⟨1, _⟩ => rfl | ⟨2, _⟩ => rfl)
  have e2 : ∀ k : Fin 128, ridx_main_v67 (ix3 b p o) k = ix2 o k := fun k =>
    funext fun a => Fin.ext (by match a with | ⟨0, _⟩ => rfl | ⟨1, _⟩ => rfl)
  have e3 : idx_main_v68 (idx_main_v69 (ix3 b p o)) = ix1 o :=
    funext fun a => Fin.ext (by match a with | ⟨0, _⟩ => rfl)
  rw [val_main_v70_apply, val_main_v67_apply, val_main_v69_apply, val_main_v68_apply,
    ref_pairs x0 x1 x2 x3 x4 x5 x6 x7 x8 x15 h]
  simp only [e1, e2, e3, Ideal.addf_def]
  rfl

/-- The hidden unit `o` of pair `p` of row `b`: `tanh` of the pair's affine image plus the picked pair's. -/
private theorem ref_hidden (x0 : (⟨S16384x129, .f32⟩ : BufTy).Contents (Elt Ideal)) (x1 : (⟨S128x8, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S1x128, .f32⟩ : BufTy).Contents (Elt Ideal)) (x8 : (⟨S1, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x15 : (⟨S8x2, .i32⟩ : BufTy).Contents (Elt Ideal))
    (h : Admissible x0 x7 x8 x15) (b : Fin 16384) (p : Fin 8) (o : Fin 128) :
    val_main_v74 (F := Ideal) x0 x1 x2 x3 x4 x5 x6 x7 x8 x9 x10 x11 x12 x15 (ix3 b p o)
      = Ideal.tanh (lin x9 x10 (pairsRow (emb x0 x1 x2 b) (attn (logit x0 x1 x2 x3 x4 x5 x6 x7 x8) b) (sel x15) p) o
          + lin x11 x12 (greenRow (emb x0 x1 x2 b) (attn (logit x0 x1 x2 x3 x4 x5 x6 x7 x8) b) (sel x15) (hotOf (phase x0 b))) o) := by
  have e1 : idx_main_v71 (idx_main_v72 (ix3 b p o)) = ix2 b o :=
    funext fun a => Fin.ext (by match a with | ⟨0, _⟩ => rfl | ⟨1, _⟩ => rfl)
  rw [val_main_v74_apply, val_main_v73_apply, val_main_v72_apply, val_main_v71_apply, e1,
    ref_pairs_lin x0 x1 x2 x3 x4 x5 x6 x7 x8 x9 x10 x15 h, ref_green_lin x0 x1 x2 x3 x4 x5 x6 x7 x8 x11 x12 x15 h]
  rfl

/-- The reference's result array is the specification's result of its arguments. -/
theorem ref_result (x0 : (⟨S16384x129, .f32⟩ : BufTy).Contents (Elt Ideal)) (x1 : (⟨S128x8, .f32⟩ : BufTy).Contents (Elt Ideal)) (x2 : (⟨S128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S1x128, .f32⟩ : BufTy).Contents (Elt Ideal)) (x8 : (⟨S1, .f32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (x13 : (⟨S1x128, .f32⟩ : BufTy).Contents (Elt Ideal)) (x14 : (⟨S1, .f32⟩ : BufTy).Contents (Elt Ideal)) (x15 : (⟨S8x2, .i32⟩ : BufTy).Contents (Elt Ideal))
    (h : Admissible x0 x7 x8 x15) :
    val_main_v79 (F := Ideal) x0 x1 x2 x3 x4 x5 x6 x7 x8 x9 x10 x11 x12 x13 x14 x15
      = fun i => result x0 x1 x2 x3 x4 x5 x6 x7 x8 x9 x10 x11 x12 x13 x14 x15 (i 0) (i 1) := by
  -- entry (b, p) reads (b, p, 0) before the unit axis is dropped; there the hidden units of pair p of row b are
  -- contracted with the one read-out row and the one bias entry is added: the read-out of `qRow`.
  funext i
  obtain ⟨b, p, rfl⟩ : ∃ b p, i = ix2 b p := ⟨i 0, i 1, eq_ix2 i⟩
  have e0 : idx_main_v79 (ix2 b p) = ix3 b p (0 : Fin 1) :=
    funext fun a => Fin.ext (by
      match a with
      | ⟨0, _⟩ => show ((b.val * 8 + p.val) / 8 : Nat) = b.val; omega
      | ⟨1, _⟩ => show ((b.val * 8 + p.val) / 1 % 8 : Nat) = p.val; omega
      | ⟨2, _⟩ => rfl)
  have e1 : ∀ k : Fin 128, lidx_main_v75 (ix3 b p (0 : Fin 1)) k = ix3 b p k := fun k =>
    funext fun a => Fin.ext (by match a with | ⟨0, _⟩ => rfl | ⟨1, _⟩ => rfl | ⟨2, _⟩ => rfl)
  have e2 : ∀ k : Fin 128, ridx_main_v75 (ix3 b p (0 : Fin 1)) k = ix2 (0 : Fin 1) k := fun k =>
    funext fun a => Fin.ext (by match a with | ⟨0, _⟩ => rfl | ⟨1, _⟩ => rfl)
  have e3 : idx_main_v76 (idx_main_v77 (ix3 b p (0 : Fin 1))) = ix1 (0 : Fin 1) :=
    funext fun a => Fin.ext (by match a with | ⟨0, _⟩ => rfl)
  rw [val_main_v79_apply, e0, val_main_v78_apply, val_main_v75_apply, val_main_v77_apply, val_main_v76_apply, e3]
  simp only [e1, e2, ref_hidden x0 x1 x2 x3 x4 x5 x6 x7 x8 x9 x10 x11 x12 x15 h, Ideal.addf_def]
  rfl

end Cert.ReferenceIdeal.LaneValue

end
-- ==== Proof.lean ====
/-
  The kernel computes, in two passes over blocks of 1024 rows, what the reference computes on the whole
  batch: per-lane attention logits (pass one); between the passes the softmax statistics along the batch
  (column maxima and the reciprocals of the column sums of the shifted exponentials); then (pass two) the
  softmax-weighted lane embeddings, eight lane pairs, the pair a row's phase picks, and a read-out.

  Both programs' result arrays are shown to be ONE function of the argument arrays (`Cert.LaneAttn.result`,
  Proof/Spec.lean), index by index on the extended reals:
  * the kernel's, unconditionally, from the frame run with the result buffer named: each region's output
    array is read block by block off the bodies' stored values, the host operations around the regions
    at an index (Proof/KHostA … KValue);
  * the reference's, from its run read one operation at a time, under what the precondition gives
    (Proof/PreDecode): the first read-out's weights are real, so that no softmax column sum is zero and
    the quotient is the product with the reciprocal; the pair words lie in 0 … 15 and the phase words in
    0 … 7, so that the gathers read the lanes and pairs the kernel's selector and indicator sums name
    (Proof/Algebra, Proof/RefA … RefD).
  The three frames are the generated ones (the reference's is its run with the result dropped); the ideal
  pass rewrote nothing, so the idealization claim is trivial.
-/
import proofs.«411023_j80564996538677_3_alg».proof.Defs
import proofs.«411023_j80564996538677_3_alg».proof.Proof.Gen.Kernel
import proofs.«411023_j80564996538677_3_alg».proof.Proof.Gen.Kernel.Frame
import proofs.«411023_j80564996538677_3_alg».proof.Proof.Gen.KernelIdeal
import proofs.«411023_j80564996538677_3_alg».proof.Proof.Gen.KernelIdeal.Frame
import proofs.«411023_j80564996538677_3_alg».proof.Proof.Gen.ReferenceIdeal
import proofs.«411023_j80564996538677_3_alg».proof.Proof.Gen.Pre_finite_inputs
import proofs.«411023_j80564996538677_3_alg».proof.Proof.RefRun
import proofs.«411023_j80564996538677_3_alg».proof.Proof.RefRead
import proofs.«411023_j80564996538677_3_alg».proof.Proof.KValue
import proofs.«411023_j80564996538677_3_alg».proof.Proof.PreDecode
import proofs.«411023_j80564996538677_3_alg».proof.Proof.RefD
import Idealize.ShloMosaic.Adequacy
import Idealize.ShloMosaic.Init

noncomputable section

namespace Cert.Proof

open Idealize.ShloMosaic Idealize.ShloMosaic.TcCoe Idealize.SL.Sem

/-- The two idealized programs, run from memories agreeing on the arguments, end with the same result
    array: the specification's result of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (fun i => Cert.KernelIdeal.LaneValue.resultOf m c (i 0) (i 1)), Cert.KernelIdeal.LaneValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v79_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact Cert.ReferenceIdeal.LaneValue.ref_result _ _ _ _ _ _ _ _ _ _ _ _ _ _ _ _
    (Cert.Pre_finite_inputs.Decode.admissible_of_pre _ _ _ _ _ _ _ _ _ _ _ _ _ _ _ _ (hpre c))

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
